-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x8 : Shape := ⟨2, ![4000000, 8]⟩
abbrev S4000000 : Shape := ⟨1, ![4000000]⟩
abbrev S_ : Shape := ⟨0, ![]⟩

class Facts : Prop where
  bcast_S_S4000000x8 : S_.BroadcastsInDim S4000000x8 (![] : Fin 0 → Fin S4000000x8.rank)
  reducesTo_S4000000x8_S_d0_1 : S4000000x8.ReducesTo [0, 1] S_
  h_S_ : 0 < S_.numel

variable [Facts]

def fn {F : FTy → Type} [FloatOps F] (main_arg0 : FVec F S4000000x8 .f32) (main_arg1 : IVec S4000000 32) : IVec S_ 1 :=
  let main_v0 : FVec F S4000000x8 .f32 := Host.absf main_arg0
  let main_cst : FVec F S_ .f32 := constant S_ .f32 0x7F800000#32
  let main_v1 : FVec F S4000000x8 .f32 := broadcastInDim S4000000x8 ![] bcast_S_S4000000x8 main_cst
  let main_v2 : IVec S4000000x8 1 := cmpf .olt main_v0 main_v1
  let main_c : IVec S_ 1 := constantI S_ 1 1#1
  let main_v3 : IVec S_ 1 := (fun x v => Host.reduce IntOp.andi x v reducesTo_S4000000x8_S_d0_1 h_S_) main_v2 main_c
  main_v3
-- ==== Kernel.lean ====
abbrev S4000000x8 : Shape := ⟨2, ![4000000, 8]⟩
abbrev S4000000 : Shape := ⟨1, ![4000000]⟩
abbrev S_ : Shape := ⟨0, ![]⟩
abbrev S4014080x8 : Shape := ⟨2, ![4014080, 8]⟩
abbrev S4014080 : Shape := ⟨1, ![4014080]⟩
abbrev S2x64x8 : Shape := ⟨3, ![2, 64, 8]⟩
abbrev S2x64x1 : Shape := ⟨3, ![2, 64, 1]⟩
abbrev S8192x8 : Shape := ⟨2, ![8192, 8]⟩
abbrev S8192 : Shape := ⟨1, ![8192]⟩
abbrev S1x64x8 : Shape := ⟨3, ![1, 64, 8]⟩
abbrev S1x64x1 : Shape := ⟨3, ![1, 64, 1]⟩
abbrev S64x8 : Shape := ⟨2, ![64, 8]⟩
abbrev S64x1 : Shape := ⟨2, ![64, 1]⟩
abbrev S8192x64 : Shape := ⟨2, ![8192, 64]⟩
abbrev S8192x1 : Shape := ⟨2, ![8192, 1]⟩
abbrev S64 : Shape := ⟨1, ![64]⟩

abbrev nBuf : Space → Nat
  | .hbm => 42
  | .vmem => 18
  | .smem => 0
  | _ => 0

abbrev bufTy : (tb : Table) → Fin (tcTables nBuf tb) → BufTy
  | .hbm, ⟨0, _⟩ => ⟨S4000000x8, .f32⟩
  | .hbm, ⟨1, _⟩ => ⟨S4000000, .i32⟩
  | .hbm, ⟨2, _⟩ => ⟨S_, .i32⟩
  | .hbm, ⟨3, _⟩ => ⟨S_, .f32⟩
  | .hbm, ⟨4, _⟩ => ⟨S4014080x8, .f32⟩
  | .hbm, ⟨5, _⟩ => ⟨S_, .i32⟩
  | .hbm, ⟨6, _⟩ => ⟨S_, .i32⟩
  | .hbm, ⟨7, _⟩ => ⟨S4014080, .i32⟩
  | .hbm, ⟨8, _⟩ => ⟨S2x64x8, .f32⟩
  | .hbm, ⟨9, _⟩ => ⟨S2x64x1, .f32⟩
  | .hbm, ⟨10, _⟩ => ⟨S_, .f32⟩
  | .hbm, ⟨11, _⟩ => ⟨S64x8, .f32⟩
  | .hbm, ⟨12, _⟩ => ⟨S_, .f32⟩
  | .hbm, ⟨13, _⟩ => ⟨S64x1, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64x1, .f32⟩
  | .hbm, ⟨19, _⟩ => ⟨S64x8, .f32⟩
  | .hbm, ⟨20, _⟩ => ⟨S64x8, .f32⟩
  | .hbm, ⟨21, _⟩ => ⟨S2x64x1, .f32⟩
  | .hbm, ⟨22, _⟩ => ⟨S_, .f32⟩
  | .hbm, ⟨23, _⟩ => ⟨S64x1, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .i1⟩
  | .hbm, ⟨32, _⟩ => ⟨S64, .i32⟩
  | .hbm, ⟨33, _⟩ => ⟨S_, .i32⟩
  | .hbm, ⟨34, _⟩ => ⟨S64, .i32⟩
  | .hbm, ⟨35, _⟩ => ⟨S64, .i1⟩
  | .hbm, ⟨36, _⟩ => ⟨S64, .i1⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S_, .f32⟩
  | .local _ .vmem, ⟨0, _⟩ => ⟨S8192x8, .f32⟩
  | .local _ .vmem, ⟨1, _⟩ => ⟨S8192x8, .f32⟩
  | .local _ .vmem, ⟨2, _⟩ => ⟨S8192, .i32⟩
  | .local _ .vmem, ⟨3, _⟩ => ⟨S8192, .i32⟩
  | .local _ .vmem, ⟨4, _⟩ => ⟨S1x64x8, .f32⟩
  | .local _ .vmem, ⟨5, _⟩ => ⟨S1x64x8, .f32⟩
  | .local _ .vmem, ⟨6, _⟩ => ⟨S1x64x1, .f32⟩
  | .local _ .vmem, ⟨7, _⟩ => ⟨S1x64x1, .f32⟩
  | .local _ .vmem, ⟨8, _⟩ => ⟨S64x8, .f32⟩
  | .local _ .vmem, ⟨9, _⟩ => ⟨S64x1, .f32⟩
  | .local _ .vmem, ⟨10, _⟩ => ⟨S8192x8, .f32⟩
  | .local _ .vmem, ⟨11, _⟩ => ⟨S8192x8, .f32⟩
  | .local _ .vmem, ⟨12, _⟩ => ⟨S8192, .i32⟩
  | .local _ .vmem, ⟨13, _⟩ => ⟨S8192, .i32⟩
  | .local _ .vmem, ⟨14, _⟩ => ⟨S64x8, .f32⟩
  | .local _ .vmem, ⟨15, _⟩ => ⟨S1x64x1, .f32⟩
  | .local _ .vmem, ⟨16, _⟩ => ⟨S1x64x1, .f32⟩
  | .local _ .vmem, ⟨17, _⟩ => ⟨S64x1, .f32⟩
  | _, _ => ⟨S4000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_cst : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 245], ![false, false]⟩

def k0_cond2 (i : grid0.Coords) : BitVec 1 :=
  let arg1 : BitVec 32 := BitVec.ofNat 32 (i 1).val
  let c244_i32 : BitVec 32 := 244#32
  let v28 : BitVec 1 := Scalar.cmpi .eq arg1 c244_i32
  let v29 : BitVec 32 := Scalar.extui v28
  let c0_i32_13 : BitVec 32 := 0#32
  let v30 : BitVec 1 := Scalar.cmpi .ne v29 c0_i32_13
  v30

def cc0_transform_0 (i : grid0.Coords) : Fin 2 → Nat :=
  let arg0 : BitVec 32 := BitVec.ofNat 32 (i 0).val
  let arg1 : BitVec 32 := BitVec.ofNat 32 (i 1).val
  let c245_i32 : BitVec 32 := 245#32
  let v0 : BitVec 32 := Scalar.muli arg0 c245_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c245_i32 : BitVec 32 := 245#32
  let v0 : BitVec 32 := Scalar.muli arg0 c245_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 245], ![false, false]⟩

def k1_cond2 (i : grid1.Coords) : BitVec 1 :=
  let arg1 : BitVec 32 := BitVec.ofNat 32 (i 1).val
  let c244_i32 : BitVec 32 := 244#32
  let v29 : BitVec 1 := Scalar.cmpi .eq arg1 c244_i32
  let v30 : BitVec 32 := Scalar.extui v29
  let c0_i32_11 : BitVec 32 := 0#32
  let v31 : BitVec 1 := Scalar.cmpi .ne v30 c0_i32_11
  v31

def cc1_transform_0 (i : grid1.Coords) : Fin 2 → Nat :=
  let arg0 : BitVec 32 := BitVec.ofNat 32 (i 0).val
  let arg1 : BitVec 32 := BitVec.ofNat 32 (i 1).val
  let c245_i32 : BitVec 32 := 245#32
  let v0 : BitVec 32 := Scalar.muli arg0 c245_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 1 → Nat :=
  let arg0 : BitVec 32 := BitVec.ofNat 32 (i 0).val
  let arg1 : BitVec 32 := BitVec.ofNat 32 (i 1).val
  let c245_i32 : BitVec 32 := 245#32
  let v0 : BitVec 32 := Scalar.muli arg0 c245_i32
  let v1 : BitVec 32 := Scalar.addi v0 arg1
  let c0_i32 : BitVec 32 := 0#32
  ![v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8192x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x64x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  pads_S4000000x8_S4014080x8_0140800_000 : S4000000x8.Pads (![0, 0] : Fin 2 → Nat) ![14080, 0] ![0, 0] S4014080x8
  h_S_ : 0 < S_.numel
  pads_S4000000_S4014080_0140800 : S4000000.Pads (![0] : Fin 1 → Nat) ![14080] ![0] S4014080
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S8192_S8192_0 : ∀ a, (![0] : Fin 1 → Nat) a + S8192.size a ≤ S8192.size a
  h_S8192 : 0 < S8192.numel
  shapeCasts_S8192_S8192 : S8192.ShapeCasts S8192
  inb_S8192x8_S8192x8_0_0 : ∀ a, (![0, 0] : Fin 2 → Nat) a + S8192x8.size a ≤ S8192x8.size a
  h_S8192x8 : 0 < S8192x8.numel
  shapeCasts_S8192x8_S8192x8 : S8192x8.ShapeCasts S8192x8
  iota_S8192x64_d1_w32 : S8192x64.Iotas .tc 32 [1]
  shapeCasts_S8192_S8192x1 : S8192.ShapeCasts S8192x1
  broadcasts_S8192x1_S8192x64 : S8192x1.Broadcasts S8192x64
  natLt_1_32 : 1 < 32
  bitsLt_bf16_f32 : FTy.bits .bf16 < FTy.bits .f32
  inb_S1x64x8_S1x64x8_0_0_0 : ∀ a, (![0, 0, 0] : Fin 3 → Nat) a + S1x64x8.size a ≤ S1x64x8.size a
  h_S1x64x8 : 0 < S1x64x8.numel
  shapeCasts_S1x64x8_S64x8 : S1x64x8.ShapeCasts S64x8
  shapeCasts_S64x8_S1x64x8 : S64x8.ShapeCasts S1x64x8
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  reducesTo_S2x64x8_S64x8_d0 : S2x64x8.ReducesTo [0] S64x8
  reducesTo_S2x64x1_S64x1_d0 : S2x64x1.ReducesTo [0] S64x1
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  reduces_S8192x8_S8192 : S8192x8.Reduces [1] S8192
  reducesTo_S64_S_d0 : S64.ReducesTo [0] S_
  dot_S8192x64_S8192x8_S64x8_0_0_1_1_n_n_wf : DotDims.WF S8192x64 S8192x8 S64x8 [0] [0] [1] [1] [] []
  dot_S8192x64_S8192x1_S64x1_0_0_1_1_n_n_wf : DotDims.WF S8192x64 S8192x1 S64x1 [0] [0] [1] [1] [] []
  dot_S8192x64_S64x8_S8192x8_1_0_0_1_n_n_wf : DotDims.WF S8192x64 S64x8 S8192x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S4014080x8.size a
  hwx0_0 : ∀ i : grid0.Coords, EltTy.bits .f32 = 32 ∨ (Rect.block (s := S4014080x8) S8192x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S4014080.size a
  hwx0_1 : ∀ i : grid0.Coords, EltTy.bits .i32 = 32 ∨ (Rect.block (s := S4014080) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x8.size a ≤ S2x64x8.size a
  hwx0_2 : ∀ i : grid0.Coords, EltTy.bits .f32 = 32 ∨ (Rect.block (s := S2x64x8) S1x64x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1.size a ≤ S2x64x1.size a
  hwx0_3 : ∀ i : grid0.Coords, EltTy.bits .f32 = 32 ∨ (Rect.block (s := S2x64x1) S1x64x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x8.size a ≤ S4014080x8.size a
  hwx1_0 : ∀ i : grid1.Coords, EltTy.bits .f32 = 32 ∨ (Rect.block (s := S4014080x8) S8192x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192.size a ≤ S4014080.size a
  hwx1_1 : ∀ i : grid1.Coords, EltTy.bits .i32 = 32 ∨ (Rect.block (s := S4014080) S8192.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x8.size a ≤ S64x8.size a
  hwx1_2 : ∀ i : grid1.Coords, EltTy.bits .f32 = 32 ∨ (Rect.block (s := S64x8) S64x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x1.size a ≤ S2x64x1.size a
  hwx1_3 : ∀ i : grid1.Coords, EltTy.bits .f32 = 32 ∨ (Rect.block (s := S2x64x1) S1x64x1.size (cc1_transform_3 i) (hinb1_3 i)).WholeWords (EltTy.packing .f32)

variable [Facts₀]

def dot_S8192x64_S8192x8_S64x8_0_0_1_1_n_n : DotDims S8192x64 S8192x8 S64x8 where
  lhsContracting := [0]
  rhsContracting := [0]
  lhsNonContracting := [1]
  rhsNonContracting := [1]
  lhsBatch := []
  rhsBatch := []
  wf := dot_S8192x64_S8192x8_S64x8_0_0_1_1_n_n_wf
def dot_S8192x64_S8192x1_S64x1_0_0_1_1_n_n : DotDims S8192x64 S8192x1 S64x1 where
  lhsContracting := [0]
  rhsContracting := [0]
  lhsNonContracting := [1]
  rhsNonContracting := [1]
  lhsBatch := []
  rhsBatch := []
  wf := dot_S8192x64_S8192x1_S64x1_0_0_1_1_n_n_wf
def dot_S8192x64_S64x8_S8192x8_1_0_0_1_n_n : DotDims S8192x64 S64x8 S8192x8 where
  lhsContracting := [1]
  rhsContracting := [0]
  lhsNonContracting := [0]
  rhsNonContracting := [1]
  lhsBatch := []
  rhsBatch := []
  wf := dot_S8192x64_S64x8_S8192x8_1_0_0_1_n_n_wf

abbrev win0_0 : Pipeline.Window sig grid0 :=
  Pipeline.Window.ofSpec (Memref.whole main_v0) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x64x8.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x64x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S8192x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S64x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x64x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4000000x8 : Shape := ⟨2, ![4000000, 8]⟩
abbrev S4000000 : Shape := ⟨1, ![4000000]⟩
abbrev S_ : Shape := ⟨0, ![]⟩
abbrev S64 : Shape := ⟨1, ![64]⟩
abbrev S4000000x1 : Shape := ⟨2, ![4000000, 1]⟩
abbrev S64x8 : Shape := ⟨2, ![64, 8]⟩
abbrev S64x1 : Shape := ⟨2, ![64, 1]⟩

abbrev nBuf : Space → Nat
  | .hbm => 52
  | .vmem => 0
  | .smem => 0
  | _ => 0

abbrev bufTy : (tb : Table) → Fin (tcTables nBuf tb) → BufTy
  | .hbm, ⟨0, _⟩ => ⟨S4000000x8, .f32⟩
  | .hbm, ⟨1, _⟩ => ⟨S4000000, .i32⟩
  | .hbm, ⟨2, _⟩ => ⟨S_, .f32⟩
  | .hbm, ⟨3, _⟩ => ⟨S4000000, .f32⟩
  | .hbm, ⟨4, _⟩ => ⟨S_, .f32⟩
  | .hbm, ⟨5, _⟩ => ⟨S64, .f32⟩
  | .hbm, ⟨6, _⟩ => ⟨S4000000x1, .i32⟩
  | .hbm, ⟨7, _⟩ => ⟨S64, .f32⟩
  | .hbm, ⟨8, _⟩ => ⟨S_, .f32⟩
  | .hbm, ⟨9, _⟩ => ⟨S64x8, .f32⟩
  | .hbm, ⟨10, _⟩ => ⟨S4000000x1, .i32⟩
  | .hbm, ⟨11, _⟩ => ⟨S64x8, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64x1, .f32⟩
  | .hbm, ⟨16, _⟩ => ⟨S64x8, .f32⟩
  | .hbm, ⟨17, _⟩ => ⟨S64x8, .f32⟩
  | .hbm, ⟨18, _⟩ => ⟨S_, .i32⟩
  | .hbm, ⟨19, _⟩ => ⟨S4000000, .i32⟩
  | .hbm, ⟨20, _⟩ => ⟨S4000000, .i1⟩
  | .hbm, ⟨21, _⟩ => ⟨S_, .i32⟩
  | .hbm, ⟨22, _⟩ => ⟨S4000000, .i32⟩
  | .hbm, ⟨23, _⟩ => ⟨S4000000, .i32⟩
  | .hbm, ⟨24, _⟩ => ⟨S4000000, .i32⟩
  | .hbm, ⟨25, _⟩ => ⟨S4000000x1, .i32⟩
  | .hbm, ⟨26, _⟩ => ⟨S4000000x8, .f32⟩
  | .hbm, ⟨27, _⟩ => ⟨S4000000x8, .f32⟩
  | .hbm, ⟨28, _⟩ => ⟨S4000000x8, .f32⟩
  | .hbm, ⟨29, _⟩ => ⟨S_, .f32⟩
  | .hbm, ⟨30, _⟩ => ⟨S4000000, .f32⟩
  | .hbm, ⟨31, _⟩ => ⟨S_, .f32⟩
  | .hbm, ⟨32, _⟩ => ⟨S64, .f32⟩
  | .hbm, ⟨33, _⟩ => ⟨S4000000x1, .i32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .i1⟩
  | .hbm, ⟨42, _⟩ => ⟨S64, .i32⟩
  | .hbm, ⟨43, _⟩ => ⟨S_, .i32⟩
  | .hbm, ⟨44, _⟩ => ⟨S64, .i32⟩
  | .hbm, ⟨45, _⟩ => ⟨S64, .i1⟩
  | .hbm, ⟨46, _⟩ => ⟨S64, .i1⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S_, .f32⟩
  | _, _ => ⟨S4000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_cst_10 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  bcast_S_S64 : S_.BroadcastsInDim S64 (![] : Fin 0 → Fin S64.rank)
  bcast_S4000000_S4000000x1_0 : S4000000.BroadcastsInDim S4000000x1 (![0] : Fin 1 → Fin S4000000x1.rank)
  bcast_S_S64x8 : S_.BroadcastsInDim S64x8 (![] : Fin 0 → Fin S64x8.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  reducesTo_S4000000x8_S4000000_d1 : S4000000x8.ReducesTo [1] S4000000
  h_S_ : 0 < S_.numel
  reducesTo_S64_S_d0 : S64.ReducesTo [0] S_
  scatter_S64_S4000000x1_S4000000_n_0_0_1_wf : ScatterDims.WF S64 S4000000x1 S4000000 [] [0] [0] 1
  scatter_S64x8_S4000000x1_S4000000x8_1_0_0_1_wf : ScatterDims.WF S64x8 S4000000x1 S4000000x8 [1] [0] [0] 1
  gather_S64x8_S4000000x1_S4000000x8_1_0_n_n_0_1_18_wf : GatherDims.WF S64x8 S4000000x1 S4000000x8 [1] [0] [] [0] [] 1 ![1, 8]

variable [Facts₀]

def scatter_S64_S4000000x1_S4000000_n_0_0_1 : ScatterDims S64 S4000000x1 S4000000 where
  updateWindowDims := []
  insertedWindowDims := [0]
  scatterDimsToOperandDims := [0]
  indexVectorDim := 1
  wf := scatter_S64_S4000000x1_S4000000_n_0_0_1_wf
def scatter_S64x8_S4000000x1_S4000000x8_1_0_0_1 : ScatterDims S64x8 S4000000x1 S4000000x8 where
  updateWindowDims := [1]
  insertedWindowDims := [0]
  scatterDimsToOperandDims := [0]
  indexVectorDim := 1
  wf := scatter_S64x8_S4000000x1_S4000000x8_1_0_0_1_wf
def gather_S64x8_S4000000x1_S4000000x8_1_0_n_n_0_1_18 : GatherDims S64x8 S4000000x1 S4000000x8 where
  offsetDims := [1]
  collapsedSliceDims := [0]
  operandBatchingDims := []
  startIndicesBatchingDims := []
  startIndexMap := [0]
  indexVectorDim := 1
  sliceSizes := ![1, 8]
  wf := gather_S64x8_S4000000x1_S4000000x8_1_0_n_n_0_1_18_wf

class Facts : Prop extends Facts₀ where

variable [Facts]
-- ==== Proof.K.Region0.lean ====
/-
  The first pass on one core's grid of 2 × 245 points, at any entry contents V of the core's buffers.

  Point t holds block t of the padded rows (8192 rows of eight entries) and of the padded labels.  Two small
  tables are carried from point to point: per segment and column the running sum of the entries of the rows
  whose label is the segment, and per segment the running count of such rows.  At the first point of each
  run of 245 the tables restart from zero; every point adds its block's contribution; the last point of each
  run copies both tables into the output blocks, which the pipeline writes back only there.  What the tables
  hold after point n is `acc0 n`, by recursion on n; the invariant between points names exactly that.
-/
import proofs.«428285_j46179488367045_2_alg».proof.Proof.Gen.Kernel.Launch
import proofs.«428285_j46179488367045_2_alg».proof.Proof.Gen.Kernel.Skeleton
import proofs.«428285_j46179488367045_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' block and the labels' block at a point, at their literal types. -/
abbrev var0 (c : Dev nD) (t : Fin cfg0.N) : Vec F S8192x8 .f32 := iblk0 V c 0 t
abbrev lab0 (c : Dev nD) (t : Fin cfg0.N) : Vec F S8192 .i32 := iblk0 V c 1 t

/-! ## The two carried tables -/

/-- Both tables after one point's contribution is added to `p`. -/
def step0 (lab : Vec F S8192 .i32) (var : Vec F S8192x8 .f32) (p : Vec F S64x8 .f32 × Vec F S64x1 .f32) :
    Vec F S64x8 .f32 × Vec F S64x1 .f32 :=
  (k0_pay4 lab var p.1, k0_pay5 lab p.2)

/-- Both tables at zero: what the first point of a run stores before it adds. -/
def zero0 : Vec F S64x8 .f32 × Vec F S64x1 .f32 := (k0_pay1, k0_pay2)

/-- What the two tables hold after point `n`: the point's contribution added to zero at the first point of a run
    of 245, to what the point before left otherwise. -/
def acc0 (c : Dev nD) : (n : ℕ) → n < cfg0.N → Vec F S64x8 .f32 × Vec F S64x1 .f32
  | 0, hn => step0 (lab0 V c ⟨0, hn⟩) (var0 V c ⟨0, hn⟩) zero0
  | n + 1, hn => step0 (lab0 V c ⟨n + 1, hn⟩) (var0 V c ⟨n + 1, hn⟩)
      (if (n + 1) % 245 = 0 then zero0 else acc0 c n (Nat.lt_of_succ_lt hn))

theorem acc0_first (c : Dev nD) (t : Fin cfg0.N) (h : t.val % 245 = 0) :
    acc0 V c t.val t.isLt = step0 (lab0 V c t) (var0 V c t) zero0 := by
  obtain ⟨n, hn⟩ := t
  cases n with
  | zero => rfl
  | succ n => exact (by unfold acc0; rw [if_pos h])

theorem acc0_later (c : Dev nD) (t : Fin cfg0.N) (h : ¬ t.val % 245 = 0) :
    acc0 V c t.val t.isLt = step0 (lab0 V c t) (var0 V c t)
      (acc0 V c (t.val - 1) (Nat.lt_of_le_of_lt (Nat.sub_le _ _) t.isLt)) := by
  obtain ⟨n, hn⟩ := t
  cases n with
  | zero => exact absurd (Nat.zero_mod _) h
  | succ n => exact (by rw [acc0]; simp only [if_neg h, Nat.add_sub_cancel])

/-! ## The invariant between points -/

/-- The two scratch operands, whole scoped buffers of the kernel's own. -/
abbrev scM0_0 : Memref sig .tc .vmem S64x8 .f32 := Memref.whole cc0_scratch0
abbrev scM0_1 : Memref sig .tc .vmem S64x1 .f32 := Memref.whole cc0_scratch1

/-- The core's other scoped buffers that are no staging buffer of this call (the second call's staging buffers and
    scratch), each whole at some contents: this call never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- Before the first point the two tables hold anything; before a later point, what the point before left. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn).1 ∗ owns (c : Thread nD τ) scM0_1 fullShare (acc0 V c n hn).2 ∗ others0 c) ∗ (∃ r, prngReg c r))

/-! ## The proof data -/

/-- The arrays as the region finds them; after the body each input's buffer at its block, each output's buffer at the
    copy of the table of the point (consulted only where the body stores it: the last point of a run); the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (acc0 V c t.val t.isLt).1
    | ⟨3, _⟩ => k0_pay7 (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (acc0 V c t.val t.isLt).1 := by dsimp only [dat0]
theorem after0_3 (c : Dev nD) (t : Fin cfg0.N) : (dat0 V c).after 3 t = k0_pay7 (acc0 V c t.val t.isLt).2 := by dsimp only [dat0]

/-! ## The body on whole buffers

Every access of the body is a load or a store of a whole buffer: after a store the buffer holds the stored value, and a
load after it reads that value.  So the body's triple names each buffer's final contents outright, one triple for each
of the three kinds of point. -/

/-- The body's first conditional: the point is the first of its run. -/
abbrev cond0_0 (i : grid0.Coords) : Prop := (Scalar.cmpi .ne (Scalar.extui (Scalar.cmpi .eq (BitVec.ofNat 32 (i 1).val) 0#32)) 0#32) = 1#1
/-- The body's second conditional: the point is the last of its run. -/
abbrev cond0_1 (i : grid0.Coords) : Prop := k0_cond2 i = 1#1

theorem hcond0_0 : ∀ t : Fin cfg0.N, cond0_0 (grid0.coords t) ↔ t.val % 245 = 0 :=
  (by decide +kernel : ∀ t : Fin grid0.N, cond0_0 (grid0.coords t) ↔ t.val % 245 = 0)
theorem hcond0_1 : ∀ t : Fin cfg0.N, cond0_1 (grid0.coords t) ↔ t.val % 245 = 244 :=
  (by decide +kernel : ∀ t : Fin grid0.N, cond0_1 (grid0.coords t) ↔ t.val % 245 = 244)

/-- The two inputs are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- The two outputs are idle, and not written back, except at the last point of a run, where they are live. -/
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

theorem zeros1 : (![0] : Fin 1 → ℕ) = fun _ => 0 := by funext a; fin_cases a; rfl
theorem zeros2 : (![0, 0] : Fin 2 → ℕ) = fun _ => 0 := by funext a; fin_cases a <;> rfl
theorem zeros3 : (![0, 0, 0] : Fin 3 → ℕ) = fun _ => 0 := by funext a; fin_cases a <;> rfl

/-- After a store of the whole buffer, whatever was stored before, the buffer reads the stored value. -/
theorem read_writes_whole {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1000000 in
/-- A point that neither restarts the tables nor copies them out: both tables take the block's contribution. -/
theorem kernel0_mid (c : Dev nD) (E : Set ℕ) (i : grid0.Coords)
    (arg2 : Memref sig .tc .vmem S8192x8 .f32) (harg2 : arg2.IsWhole) (arg3 : Memref sig .tc .vmem S8192 .i32) (harg3 : arg3.IsWhole)
    (arg4 : Memref sig .tc .vmem S1x64x8 .f32) (harg4 : arg4.IsWhole) (arg5 : Memref sig .tc .vmem S1x64x1 .f32) (harg5 : arg5.IsWhole)
    (arg6 : Memref sig .tc .vmem S64x8 .f32) (harg6 : arg6.IsWhole) (arg7 : Memref sig .tc .vmem S64x1 .f32) (harg7 : arg7.IsWhole)
    (hc0 : ¬cond0_0 i) (hc1 : ¬cond0_1 i)
    (x : Vec F S8192x8 .f32) (l : Vec F S8192 .i32) (a : Vec F S64x8 .f32) (b : Vec F S64x1 .f32) (K : PUnit → sProp 𝕄) :
    iprop(owns (c : Thread nD τ) arg2 fullShare x ∗ owns (c : Thread nD τ) arg3 fullShare l
        ∗ owns (c : Thread nD τ) arg6 fullShare a ∗ owns (c : Thread nD τ) arg7 fullShare b
        ∗ (iprop(owns (c : Thread nD τ) arg2 fullShare x ∗ owns (c : Thread nD τ) arg3 fullShare l
            ∗ owns (c : Thread nD τ) arg6 fullShare (k0_pay4 l x a) ∗ owns (c : Thread nD τ) arg7 fullShare (k0_pay5 l b)) -∗ K ⟨⟩))
      ⊢ wp frame (wpE (defs₀ (F := F)) Variants.none c none) E (cc0__pass1_kernel i arg2 harg2 arg3 harg3 arg4 harg4 arg5 harg5 arg6 harg6 arg7 harg7) K := by
  simp only [cc0__pass1_kernel_eq_skeleton]; unfold cc0__pass1_kernel_skel
  unfold owns
  iintro ⟨⟨%f0, %hf0, H0⟩, ⟨%f1, %hf1, H1⟩, ⟨%fa, %hfa, HA⟩, ⟨%fb, %hfb, HB⟩, Hk⟩
  obtain rfl := harg2.eq_unread hf0; obtain rfl := harg3.eq_unread hf1
  obtain rfl := harg6.eq_unread hfa; obtain rfl := harg7.eq_unread hfb
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HA]
  · iexists _; isplitr
    swap; · iexact HA
    ipureintro
    rw [read_writes_whole _ _ zeros2]
    simp only [View.readAt_eq_ld, hf0, hf1, hfa, View.ld_unit_zero (S := S8192) zeros1, View.ld_unit_zero (S := S8192x8) zeros2, View.ld_unit_zero (S := S64x8) zeros2]
  · iexists _; isplitr
    swap; · iexact HB
    ipureintro
    rw [read_writes_whole _ _ zeros2]
    simp only [View.readAt_eq_ld, hf1, hfb, View.ld_unit_zero (S := S8192) zeros1, View.ld_unit_zero (S := S64x1) zeros2]

set_option maxHeartbeats 1000000 in
/-- The first point of a run: whatever the tables held, they restart from zero and take the block's contribution. -/
theorem kernel0_first (c : Dev nD) (E : Set ℕ) (i : grid0.Coords)
    (arg2 : Memref sig .tc .vmem S8192x8 .f32) (harg2 : arg2.IsWhole) (arg3 : Memref sig .tc .vmem S8192 .i32) (harg3 : arg3.IsWhole)
    (arg4 : Memref sig .tc .vmem S1x64x8 .f32) (harg4 : arg4.IsWhole) (arg5 : Memref sig .tc .vmem S1x64x1 .f32) (harg5 : arg5.IsWhole)
    (arg6 : Memref sig .tc .vmem S64x8 .f32) (harg6 : arg6.IsWhole) (arg7 : Memref sig .tc .vmem S64x1 .f32) (harg7 : arg7.IsWhole)
    (hc0 : cond0_0 i) (hc1 : ¬cond0_1 i)
    (x : Vec F S8192x8 .f32) (l : Vec F S8192 .i32) (K : PUnit → sProp 𝕄) :
    iprop(owns (c : Thread nD τ) arg2 fullShare x ∗ owns (c : Thread nD τ) arg3 fullShare l
        ∗ (∃ a, owns (c : Thread nD τ) arg6 fullShare a) ∗ (∃ b, owns (c : Thread nD τ) arg7 fullShare b)
        ∗ (iprop(owns (c : Thread nD τ) arg2 fullShare x ∗ owns (c : Thread nD τ) arg3 fullShare l
            ∗ owns (c : Thread nD τ) arg6 fullShare (k0_pay4 l x k0_pay1) ∗ owns (c : Thread nD τ) arg7 fullShare (k0_pay5 l k0_pay2)) -∗ K ⟨⟩))
      ⊢ wp frame (wpE (defs₀ (F := F)) Variants.none c none) E (cc0__pass1_kernel i arg2 harg2 arg3 harg3 arg4 harg4 arg5 harg5 arg6 harg6 arg7 harg7) K := by
  simp only [cc0__pass1_kernel_eq_skeleton]; unfold cc0__pass1_kernel_skel
  unfold owns
  iintro ⟨⟨%f0, %hf0, H0⟩, ⟨%f1, %hf1, H1⟩, ⟨%a, %fa, -, HA⟩, ⟨%b, %fb, -, HB⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HA]
  · iexists _; isplitr
    swap; · iexact HA
    ipureintro
    rw [read_writes_whole _ _ zeros2]
    sl_unfold_run_names
    simp only [View.readAt_eq_ld, hf0, hf1, View.ld_unit_zero (S := S8192) zeros1, View.ld_unit_zero (S := S8192x8) zeros2, View.readCov_cons_toLoadRect]
  · iexists _; isplitr
    swap; · iexact HB
    ipureintro
    rw [read_writes_whole _ _ zeros2]
    sl_unfold_run_names
    simp only [View.readAt_eq_ld, hf1, View.ld_unit_zero (S := S8192) zeros1, View.readCov_cons_toLoadRect]

set_option maxHeartbeats 1000000 in
/-- The last point of a run: both tables take the block's contribution and are then copied whole into the output blocks. -/
theorem kernel0_last (c : Dev nD) (E : Set ℕ) (i : grid0.Coords)
    (arg2 : Memref sig .tc .vmem S8192x8 .f32) (harg2 : arg2.IsWhole) (arg3 : Memref sig .tc .vmem S8192 .i32) (harg3 : arg3.IsWhole)
    (arg4 : Memref sig .tc .vmem S1x64x8 .f32) (harg4 : arg4.IsWhole) (arg5 : Memref sig .tc .vmem S1x64x1 .f32) (harg5 : arg5.IsWhole)
    (arg6 : Memref sig .tc .vmem S64x8 .f32) (harg6 : arg6.IsWhole) (arg7 : Memref sig .tc .vmem S64x1 .f32) (harg7 : arg7.IsWhole)
    (hc0 : ¬cond0_0 i) (hc1 : cond0_1 i)
    (x : Vec F S8192x8 .f32) (l : Vec F S8192 .i32) (a : Vec F S64x8 .f32) (b : Vec F S64x1 .f32) (K : PUnit → sProp 𝕄) :
    iprop(owns (c : Thread nD τ) arg2 fullShare x ∗ owns (c : Thread nD τ) arg3 fullShare l
        ∗ (∃ d, owns (c : Thread nD τ) arg4 fullShare d) ∗ (∃ d, owns (c : Thread nD τ) arg5 fullShare d)
        ∗ owns (c : Thread nD τ) arg6 fullShare a ∗ owns (c : Thread nD τ) arg7 fullShare b
        ∗ (iprop(owns (c : Thread nD τ) arg2 fullShare x ∗ owns (c : Thread nD τ) arg3 fullShare l
            ∗ owns (c : Thread nD τ) arg4 fullShare (k0_pay6 (k0_pay4 l x a)) ∗ owns (c : Thread nD τ) arg5 fullShare (k0_pay7 (k0_pay5 l b))
            ∗ owns (c : Thread nD τ) arg6 fullShare (k0_pay4 l x a) ∗ owns (c : Thread nD τ) arg7 fullShare (k0_pay5 l b)) -∗ K ⟨⟩))
      ⊢ wp frame (wpE (defs₀ (F := F)) Variants.none c none) E (cc0__pass1_kernel i arg2 harg2 arg3 harg3 arg4 harg4 arg5 harg5 arg6 harg6 arg7 harg7) K := by
  simp only [cc0__pass1_kernel_eq_skeleton]; unfold cc0__pass1_kernel_skel
  unfold owns
  iintro ⟨⟨%f0, %hf0, H0⟩, ⟨%f1, %hf1, H1⟩, ⟨%d2, %f2, -, H2⟩, ⟨%d3, %f3, -, H3⟩, ⟨%fa, %hfa, HA⟩, ⟨%fb, %hfb, HB⟩, Hk⟩
  obtain rfl := harg2.eq_unread hf0; obtain rfl := harg3.eq_unread hf1
  obtain rfl := harg6.eq_unread hfa; obtain rfl := harg7.eq_unread hfb
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_writes_whole _ _ zeros3]
    sl_unfold_run_names
    simp only [View.readAt_eq_ld, hf0, hf1, hfa, View.ld_unit_zero (S := S8192) zeros1, View.ld_unit_zero (S := S8192x8) zeros2, View.ld_unit_zero (S := S64x8) zeros2, View.readCov_cons_toLoadRect]
  isplitl [H3]
  · iexists _; isplitr
    swap; · iexact H3
    ipureintro
    rw [read_writes_whole _ _ zeros3]
    sl_unfold_run_names
    simp only [View.readAt_eq_ld, hf1, hfb, View.ld_unit_zero (S := S8192) zeros1, View.ld_unit_zero (S := S64x1) zeros2, View.readCov_cons_toLoadRect]
  isplitl [HA]
  · iexists _; isplitr
    swap; · iexact HA
    ipureintro
    sl_unfold_run_names
    rw [read_writes_whole _ _ zeros2]
    simp only [View.readAt_eq_ld, hf0, hf1, hfa, View.ld_unit_zero (S := S8192) zeros1, View.ld_unit_zero (S := S8192x8) zeros2, View.ld_unit_zero (S := S64x8) zeros2]
  · iexists _; isplitr
    swap; · iexact HB
    ipureintro
    sl_unfold_run_names
    rw [read_writes_whole _ _ zeros2]
    simp only [View.readAt_eq_ld, hf1, hfb, View.ld_unit_zero (S := S8192) zeros1, View.ld_unit_zero (S := S64x1) zeros2]

/-! ## What the body finds and leaves at a point -/

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn).1 ∗ owns (c : Thread nD τ) scM0_1 fullShare (acc0 V c n hn).2 ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)).1 ∗ owns (c : Thread nD τ) scM0_1 fullShare (acc0 V c (n - 1) (by omega)).2 ∗ others0 c) ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- Each input's buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (st0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (st0_1 t) fullShare (iblk0 V c 1 t) := by
  unfold Dat.leavesExact; rw [liveAt0_1 t, after0_1]
theorem leaves0_2_live (c : Dev nD) (t : Fin cfg0.N) (h : cond0_1 (grid0.coords t)) :
    (dat0 V c).leavesExact 2 t = owns (c : Thread nD τ) (st0_2 t) fullShare (k0_pay6 (acc0 V c t.val t.isLt).1) := by
  unfold Dat.leavesExact; rw [liveAt0_2 t h, after0_2]
theorem leaves0_3_live (c : Dev nD) (t : Fin cfg0.N) (h : cond0_1 (grid0.coords t)) :
    (dat0 V c).leavesExact 3 t = owns (c : Thread nD τ) (st0_3 t) fullShare (k0_pay7 (acc0 V c t.val t.isLt).2) := by
  unfold Dat.leavesExact; rw [liveAt0_3 t h, after0_3]

set_option maxHeartbeats 1000000 in
/-- The body at the first point of a run: the tables, whatever they held, end at the block's contribution to zero. -/
theorem sound_first0 (c : Dev nD) (t : Fin cfg0.N) (h0 : t.val % 245 = 0) :
    bodyPre0 V c t ⊢ wp frame (wpE (defs₀ (F := F)) Variants.none c none) Set.univ (bodyAt0 t) (fun _ => bodyPost0 V c t) := by
  have h1 : ¬t.val % 245 = 244 := by omega
  have hc0 : cond0_0 (grid0.coords t) := (hcond0_0 t).mpr h0
  have hc1 : ¬cond0_1 (grid0.coords t) := fun h => h1 ((hcond0_1 t).mp h)
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, Dat.leavesExact_idle (dat0 V c) 2 t (idleAt0_2 t hc1) (noFlush0_2 t hc1),
    Dat.leavesExact_idle (dat0 V c) 3 t (idleAt0_3 t hc1) (noFlush0_3 t hc1)]
  rw [acc0_first V c t h0]
  dsimp only [step0, zero0]
  by_cases hz : t.val = 0
  · rw [PhiS0_castSucc V c t, PhiS0_zero V c _ _ hz, PhiA0_eq]
    iintro ⟨⟨⟨HA, HB, Hoth⟩, Hg⟩, Ho, ⟨%d0, H0⟩, ⟨%d1, H1⟩, H2, H3⟩
    iapply (kernel0_first c Set.univ (grid0.coords t) _ _ _ _ _ _ _ _ _ _ _ _ hc0 hc1 (var0 V c t) (lab0 V c t) _)
    isplitl [H0]; · iexact H0
    isplitl [H1]; · iexact H1
    isplitl [HA]; · iexact HA
    isplitl [HB]; · iexact HB
    iintro ⟨H0, H1, HA, HB⟩
    isplitl [HA HB Hoth Hg]
    · isplitr [Hg]
      · isplitl [HA]; · iexact HA
        isplitl [HB]; · iexact HB
        iexact Hoth
      · iexact Hg
    isplitl [Ho]; · iexact Ho
    isplitl [H0]; · iexact H0
    isplitl [H1]; · iexact H1
    isplitl [H2]; · iexact H2
    iexact H3
  · rw [PhiS0_castSucc V c t, PhiS0_pos V c _ _ hz]
    iintro ⟨⟨⟨HA, HB, Hoth⟩, Hg⟩, Ho, ⟨%d0, H0⟩, ⟨%d1, H1⟩, H2, H3⟩
    iapply (kernel0_first c Set.univ (grid0.coords t) _ _ _ _ _ _ _ _ _ _ _ _ hc0 hc1 (var0 V c t) (lab0 V c t) _)
    isplitl [H0]; · iexact H0
    isplitl [H1]; · iexact H1
    isplitl [HA]; · iexists _; iexact HA
    isplitl [HB]; · iexists _; iexact HB
    iintro ⟨H0, H1, HA, HB⟩
    isplitl [HA HB Hoth Hg]
    · isplitr [Hg]
      · isplitl [HA]; · iexact HA
        isplitl [HB]; · iexact HB
        iexact Hoth
      · iexact Hg
    isplitl [Ho]; · iexact Ho
    isplitl [H0]; · iexact H0
    isplitl [H1]; · iexact H1
    isplitl [H2]; · iexact H2
    iexact H3

set_option maxHeartbeats 1000000 in
/-- The body at a point that is neither first nor last of its run: the tables go from what the point before left to that
    with the block's contribution added. -/
theorem sound_mid0 (c : Dev nD) (t : Fin cfg0.N) (h0 : ¬t.val % 245 = 0) (h1 : ¬t.val % 245 = 244) :
    bodyPre0 V c t ⊢ wp frame (wpE (defs₀ (F := F)) Variants.none c none) Set.univ (bodyAt0 t) (fun _ => bodyPost0 V c t) := by
  have hc0 : ¬cond0_0 (grid0.coords t) := fun h => h0 ((hcond0_0 t).mp h)
  have hc1 : ¬cond0_1 (grid0.coords t) := fun h => h1 ((hcond0_1 t).mp h)
  have hz : t.val ≠ 0 := fun e => h0 (by rw [e])
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, Dat.leavesExact_idle (dat0 V c) 2 t (idleAt0_2 t hc1) (noFlush0_2 t hc1),
    Dat.leavesExact_idle (dat0 V c) 3 t (idleAt0_3 t hc1) (noFlush0_3 t hc1)]
  rw [acc0_later V c t h0]
  dsimp only [step0]
  rw [PhiS0_castSucc V c t, PhiS0_pos V c _ _ hz]
  iintro ⟨⟨⟨HA, HB, Hoth⟩, Hg⟩, Ho, ⟨%d0, H0⟩, ⟨%d1, H1⟩, H2, H3⟩
  iapply (kernel0_mid c Set.univ (grid0.coords t) _ _ _ _ _ _ _ _ _ _ _ _ hc0 hc1 (var0 V c t) (lab0 V c t) _ _ _)
  isplitl [H0]; · iexact H0
  isplitl [H1]; · iexact H1
  isplitl [HA]; · iexact HA
  isplitl [HB]; · iexact HB
  iintro ⟨H0, H1, HA, HB⟩
  isplitl [HA HB Hoth Hg]
  · isplitr [Hg]
    · isplitl [HA]; · iexact HA
      isplitl [HB]; · iexact HB
      iexact Hoth
    · iexact Hg
  isplitl [Ho]; · iexact Ho
  isplitl [H0]; · iexact H0
  isplitl [H1]; · iexact H1
  isplitl [H2]; · iexact H2
  iexact H3

set_option maxHeartbeats 1000000 in
/-- The body at the last point of a run: as at a middle point, and the output blocks, live here, end at the copies of
    the tables. -/
theorem sound_last0 (c : Dev nD) (t : Fin cfg0.N) (h1 : t.val % 245 = 244) :
    bodyPre0 V c t ⊢ wp frame (wpE (defs₀ (F := F)) Variants.none c none) Set.univ (bodyAt0 t) (fun _ => bodyPost0 V c t) := by
  have h0 : ¬t.val % 245 = 0 := by omega
  have hc0 : ¬cond0_0 (grid0.coords t) := fun h => h0 ((hcond0_0 t).mp h)
  have hc1 : cond0_1 (grid0.coords t) := (hcond0_1 t).mpr h1
  have hz : t.val ≠ 0 := fun e => h0 (by rw [e])
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2_live V c t hc1, leaves0_3_live V c t hc1]
  rw [acc0_later V c t h0]
  dsimp only [step0]
  rw [PhiS0_castSucc V c t, PhiS0_pos V c _ _ hz]
  iintro ⟨⟨⟨HA, HB, Hoth⟩, Hg⟩, Ho, ⟨%d0, H0⟩, ⟨%d1, H1⟩, ⟨%d2, H2⟩, ⟨%d3, H3⟩⟩
  iapply (kernel0_last c Set.univ (grid0.coords t) _ _ _ _ _ _ _ _ _ _ _ _ hc0 hc1 (var0 V c t) (lab0 V c t) _ _ _)
  isplitl [H0]; · iexact H0
  isplitl [H1]; · iexact H1
  isplitl [H2]; · iexists _; iexact H2
  isplitl [H3]; · iexists _; iexact H3
  isplitl [HA]; · iexact HA
  isplitl [HB]; · iexact HB
  iintro ⟨H0, H1, H2, H3, HA, HB⟩
  isplitl [HA HB Hoth Hg]
  · isplitr [Hg]
    · isplitl [HA]; · iexact HA
      isplitl [HB]; · iexact HB
      iexact Hoth
    · iexact Hg
  isplitl [Ho]; · iexact Ho
  isplitl [H0]; · iexact H0
  isplitl [H1]; · iexact H1
  isplitl [H2]; · iexact H2
  iexact H3

/-- The body at any point, by the kind of point. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 245 = 0
  · exact sound_first0 V c t h0
  · by_cases h1 : t.val % 245 = 244
    · exact sound_last0 V c t h1
    · exact sound_mid0 V c t h0 h1

/-! ## The obligations -/

/-- The body at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped rest back, the tables' contents forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 490 := N_0; omega), PhiA0_eq]
  iintro ⟨⟨HA, HB, Hoth⟩, Hg⟩
  isplitr [Hg]
  · isplitl [HA]; · iexists _; iexact HA
    isplitl [HB]; · iexists _; iexact HB
    iexact Hoth
  · iexact Hg

end Cert.Kernel.Hand

end
-- ==== Proof.K.Region1.lean ====
/-
  The second pass on one core's grid of 2 × 245 points, at any entry contents V of the core's buffers.

  Point t holds block t of the padded rows and of the padded labels, and the whole table of means (fetched once,
  at the first point, and kept).  One small table is carried from point to point: per segment the running sum,
  over the rows whose label is the segment, of the squared distance of the row from its segment's mean.  At the
  first point of each run of 245 it restarts from zero; every point adds its block's contribution; the last point
  of each run copies it into the output block, which the pipeline writes back only there.  What the table holds
  after point n is `acc1 n`, by recursion on n; the invariant between points names exactly that.
-/
import proofs.«428285_j46179488367045_2_alg».proof.Proof.Gen.Kernel.Launch
import proofs.«428285_j46179488367045_2_alg».proof.Proof.Gen.Kernel.Skeleton
import proofs.«428285_j46179488367045_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows' block, the labels' block and the means at a point, at their literal types. -/
abbrev var1 (c : Dev nD) (t : Fin cfg1.N) : Vec F S8192x8 .f32 := iblk1 V c 0 t
abbrev lab1 (c : Dev nD) (t : Fin cfg1.N) : Vec F S8192 .i32 := iblk1 V c 1 t
abbrev mean1 (c : Dev nD) (t : Fin cfg1.N) : Vec F S64x8 .f32 := iblk1 V c 2 t

/-! ## The carried table -/

/-- What the table holds after point `n`: the point's contribution added to zero at the first point of a run of 245,
    to what the point before left otherwise. -/
def acc1 (c : Dev nD) : (n : ℕ) → n < cfg1.N → Vec F S64x1 .f32
  | 0, hn => k1_pay2 (lab1 V c ⟨0, hn⟩) (var1 V c ⟨0, hn⟩) (mean1 V c ⟨0, hn⟩) k1_pay1
  | n + 1, hn => k1_pay2 (lab1 V c ⟨n + 1, hn⟩) (var1 V c ⟨n + 1, hn⟩) (mean1 V c ⟨n + 1, hn⟩)
      (if (n + 1) % 245 = 0 then k1_pay1 else acc1 c n (Nat.lt_of_succ_lt hn))

theorem acc1_first (c : Dev nD) (t : Fin cfg1.N) (h : t.val % 245 = 0) :
    acc1 V c t.val t.isLt = k1_pay2 (lab1 V c t) (var1 V c t) (mean1 V c t) k1_pay1 := by
  obtain ⟨n, hn⟩ := t
  cases n with
  | zero => rfl
  | succ n => exact (by rw [acc1]; simp only [if_pos h])

theorem acc1_later (c : Dev nD) (t : Fin cfg1.N) (h : ¬ t.val % 245 = 0) :
    acc1 V c t.val t.isLt = k1_pay2 (lab1 V c t) (var1 V c t) (mean1 V c t)
      (acc1 V c (t.val - 1) (Nat.lt_of_le_of_lt (Nat.sub_le _ _) t.isLt)) := by
  obtain ⟨n, hn⟩ := t
  cases n with
  | zero => exact absurd (Nat.zero_mod _) h
  | succ n => exact (by rw [acc1]; simp only [if_neg h]; rfl)

/-! ## The invariant between points -/

/-- The scratch operand, a whole scoped buffer of the kernel's own. -/
abbrev scM1_0 : Memref sig .tc .vmem S64x1 .f32 := Memref.whole cc1_scratch0

/-- The core's other scoped buffers that are no staging buffer of this call (the first call's staging buffers and
    scratch), each whole at some contents: this call never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- Before the first point the table holds anything; before a later point, what the point before left. -/
def PhiS1 (c : Dev nD) : (n : ℕ) → n ≤ cfg1.N → sProp 𝕄
  | 0, _ => Pipeline.ΦA spec1 c
  | n + 1, hn => iprop(iprop(others1 c ∗ owns (c : Thread nD τ) scM1_0 fullShare (acc1 V c n hn)) ∗ (∃ r, prngReg c r))

/-! ## The proof data -/

/-- The arrays as the region finds them; after the body each input's buffer at its block, the output's buffer at the
    copy of the table of the point (consulted only where the body stores it: the last point of a run); the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) := by dsimp only [dat1]

/-! ## The body's branches, over the grid -/
/-- The condition of the body's first branch (the table restarts), from the grid coordinates. -/
abbrev cond1_0 (i : grid1.Coords) : Prop := (Scalar.cmpi .ne (Scalar.extui (Scalar.cmpi .eq (BitVec.ofNat 32 (i 1).val) 0#32)) 0#32) = 1#1
/-- It holds at the first point of each run of 245. -/
theorem hcond1_0 : ∀ t : Fin cfg1.N, cond1_0 (grid1.coords t) ↔ t.val % 245 = 0 :=
  (by decide +kernel : ∀ t : Fin grid1.N, cond1_0 (grid1.coords t) ↔ t.val % 245 = 0)
/-- The condition of the body's last branch (the table is copied to the output block). -/
abbrev cond1_1 (i : grid1.Coords) : Prop := k1_cond2 i = 1#1
/-- It holds at the last point of each run of 245. -/
theorem hcond1_1 : ∀ t : Fin cfg1.N, cond1_1 (grid1.coords t) ↔ t.val % 245 = 244 :=
  (by decide +kernel : ∀ t : Fin grid1.N, cond1_1 (grid1.coords t) ↔ t.val % 245 = 244)

/-- The inputs are never idle; the output block is idle exactly off the last point of a run, and is not written back there. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## Whole-buffer rectangles -/

/-- The zero offsets of a rectangle over a whole buffer, at ranks 1, 2 and 3. -/
theorem zerosR1_1 : (![0] : Fin 1 → ℕ) = fun _ => 0 := by funext a; fin_cases a <;> rfl
theorem zerosR1_2 : (![0, 0] : Fin 2 → ℕ) = fun _ => 0 := by funext a; fin_cases a <;> rfl
theorem zerosR1_3 : (![0, 0, 0] : Fin 3 → ℕ) = fun _ => 0 := by funext a; fin_cases a <;> rfl

/-- A store over the whole table covers it, whatever was stored before; -/
theorem coverS1 (w : Vec F S64x1 .f32) (L : List (View.Piece (Elt F) S64x1 .f32)) (y : S64x1.Idx) :
    ∃ pc ∈ ((⟨Rect.unit (s := S64x1) ![0, 0] S64x1.size inb_S64x1_S64x1_0_0, w⟩ : View.Piece (Elt F) S64x1 .f32) :: L), y ∈ pc.1.set :=
  ⟨_, List.mem_cons_self, View.mem_set_unit_zero (S := S64x1) zerosR1_2 inb_S64x1_S64x1_0_0 y⟩
/-- and so for the output block. -/
theorem coverO1 (w : Vec F S1x64x1 .f32) (L : List (View.Piece (Elt F) S1x64x1 .f32)) (y : S1x64x1.Idx) :
    ∃ pc ∈ ((⟨Rect.unit (s := S1x64x1) ![0, 0, 0] S1x64x1.size inb_S1x64x1_S1x64x1_0_0_0, w⟩ : View.Piece (Elt F) S1x64x1 .f32) :: L), y ∈ pc.1.set :=
  ⟨_, List.mem_cons_self, View.mem_set_unit_zero (S := S1x64x1) zerosR1_3 inb_S1x64x1_S1x64x1_0_0_0 y⟩

/-! ## The body on any whole memrefs, case by case -/

set_option maxHeartbeats 1000000 in
/-- A point inside a run: on whole memrefs, the inputs at `x0`, `x1`, `x2`, the output block at `xi3` (left as found) and the table at `xs`,
    the body leaves the table at the point's contribution added to `xs` and everything else as it was. -/
theorem run1_mid (c : Dev nD) (E : Set ℕ) (i : grid1.Coords) (arg2 : Memref sig .tc .vmem S8192x8 .f32) (harg2 : arg2.IsWhole) (arg3 : Memref sig .tc .vmem S8192 .i32) (harg3 : arg3.IsWhole) (arg4 : Memref sig .tc .vmem S64x8 .f32) (harg4 : arg4.IsWhole) (arg5 : Memref sig .tc .vmem S1x64x1 .f32) (harg5 : arg5.IsWhole) (arg6 : Memref sig .tc .vmem S64x1 .f32) (harg6 : arg6.IsWhole) (hc0 : ¬cond1_0 i) (hc1 : ¬cond1_1 i)
    (x0 : Vec F S8192x8 .f32) (x1 : Vec F S8192 .i32) (x2 : Vec F S64x8 .f32) (xi3 : Vec F S1x64x1 .f32) (xs : Vec F S64x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 x1 x0 x2 xs)) -∗ K ⟨⟩))
      ⊢ wp frame (wpE (defs₀ (F := F)) Variants.none c none) E (cc1__pass2_kernel i arg2 harg2 arg3 harg3 arg4 harg4 arg5 harg5 arg6 harg6) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (coverS1 _ _)]
  rw [View.canon_unit_zero (S := S64x1) zerosR1_2]
  simp only [View.readAt_eq_ld, harg2.read_unread, harg3.read_unread, harg4.read_unread, harg6.read_unread,
    View.ld_unit_zero (S := S8192) zerosR1_1, View.ld_unit_zero (S := S8192x8) zerosR1_2, View.ld_unit_zero (S := S64x8) zerosR1_2, View.ld_unit_zero (S := S64x1) zerosR1_2]

set_option maxHeartbeats 1000000 in
/-- The first point of a run: whatever the table held, the body zeroes it and adds the point's contribution; the load after the
    zeroing store reads the zeros back. -/
theorem run1_first (c : Dev nD) (E : Set ℕ) (i : grid1.Coords) (arg2 : Memref sig .tc .vmem S8192x8 .f32) (harg2 : arg2.IsWhole) (arg3 : Memref sig .tc .vmem S8192 .i32) (harg3 : arg3.IsWhole) (arg4 : Memref sig .tc .vmem S64x8 .f32) (harg4 : arg4.IsWhole) (arg5 : Memref sig .tc .vmem S1x64x1 .f32) (harg5 : arg5.IsWhole) (arg6 : Memref sig .tc .vmem S64x1 .f32) (harg6 : arg6.IsWhole) (hc0 : cond1_0 i) (hc1 : ¬cond1_1 i)
    (x0 : Vec F S8192x8 .f32) (x1 : Vec F S8192 .i32) (x2 : Vec F S64x8 .f32) (xi3 : Vec F S1x64x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 x1 x0 x2 k1_pay1)) -∗ K ⟨⟩))
      ⊢ wp frame (wpE (defs₀ (F := F)) Variants.none c none) E (cc1__pass2_kernel i arg2 harg2 arg3 harg3 arg4 harg4 arg5 harg5 arg6 harg6) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (coverS1 _ _)]
  rw [View.canon_cons_unit_zero (S := S64x1) zerosR1_2]
  simp only [View.readAt_eq_ld, harg2.read_unread, harg3.read_unread, harg4.read_unread, harg6.read_unread,
    View.ld_unit_zero (S := S8192) zerosR1_1, View.ld_unit_zero (S := S8192x8) zerosR1_2, View.ld_unit_zero (S := S64x8) zerosR1_2, View.ld_unit_zero (S := S64x1) zerosR1_2,
    View.readCov_unit_zero (S := S64x1) _ zerosR1_2]

set_option maxHeartbeats 1000000 in
/-- The last point of a run: as inside the run, and then the output block, whatever it held, is stored whole with the copy of
    the table just written. -/
theorem run1_last (c : Dev nD) (E : Set ℕ) (i : grid1.Coords) (arg2 : Memref sig .tc .vmem S8192x8 .f32) (harg2 : arg2.IsWhole) (arg3 : Memref sig .tc .vmem S8192 .i32) (harg3 : arg3.IsWhole) (arg4 : Memref sig .tc .vmem S64x8 .f32) (harg4 : arg4.IsWhole) (arg5 : Memref sig .tc .vmem S1x64x1 .f32) (harg5 : arg5.IsWhole) (arg6 : Memref sig .tc .vmem S64x1 .f32) (harg6 : arg6.IsWhole) (hc0 : ¬cond1_0 i) (hc1 : cond1_1 i)
    (x0 : Vec F S8192x8 .f32) (x1 : Vec F S8192 .i32) (x2 : Vec F S64x8 .f32) (xs : Vec F S64x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x1 x0 x2 xs)) ∗ owns (c : Thread nD τ) arg6 fullShare (k1_pay2 x1 x0 x2 xs)) -∗ K ⟨⟩))
      ⊢ wp frame (wpE (defs₀ (F := F)) Variants.none c none) E (cc1__pass2_kernel i arg2 harg2 arg3 harg3 arg4 harg4 arg5 harg5 arg6 harg6) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (coverO1 _ _)]
    rw [View.canon_unit_zero (S := S1x64x1) zerosR1_3]
    simp only [View.readAt_eq_ld, harg2.read_unread, harg3.read_unread, harg4.read_unread, harg6.read_unread,
    View.ld_unit_zero (S := S8192) zerosR1_1, View.ld_unit_zero (S := S8192x8) zerosR1_2, View.ld_unit_zero (S := S64x8) zerosR1_2, View.ld_unit_zero (S := S64x1) zerosR1_2,
    View.readCov_unit_zero (S := S64x1) _ zerosR1_2]
  iexists _; isplitr
  swap; · iexact HS
  ipureintro
  sl_unfold_words
  rw [View.read_writes_eq_canon _ _ _ (coverS1 _ _)]
  rw [View.canon_unit_zero (S := S64x1) zerosR1_2]
  simp only [View.readAt_eq_ld, harg2.read_unread, harg3.read_unread, harg4.read_unread, harg6.read_unread,
    View.ld_unit_zero (S := S8192) zerosR1_1, View.ld_unit_zero (S := S8192x8) zerosR1_2, View.ld_unit_zero (S := S64x8) zerosR1_2, View.ld_unit_zero (S := S64x1) zerosR1_2,
    View.readCov_unit_zero (S := S64x1) _ zerosR1_2]

/-! ## The staging memrefs at a point -/

abbrev ms1_0 (t : Fin cfg1.N) : Memref sig .tc .vmem S8192x8 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x8 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64x1 .f32 := win1_3.stage (cfg1.slots t 3)
abbrev hs1_3 (t : Fin cfg1.N) : (ms1_3 t).IsWhole := hstage1_3 ((cfg1.slots t 3).cast nbuf1_3)

/-! ## What the body finds in the inputs' buffers -/

/-- An input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The invariant, point by point -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 c ∗ owns (c : Thread nD τ) scM1_0 fullShare (acc1 V c n hn)) ∗ (∃ r, prngReg c r)) := rfl

theorem PhiS1_pos (c : Dev nD) (n : ℕ) (h : n ≤ cfg1.N) (hz : n ≠ 0) :
    PhiS1 V c n h = iprop(iprop(others1 c ∗ owns (c : Thread nD τ) scM1_0 fullShare (acc1 V c (n - 1) (by omega))) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The scoped rest with the table apart from the buffers this call never touches. -/
theorem PhiA1_eq (c : Dev nD) :
    (Pipeline.ΦA spec1 c : sProp 𝕄)
      = iprop(iprop(others1 c ∗ (∃ d, owns (c : Thread nD τ) scM1_0 fullShare d)) ∗ (∃ r, prngReg c r)) := by
  unfold Pipeline.ΦA; rw [scopedRest1_eq]; unfold others1; simp only [scM1_0, owns_whole]
  refine BI.equiv_iff.mp ⟨?_, ?_⟩
  · show (_ : sProp 𝕄) ⊢ _
    iintro ⟨⟨A1, A2, A3, A4, A5, A6, A7, A8, A9, A10, A11⟩, Hg⟩
    isplitr [Hg]
    · isplitr [A11]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        iexact A10
      · iexact A11
    · iexact Hg
  · show (_ : sProp 𝕄) ⊢ _
    iintro ⟨⟨⟨A1, A2, A3, A4, A5, A6, A7, A8, A9, A10⟩, A11⟩, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      iexact A11
    · iexact Hg

/-! ## The body at a point -/

/-- What the body is called with at a point, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point, by the three cases of the point's place in its run of 245. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 490 := lt_of_lt_of_eq t.isLt (show cfg1.N = 490 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 245 = 0
  · have h1 : ¬t.val % 245 = 244 := by omega
    rw [Dat.leavesExact_idle (dat1 V c) 3 t (idleAt1_3 t (fun h => h1 ((hcond1_1 t).mp h))) (noFlush1_3 t (fun h => h1 ((hcond1_1 t).mp h)))]
    rw [acc1_first V c t h0]
    by_cases hz : t.val = 0
    · rw [PhiS1_castSucc V c t, PhiS1_zero V c _ _ hz, PhiA1_eq]
      iintro ⟨⟨⟨Hoth, HS⟩, Hg⟩, Ho, ⟨%d0, H0⟩, ⟨%d1, H1⟩, ⟨%d2, H2⟩, ⟨%d3, H3⟩⟩
      iapply (run1_first c Set.univ (grid1.coords t) (ms1_0 t) (hs1_0 t) (ms1_1 t) (hs1_1 t) (ms1_2 t) (hs1_2 t) (ms1_3 t) (hs1_3 t) scM1_0 (Memref.isWhole_whole _)
        ((hcond1_0 t).mpr h0) (fun h => h1 ((hcond1_1 t).mp h)) (var1 V c t) (lab1 V c t) (mean1 V c t) ((dat1 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth HS]
        · isplitl [Hoth]; · iexact Hoth
          iexact HS
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Hoth, HS⟩, Hg⟩, Ho, ⟨%d0, H0⟩, ⟨%d1, H1⟩, ⟨%d2, H2⟩, ⟨%d3, H3⟩⟩
      iapply (run1_first c Set.univ (grid1.coords t) (ms1_0 t) (hs1_0 t) (ms1_1 t) (hs1_1 t) (ms1_2 t) (hs1_2 t) (ms1_3 t) (hs1_3 t) scM1_0 (Memref.isWhole_whole _)
        ((hcond1_0 t).mpr h0) (fun h => h1 ((hcond1_1 t).mp h)) (var1 V c t) (lab1 V c t) (mean1 V c t) ((dat1 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hoth HS Hg]
      · isplitl [Hoth HS]
        · isplitl [Hoth]; · iexact Hoth
          iexact HS
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [acc1_later V c t h0]
    rw [PhiS1_castSucc V c t, PhiS1_pos V c _ _ hz]
    by_cases h1 : t.val % 245 = 244
    · rw [show (dat1 V c).leavesExact 3 t = owns (c : Thread nD τ) (ms1_3 t) fullShare ((dat1 V c).after 3 t) from by
        unfold Dat.leavesExact; rw [liveAt1_3 t ((hcond1_1 t).mpr h1)], after1_3]
      rw [acc1_later V c t h0]
      iintro ⟨⟨⟨Hoth, HS⟩, Hg⟩, Ho, ⟨%d0, H0⟩, ⟨%d1, H1⟩, ⟨%d2, H2⟩, ⟨%d3, H3⟩⟩
      iapply (run1_last c Set.univ (grid1.coords t) (ms1_0 t) (hs1_0 t) (ms1_1 t) (hs1_1 t) (ms1_2 t) (hs1_2 t) (ms1_3 t) (hs1_3 t) scM1_0 (Memref.isWhole_whole _)
        (fun h => h0 ((hcond1_0 t).mp h)) ((hcond1_1 t).mpr h1) (var1 V c t) (lab1 V c t) (mean1 V c t)
        (acc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hoth HS Hg]
      · isplitl [Hoth HS]
        · isplitl [Hoth]; · iexact Hoth
          iexact HS
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      iintro ⟨⟨⟨Hoth, HS⟩, Hg⟩, Ho, ⟨%d0, H0⟩, ⟨%d1, H1⟩, ⟨%d2, H2⟩, ⟨%d3, H3⟩⟩
      iapply (run1_mid c Set.univ (grid1.coords t) (ms1_0 t) (hs1_0 t) (ms1_1 t) (hs1_1 t) (ms1_2 t) (hs1_2 t) (ms1_3 t) (hs1_3 t) scM1_0 (Memref.isWhole_whole _)
        (fun h => h0 ((hcond1_0 t).mp h)) (fun h => h1 ((hcond1_1 t).mp h)) (var1 V c t) (lab1 V c t) (mean1 V c t) ((dat1 V c).before 3 t d3)
        (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth HS]
        · isplitl [Hoth]; · iexact Hoth
          iexact HS
        iexact Hg
      isplitl [Ho]; · iexact Ho
      isplitl [H0]; · iexact H0
      isplitl [H1]; · iexact H1
      isplitl [H2]; · iexact H2
      iexists _; iexact H3

/-- After any point but the first the invariant gives the scoped rest back, the table's contents forgotten. -/
theorem Phi1_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨Hoth, HS⟩, Hg⟩
  isplitl [Hoth HS]
  · isplitl [Hoth]; · iexact Hoth
    iexists _; iexact HS
  iexact Hg

/-! ## The obligations -/

/-- The body at every point. -/
theorem body_obligation1 (c : Dev nD) : BodyObligation (dat1 (F := F) V c) (defs₀ (F := F)) Variants.none () Set.univ := by
  intro t
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the scoped rest back, the table's contents forgotten. -/
theorem hout1 (c : Dev nD) : (dat1 V c).Φ (Fin.last cfg1.N) ⊢ (Pipeline.ΦA spec1 c : sProp 𝕄) := by
  exact Phi1_out V c _ (by rw [Fin.val_last]; have : cfg1.N = 490 := N_1; omega)

end Cert.Kernel.Hand

end
-- ==== Proof.K.Run.lean ====
/-
  The run of the whole program: ten items in order — four stretches of host operations (the two paddings), the
  first pass, a stretch (the sums over the two cores, the raised counts, the means), the second pass, and three
  stretches (the per-segment quotient, the mask, the selection, the last sum).

  Between two items a core holds every unscoped buffer at contents named here by a fold from the launch memory:
  a stretch applies its operations; a pass leaves its input arrays as it found them and its output arrays at
  what its write-backs left, every other buffer untouched.  The two passes enter the launch as records over the
  proof data of their own modules; what rides beside the buffers through every item is the generator register
  at some state and the core owing nothing.  Every weakly fair execution ends, and every unscoped buffer then
  holds the last fold's contents.
-/
import proofs.«428285_j46179488367045_2_alg».proof.Proof.Gen.Kernel.Launch
import proofs.«428285_j46179488367045_2_alg».proof.Proof.Gen.Kernel.Skeleton
import proofs.«428285_j46179488367045_2_alg».proof.Proof.Gen.Kernel.Points
import proofs.«428285_j46179488367045_2_alg».proof.Proof.Gen.Kernel.Regions
import proofs.«428285_j46179488367045_2_alg».proof.Proof.K.Region0
import proofs.«428285_j46179488367045_2_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After each of the four stretches before the first pass. -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
/-- The same read at the TensorCore's references: what the first pass's proof data take. -/
abbrev E0 : (c : Dev nD) → (b : Ref sig .tc) → Buf (Elt F) ((c : Thread nD τ).loc b) := fun c b => W4 m c b
/-- After the first pass: its arrays at what the pipeline leaves, every other buffer as entered. -/
def W5 (c : Dev nD) : Valuation τ sig (Elt F) :=
  Pipeline.withArrays spec0 c (W4 m c) fun w => (dat0 (E0 m) c).arrAt w cfg0.N
theorem W5_arr (c : Dev nD) (w : Fin cfg0.W) :
    W5 m c (Proc.devRef .tc (Pipeline.arrRef spec0 w)) = (dat0 (E0 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
abbrev X0 : (c : Dev nD) → (b : Ref sig .tc) → Buf (Elt F) ((c : Thread nD τ).loc b) := fun c b => W5 m c b
theorem hF0 (c : Dev nD) (w : Fin cfg0.W) : (dat0 (E0 m) c).arrAt w cfg0.N = X0 m c (Pipeline.arrRef spec0 w) :=
  (W5_arr m c w).symm
theorem hrest0 (c : Dev nD) : ∀ b, b ∉ Finset.univ.image (Pipeline.arrRef spec0) → X0 m c b = E0 m c b :=
  fun b hb => W5_of_ne m c b fun w e => hb (Finset.mem_image.mpr ⟨w, Finset.mem_univ _, e⟩)
/-- After the stretch between the passes. -/
abbrev W6 : Dev nD → Valuation τ sig (Elt F) := fun c => StableHlo.after hostOps1 (W5 m c)
abbrev E1 : (c : Dev nD) → (b : Ref sig .tc) → Buf (Elt F) ((c : Thread nD τ).loc b) := fun c b => W6 m c b
/-- After the second pass. -/
def W7 (c : Dev nD) : Valuation τ sig (Elt F) :=
  Pipeline.withArrays spec1 c (W6 m c) fun w => (dat1 (E1 m) c).arrAt w cfg1.N
theorem W7_arr (c : Dev nD) (w : Fin cfg1.W) :
    W7 m c (Proc.devRef .tc (Pipeline.arrRef spec1 w)) = (dat1 (E1 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev X1 : (c : Dev nD) → (b : Ref sig .tc) → Buf (Elt F) ((c : Thread nD τ).loc b) := fun c b => W7 m c b
theorem hF1 (c : Dev nD) (w : Fin cfg1.W) : (dat1 (E1 m) c).arrAt w cfg1.N = X1 m c (Pipeline.arrRef spec1 w) :=
  (W7_arr m c w).symm
theorem hrest1 (c : Dev nD) : ∀ b, b ∉ Finset.univ.image (Pipeline.arrRef spec1) → X1 m c b = E1 m c b :=
  fun b hb => W7_of_ne m c b fun w e => hb (Finset.mem_image.mpr ⟨w, Finset.mem_univ _, e⟩)
/-- After each of the three stretches that follow. -/
abbrev W8 : Dev nD → Valuation τ sig (Elt F) := fun c => StableHlo.after hostOps2 (W7 m c)
abbrev W9 : Dev nD → Valuation τ sig (Elt F) := fun c => StableHlo.after hostOps2_1 (W8 m c)
abbrev W10 : Dev nD → Valuation τ sig (Elt F) := fun c => StableHlo.after hostOps2_2 (W9 m c)

/-! ## The proof data family and what rides along -/

/-- Each pass's proof data at its entry contents, by a literal match on the pipeline's number. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two passes as segments -/

set_option backward.isDefEq.respectTransparency.types false in
/-- The first pass: entered from every unscoped buffer at `W4`, left at `W5`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (E0 m) c
    unfold Pipeline.ΦA at h
    rw [show (pdats m 0 c).Φ 0 = (dat0 (E0 m) c).Φ 0 from rfl]
    iintro ⟨Hp, -, Hr⟩
    iapply h
    isplitl [Hr]; · iexact Hr
    iexact Hp
  hout c := by
    have h := hout0 (E0 m) c
    unfold Pipeline.ΦA at h
    rw [Pipeline.ownSems0_none, show (pdats m 0 c).Φ (Fin.last _) = (dat0 (E0 m) c).Φ (Fin.last cfg0.N) from rfl]
    refine h.trans ?_
    show (iprop(Pipeline.scopedRest spec0 c ∗ ∃ r, prngReg c r) : sProp 𝕄) ⊢ iprop((∃ r, prngReg c r) ∗ emp ∗ Pipeline.scopedRest spec0 c)
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass: entered from every unscoped buffer at `W6`, left at `W7`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E1 m) c
    unfold Pipeline.ΦA at h
    rw [show (pdats m 1 c).Φ 0 = (dat1 (E1 m) c).Φ 0 from rfl]
    iintro ⟨Hp, -, Hr⟩
    iapply h
    isplitl [Hr]; · iexact Hr
    iexact Hp
  hout c := by
    have h := hout1 (E1 m) c
    unfold Pipeline.ΦA at h
    rw [Pipeline.ownSems0_none, show (pdats m 1 c).Φ (Fin.last _) = (dat1 (E1 m) c).Φ (Fin.last cfg1.N) from rfl]
    refine h.trans ?_
    show (iprop(Pipeline.scopedRest spec1 c ∗ ∃ r, prngReg c r) : sProp 𝕄) ⊢ iprop((∃ r, prngReg c r) ∗ emp ∗ Pipeline.scopedRest spec1 c)
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The items in order, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m)),
    .region (reg1 m),
    .host (hseg hostOps2 hostOps2_sub hostOps2_fresh (W7 m)),
    .host (hseg hostOps2_1 hostOps2_1_sub hostOps2_1_fresh (W8 m)),
    .host (hseg hostOps2_2 hostOps2_2_sub hostOps2_2_fresh (W9 m)) ]

set_option backward.isDefEq.respectTransparency.types false in
/-- THE RUN: from any memory with zero counters every weakly fair execution of the program ends, nothing faulting, and
    every unscoped buffer of every core then holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => StableHlo.held (c : Thread nD τ) (Pipeline.ucRefs τ sig) (W10 m c))
    (hch := ⟨fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W10 m c) ∗ R c) : sProp 𝕄)
        ⊢ iprop(StableHlo.held (c : Thread nD τ) (Pipeline.ucRefs τ sig) (W10 m c) ∗ ∃ W, owes (c : Thread nD τ) (0 : CellTallies nD τ sig Unit) W)
      iintro ⟨Hh, -, HO⟩
      isplitl [Hh]; · iexact Hh
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨Hh, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-! ## The arguments end as launched -/

theorem W10_main_arg0 (c : Dev nD) : W10 m c (Proc.devRef .tc main_arg0) = m ((c : Thread nD τ).loc main_arg0) :=
  calc W10 m c (Proc.devRef .tc main_arg0)
    _ = W9 m c (Proc.devRef .tc main_arg0) := StableHlo.after_of_writes_sub hostOps2_2 _ hostOps2_2_writes (r := main_arg0) (by decide)
    _ = W8 m c (Proc.devRef .tc main_arg0) := StableHlo.after_of_writes_sub hostOps2_1 _ hostOps2_1_writes (r := main_arg0) (by decide)
    _ = W7 m c (Proc.devRef .tc main_arg0) := StableHlo.after_of_writes_sub hostOps2 _ hostOps2_writes (r := main_arg0) (by decide)
    _ = W6 m c (Proc.devRef .tc main_arg0) := W7_of_ne m c main_arg0 (by decide)
    _ = W5 m c (Proc.devRef .tc main_arg0) := StableHlo.after_of_writes_sub hostOps1 _ hostOps1_writes (r := main_arg0) (by decide)
    _ = W4 m c (Proc.devRef .tc main_arg0) := W5_of_ne m c main_arg0 (by decide)
    _ = W3 m c (Proc.devRef .tc main_arg0) := StableHlo.after_of_writes_sub hostOps0_3 _ hostOps0_3_writes (r := main_arg0) (by decide)
    _ = W2 m c (Proc.devRef .tc main_arg0) := StableHlo.after_of_writes_sub hostOps0_2 _ hostOps0_2_writes (r := main_arg0) (by decide)
    _ = W1 m c (Proc.devRef .tc main_arg0) := StableHlo.after_of_writes_sub hostOps0_1 _ hostOps0_1_writes (r := main_arg0) (by decide)
    _ = W0 m c (Proc.devRef .tc main_arg0) := StableHlo.after_of_writes_sub hostOps0 _ hostOps0_writes (r := main_arg0) (by decide)
    _ = m ((c : Thread nD τ).loc main_arg0) := rfl

theorem W10_main_arg1 (c : Dev nD) : W10 m c (Proc.devRef .tc main_arg1) = m ((c : Thread nD τ).loc main_arg1) :=
  calc W10 m c (Proc.devRef .tc main_arg1)
    _ = W9 m c (Proc.devRef .tc main_arg1) := StableHlo.after_of_writes_sub hostOps2_2 _ hostOps2_2_writes (r := main_arg1) (by decide)
    _ = W8 m c (Proc.devRef .tc main_arg1) := StableHlo.after_of_writes_sub hostOps2_1 _ hostOps2_1_writes (r := main_arg1) (by decide)
    _ = W7 m c (Proc.devRef .tc main_arg1) := StableHlo.after_of_writes_sub hostOps2 _ hostOps2_writes (r := main_arg1) (by decide)
    _ = W6 m c (Proc.devRef .tc main_arg1) := W7_of_ne m c main_arg1 (by decide)
    _ = W5 m c (Proc.devRef .tc main_arg1) := StableHlo.after_of_writes_sub hostOps1 _ hostOps1_writes (r := main_arg1) (by decide)
    _ = W4 m c (Proc.devRef .tc main_arg1) := W5_of_ne m c main_arg1 (by decide)
    _ = W3 m c (Proc.devRef .tc main_arg1) := StableHlo.after_of_writes_sub hostOps0_3 _ hostOps0_3_writes (r := main_arg1) (by decide)
    _ = W2 m c (Proc.devRef .tc main_arg1) := StableHlo.after_of_writes_sub hostOps0_2 _ hostOps0_2_writes (r := main_arg1) (by decide)
    _ = W1 m c (Proc.devRef .tc main_arg1) := StableHlo.after_of_writes_sub hostOps0_1 _ hostOps0_1_writes (r := main_arg1) (by decide)
    _ = W0 m c (Proc.devRef .tc main_arg1) := StableHlo.after_of_writes_sub hostOps0 _ hostOps0_writes (r := main_arg1) (by decide)
    _ = m ((c : Thread nD τ).loc main_arg1) := rfl

/-- THE FRAME, at any float family: the program runs to the end and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W10_main_arg0 m c),
     (h c _ (mem_uc main_arg1 (by decide))).trans (W10_main_arg1 m c)⟩) (run_all m ρ)

end Cert.Kernel.Hand

end
-- ==== Proof.KI.Region0.lean ====
/-
  The first pass on one core's grid of 2 × 245 points, at any entry contents V of the core's buffers.

  Point t holds block t of the padded rows (8192 rows of eight entries) and of the padded labels.  Two small
  tables are carried from point to point: per segment and column the running sum of the entries of the rows
  whose label is the segment, and per segment the running count of such rows.  At the first point of each
  run of 245 the tables restart from zero; every point adds its block's contribution; the last point of each
  run copies both tables into the output blocks, which the pipeline writes back only there.  What the tables
  hold after point n is `acc0 n`, by recursion on n; the invariant between points names exactly that.
-/
import proofs.«428285_j46179488367045_2_alg».proof.Proof.Gen.KernelIdeal.Launch
import proofs.«428285_j46179488367045_2_alg».proof.Proof.Gen.KernelIdeal.Skeleton
import proofs.«428285_j46179488367045_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' block and the labels' block at a point, at their literal types. -/
abbrev var0 (c : Dev nD) (t : Fin cfg0.N) : Vec F S8192x8 .f32 := iblk0 V c 0 t
abbrev lab0 (c : Dev nD) (t : Fin cfg0.N) : Vec F S8192 .i32 := iblk0 V c 1 t

/-! ## The two carried tables -/

/-- Both tables after one point's contribution is added to `p`. -/
def step0 (lab : Vec F S8192 .i32) (var : Vec F S8192x8 .f32) (p : Vec F S64x8 .f32 × Vec F S64x1 .f32) :
    Vec F S64x8 .f32 × Vec F S64x1 .f32 :=
  (k0_pay4 lab var p.1, k0_pay5 lab p.2)

/-- Both tables at zero: what the first point of a run stores before it adds. -/
def zero0 : Vec F S64x8 .f32 × Vec F S64x1 .f32 := (k0_pay1, k0_pay2)

/-- What the two tables hold after point `n`: the point's contribution added to zero at the first point of a run
    of 245, to what the point before left otherwise. -/
def acc0 (c : Dev nD) : (n : ℕ) → n < cfg0.N → Vec F S64x8 .f32 × Vec F S64x1 .f32
  | 0, hn => step0 (lab0 V c ⟨0, hn⟩) (var0 V c ⟨0, hn⟩) zero0
  | n + 1, hn => step0 (lab0 V c ⟨n + 1, hn⟩) (var0 V c ⟨n + 1, hn⟩)
      (if (n + 1) % 245 = 0 then zero0 else acc0 c n (Nat.lt_of_succ_lt hn))

theorem acc0_first (c : Dev nD) (t : Fin cfg0.N) (h : t.val % 245 = 0) :
    acc0 V c t.val t.isLt = step0 (lab0 V c t) (var0 V c t) zero0 := by
  obtain ⟨n, hn⟩ := t
  cases n with
  | zero => rfl
  | succ n => exact (by unfold acc0; rw [if_pos h])

theorem acc0_later (c : Dev nD) (t : Fin cfg0.N) (h : ¬ t.val % 245 = 0) :
    acc0 V c t.val t.isLt = step0 (lab0 V c t) (var0 V c t)
      (acc0 V c (t.val - 1) (Nat.lt_of_le_of_lt (Nat.sub_le _ _) t.isLt)) := by
  obtain ⟨n, hn⟩ := t
  cases n with
  | zero => exact absurd (Nat.zero_mod _) h
  | succ n => exact (by rw [acc0]; simp only [if_neg h, Nat.add_sub_cancel])

/-! ## The invariant between points -/

/-- The two scratch operands, whole scoped buffers of the kernel's own. -/
abbrev scM0_0 : Memref sig .tc .vmem S64x8 .f32 := Memref.whole cc0_scratch0
abbrev scM0_1 : Memref sig .tc .vmem S64x1 .f32 := Memref.whole cc0_scratch1

/-- The core's other scoped buffers that are no staging buffer of this call (the second call's staging buffers and
    scratch), each whole at some contents: this call never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- Before the first point the two tables hold anything; before a later point, what the point before left. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn).1 ∗ owns (c : Thread nD τ) scM0_1 fullShare (acc0 V c n hn).2 ∗ others0 c) ∗ (∃ r, prngReg c r))

/-! ## The proof data -/

/-- The arrays as the region finds them; after the body each input's buffer at its block, each output's buffer at the
    copy of the table of the point (consulted only where the body stores it: the last point of a run); the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (acc0 V c t.val t.isLt).1
    | ⟨3, _⟩ => k0_pay7 (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (acc0 V c t.val t.isLt).1 := by dsimp only [dat0]
theorem after0_3 (c : Dev nD) (t : Fin cfg0.N) : (dat0 V c).after 3 t = k0_pay7 (acc0 V c t.val t.isLt).2 := by dsimp only [dat0]

/-! ## The body on whole buffers

Every access of the body is a load or a store of a whole buffer: after a store the buffer holds the stored value, and a
load after it reads that value.  So the body's triple names each buffer's final contents outright, one triple for each
of the three kinds of point. -/

/-- The body's first conditional: the point is the first of its run. -/
abbrev cond0_0 (i : grid0.Coords) : Prop := (Scalar.cmpi .ne (Scalar.extui (Scalar.cmpi .eq (BitVec.ofNat 32 (i 1).val) 0#32)) 0#32) = 1#1
/-- The body's second conditional: the point is the last of its run. -/
abbrev cond0_1 (i : grid0.Coords) : Prop := k0_cond2 i = 1#1

theorem hcond0_0 : ∀ t : Fin cfg0.N, cond0_0 (grid0.coords t) ↔ t.val % 245 = 0 :=
  (by decide +kernel : ∀ t : Fin grid0.N, cond0_0 (grid0.coords t) ↔ t.val % 245 = 0)
theorem hcond0_1 : ∀ t : Fin cfg0.N, cond0_1 (grid0.coords t) ↔ t.val % 245 = 244 :=
  (by decide +kernel : ∀ t : Fin grid0.N, cond0_1 (grid0.coords t) ↔ t.val % 245 = 244)

/-- The two inputs are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- The two outputs are idle, and not written back, except at the last point of a run, where they are live. -/
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

theorem zeros1 : (![0] : Fin 1 → ℕ) = fun _ => 0 := by funext a; fin_cases a; rfl
theorem zeros2 : (![0, 0] : Fin 2 → ℕ) = fun _ => 0 := by funext a; fin_cases a <;> rfl
theorem zeros3 : (![0, 0, 0] : Fin 3 → ℕ) = fun _ => 0 := by funext a; fin_cases a <;> rfl

/-- After a store of the whole buffer, whatever was stored before, the buffer reads the stored value. -/
theorem read_writes_whole {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1000000 in
/-- A point that neither restarts the tables nor copies them out: both tables take the block's contribution. -/
theorem kernel0_mid (c : Dev nD) (E : Set ℕ) (i : grid0.Coords)
    (arg2 : Memref sig .tc .vmem S8192x8 .f32) (harg2 : arg2.IsWhole) (arg3 : Memref sig .tc .vmem S8192 .i32) (harg3 : arg3.IsWhole)
    (arg4 : Memref sig .tc .vmem S1x64x8 .f32) (harg4 : arg4.IsWhole) (arg5 : Memref sig .tc .vmem S1x64x1 .f32) (harg5 : arg5.IsWhole)
    (arg6 : Memref sig .tc .vmem S64x8 .f32) (harg6 : arg6.IsWhole) (arg7 : Memref sig .tc .vmem S64x1 .f32) (harg7 : arg7.IsWhole)
    (hc0 : ¬cond0_0 i) (hc1 : ¬cond0_1 i)
    (x : Vec F S8192x8 .f32) (l : Vec F S8192 .i32) (a : Vec F S64x8 .f32) (b : Vec F S64x1 .f32) (K : PUnit → sProp 𝕄) :
    iprop(owns (c : Thread nD τ) arg2 fullShare x ∗ owns (c : Thread nD τ) arg3 fullShare l
        ∗ owns (c : Thread nD τ) arg6 fullShare a ∗ owns (c : Thread nD τ) arg7 fullShare b
        ∗ (iprop(owns (c : Thread nD τ) arg2 fullShare x ∗ owns (c : Thread nD τ) arg3 fullShare l
            ∗ owns (c : Thread nD τ) arg6 fullShare (k0_pay4 l x a) ∗ owns (c : Thread nD τ) arg7 fullShare (k0_pay5 l b)) -∗ K ⟨⟩))
      ⊢ wp frame (wpE (defs₀ (F := F)) Variants.none c none) E (cc0__pass1_kernel i arg2 harg2 arg3 harg3 arg4 harg4 arg5 harg5 arg6 harg6 arg7 harg7) K := by
  simp only [cc0__pass1_kernel_eq_skeleton]; unfold cc0__pass1_kernel_skel
  unfold owns
  iintro ⟨⟨%f0, %hf0, H0⟩, ⟨%f1, %hf1, H1⟩, ⟨%fa, %hfa, HA⟩, ⟨%fb, %hfb, HB⟩, Hk⟩
  obtain rfl := harg2.eq_unread hf0; obtain rfl := harg3.eq_unread hf1
  obtain rfl := harg6.eq_unread hfa; obtain rfl := harg7.eq_unread hfb
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HA]
  · iexists _; isplitr
    swap; · iexact HA
    ipureintro
    rw [read_writes_whole _ _ zeros2]
    simp only [View.readAt_eq_ld, hf0, hf1, hfa, View.ld_unit_zero (S := S8192) zeros1, View.ld_unit_zero (S := S8192x8) zeros2, View.ld_unit_zero (S := S64x8) zeros2]
  · iexists _; isplitr
    swap; · iexact HB
    ipureintro
    rw [read_writes_whole _ _ zeros2]
    simp only [View.readAt_eq_ld, hf1, hfb, View.ld_unit_zero (S := S8192) zeros1, View.ld_unit_zero (S := S64x1) zeros2]

set_option maxHeartbeats 1000000 in
/-- The first point of a run: whatever the tables held, they restart from zero and take the block's contribution. -/
theorem kernel0_first (c : Dev nD) (E : Set ℕ) (i : grid0.Coords)
    (arg2 : Memref sig .tc .vmem S8192x8 .f32) (harg2 : arg2.IsWhole) (arg3 : Memref sig .tc .vmem S8192 .i32) (harg3 : arg3.IsWhole)
    (arg4 : Memref sig .tc .vmem S1x64x8 .f32) (harg4 : arg4.IsWhole) (arg5 : Memref sig .tc .vmem S1x64x1 .f32) (harg5 : arg5.IsWhole)
    (arg6 : Memref sig .tc .vmem S64x8 .f32) (harg6 : arg6.IsWhole) (arg7 : Memref sig .tc .vmem S64x1 .f32) (harg7 : arg7.IsWhole)
    (hc0 : cond0_0 i) (hc1 : ¬cond0_1 i)
    (x : Vec F S8192x8 .f32) (l : Vec F S8192 .i32) (K : PUnit → sProp 𝕄) :
    iprop(owns (c : Thread nD τ) arg2 fullShare x ∗ owns (c : Thread nD τ) arg3 fullShare l
        ∗ (∃ a, owns (c : Thread nD τ) arg6 fullShare a) ∗ (∃ b, owns (c : Thread nD τ) arg7 fullShare b)
        ∗ (iprop(owns (c : Thread nD τ) arg2 fullShare x ∗ owns (c : Thread nD τ) arg3 fullShare l
            ∗ owns (c : Thread nD τ) arg6 fullShare (k0_pay4 l x k0_pay1) ∗ owns (c : Thread nD τ) arg7 fullShare (k0_pay5 l k0_pay2)) -∗ K ⟨⟩))
      ⊢ wp frame (wpE (defs₀ (F := F)) Variants.none c none) E (cc0__pass1_kernel i arg2 harg2 arg3 harg3 arg4 harg4 arg5 harg5 arg6 harg6 arg7 harg7) K := by
  simp only [cc0__pass1_kernel_eq_skeleton]; unfold cc0__pass1_kernel_skel
  unfold owns
  iintro ⟨⟨%f0, %hf0, H0⟩, ⟨%f1, %hf1, H1⟩, ⟨%a, %fa, -, HA⟩, ⟨%b, %fb, -, HB⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HA]
  · iexists _; isplitr
    swap; · iexact HA
    ipureintro
    rw [read_writes_whole _ _ zeros2]
    sl_unfold_run_names
    simp only [View.readAt_eq_ld, hf0, hf1, View.ld_unit_zero (S := S8192) zeros1, View.ld_unit_zero (S := S8192x8) zeros2, View.readCov_cons_toLoadRect]
  · iexists _; isplitr
    swap; · iexact HB
    ipureintro
    rw [read_writes_whole _ _ zeros2]
    sl_unfold_run_names
    simp only [View.readAt_eq_ld, hf1, View.ld_unit_zero (S := S8192) zeros1, View.readCov_cons_toLoadRect]

set_option maxHeartbeats 1000000 in
/-- The last point of a run: both tables take the block's contribution and are then copied whole into the output blocks. -/
theorem kernel0_last (c : Dev nD) (E : Set ℕ) (i : grid0.Coords)
    (arg2 : Memref sig .tc .vmem S8192x8 .f32) (harg2 : arg2.IsWhole) (arg3 : Memref sig .tc .vmem S8192 .i32) (harg3 : arg3.IsWhole)
    (arg4 : Memref sig .tc .vmem S1x64x8 .f32) (harg4 : arg4.IsWhole) (arg5 : Memref sig .tc .vmem S1x64x1 .f32) (harg5 : arg5.IsWhole)
    (arg6 : Memref sig .tc .vmem S64x8 .f32) (harg6 : arg6.IsWhole) (arg7 : Memref sig .tc .vmem S64x1 .f32) (harg7 : arg7.IsWhole)
    (hc0 : ¬cond0_0 i) (hc1 : cond0_1 i)
    (x : Vec F S8192x8 .f32) (l : Vec F S8192 .i32) (a : Vec F S64x8 .f32) (b : Vec F S64x1 .f32) (K : PUnit → sProp 𝕄) :
    iprop(owns (c : Thread nD τ) arg2 fullShare x ∗ owns (c : Thread nD τ) arg3 fullShare l
        ∗ (∃ d, owns (c : Thread nD τ) arg4 fullShare d) ∗ (∃ d, owns (c : Thread nD τ) arg5 fullShare d)
        ∗ owns (c : Thread nD τ) arg6 fullShare a ∗ owns (c : Thread nD τ) arg7 fullShare b
        ∗ (iprop(owns (c : Thread nD τ) arg2 fullShare x ∗ owns (c : Thread nD τ) arg3 fullShare l
            ∗ owns (c : Thread nD τ) arg4 fullShare (k0_pay6 (k0_pay4 l x a)) ∗ owns (c : Thread nD τ) arg5 fullShare (k0_pay7 (k0_pay5 l b))
            ∗ owns (c : Thread nD τ) arg6 fullShare (k0_pay4 l x a) ∗ owns (c : Thread nD τ) arg7 fullShare (k0_pay5 l b)) -∗ K ⟨⟩))
      ⊢ wp frame (wpE (defs₀ (F := F)) Variants.none c none) E (cc0__pass1_kernel i arg2 harg2 arg3 harg3 arg4 harg4 arg5 harg5 arg6 harg6 arg7 harg7) K := by
  simp only [cc0__pass1_kernel_eq_skeleton]; unfold cc0__pass1_kernel_skel
  unfold owns
  iintro ⟨⟨%f0, %hf0, H0⟩, ⟨%f1, %hf1, H1⟩, ⟨%d2, %f2, -, H2⟩, ⟨%d3, %f3, -, H3⟩, ⟨%fa, %hfa, HA⟩, ⟨%fb, %hfb, HB⟩, Hk⟩
  obtain rfl := harg2.eq_unread hf0; obtain rfl := harg3.eq_unread hf1
  obtain rfl := harg6.eq_unread hfa; obtain rfl := harg7.eq_unread hfb
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_writes_whole _ _ zeros3]
    sl_unfold_run_names
    simp only [View.readAt_eq_ld, hf0, hf1, hfa, View.ld_unit_zero (S := S8192) zeros1, View.ld_unit_zero (S := S8192x8) zeros2, View.ld_unit_zero (S := S64x8) zeros2, View.readCov_cons_toLoadRect]
  isplitl [H3]
  · iexists _; isplitr
    swap; · iexact H3
    ipureintro
    rw [read_writes_whole _ _ zeros3]
    sl_unfold_run_names
    simp only [View.readAt_eq_ld, hf1, hfb, View.ld_unit_zero (S := S8192) zeros1, View.ld_unit_zero (S := S64x1) zeros2, View.readCov_cons_toLoadRect]
  isplitl [HA]
  · iexists _; isplitr
    swap; · iexact HA
    ipureintro
    sl_unfold_run_names
    rw [read_writes_whole _ _ zeros2]
    simp only [View.readAt_eq_ld, hf0, hf1, hfa, View.ld_unit_zero (S := S8192) zeros1, View.ld_unit_zero (S := S8192x8) zeros2, View.ld_unit_zero (S := S64x8) zeros2]
  · iexists _; isplitr
    swap; · iexact HB
    ipureintro
    sl_unfold_run_names
    rw [read_writes_whole _ _ zeros2]
    simp only [View.readAt_eq_ld, hf1, hfb, View.ld_unit_zero (S := S8192) zeros1, View.ld_unit_zero (S := S64x1) zeros2]

/-! ## What the body finds and leaves at a point -/

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn).1 ∗ owns (c : Thread nD τ) scM0_1 fullShare (acc0 V c n hn).2 ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)).1 ∗ owns (c : Thread nD τ) scM0_1 fullShare (acc0 V c (n - 1) (by omega)).2 ∗ others0 c) ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- Each input's buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (st0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (st0_1 t) fullShare (iblk0 V c 1 t) := by
  unfold Dat.leavesExact; rw [liveAt0_1 t, after0_1]
theorem leaves0_2_live (c : Dev nD) (t : Fin cfg0.N) (h : cond0_1 (grid0.coords t)) :
    (dat0 V c).leavesExact 2 t = owns (c : Thread nD τ) (st0_2 t) fullShare (k0_pay6 (acc0 V c t.val t.isLt).1) := by
  unfold Dat.leavesExact; rw [liveAt0_2 t h, after0_2]
theorem leaves0_3_live (c : Dev nD) (t : Fin cfg0.N) (h : cond0_1 (grid0.coords t)) :
    (dat0 V c).leavesExact 3 t = owns (c : Thread nD τ) (st0_3 t) fullShare (k0_pay7 (acc0 V c t.val t.isLt).2) := by
  unfold Dat.leavesExact; rw [liveAt0_3 t h, after0_3]

set_option maxHeartbeats 1000000 in
/-- The body at the first point of a run: the tables, whatever they held, end at the block's contribution to zero. -/
theorem sound_first0 (c : Dev nD) (t : Fin cfg0.N) (h0 : t.val % 245 = 0) :
    bodyPre0 V c t ⊢ wp frame (wpE (defs₀ (F := F)) Variants.none c none) Set.univ (bodyAt0 t) (fun _ => bodyPost0 V c t) := by
  have h1 : ¬t.val % 245 = 244 := by omega
  have hc0 : cond0_0 (grid0.coords t) := (hcond0_0 t).mpr h0
  have hc1 : ¬cond0_1 (grid0.coords t) := fun h => h1 ((hcond0_1 t).mp h)
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, Dat.leavesExact_idle (dat0 V c) 2 t (idleAt0_2 t hc1) (noFlush0_2 t hc1),
    Dat.leavesExact_idle (dat0 V c) 3 t (idleAt0_3 t hc1) (noFlush0_3 t hc1)]
  rw [acc0_first V c t h0]
  dsimp only [step0, zero0]
  by_cases hz : t.val = 0
  · rw [PhiS0_castSucc V c t, PhiS0_zero V c _ _ hz, PhiA0_eq]
    iintro ⟨⟨⟨HA, HB, Hoth⟩, Hg⟩, Ho, ⟨%d0, H0⟩, ⟨%d1, H1⟩, H2, H3⟩
    iapply (kernel0_first c Set.univ (grid0.coords t) _ _ _ _ _ _ _ _ _ _ _ _ hc0 hc1 (var0 V c t) (lab0 V c t) _)
    isplitl [H0]; · iexact H0
    isplitl [H1]; · iexact H1
    isplitl [HA]; · iexact HA
    isplitl [HB]; · iexact HB
    iintro ⟨H0, H1, HA, HB⟩
    isplitl [HA HB Hoth Hg]
    · isplitr [Hg]
      · isplitl [HA]; · iexact HA
        isplitl [HB]; · iexact HB
        iexact Hoth
      · iexact Hg
    isplitl [Ho]; · iexact Ho
    isplitl [H0]; · iexact H0
    isplitl [H1]; · iexact H1
    isplitl [H2]; · iexact H2
    iexact H3
  · rw [PhiS0_castSucc V c t, PhiS0_pos V c _ _ hz]
    iintro ⟨⟨⟨HA, HB, Hoth⟩, Hg⟩, Ho, ⟨%d0, H0⟩, ⟨%d1, H1⟩, H2, H3⟩
    iapply (kernel0_first c Set.univ (grid0.coords t) _ _ _ _ _ _ _ _ _ _ _ _ hc0 hc1 (var0 V c t) (lab0 V c t) _)
    isplitl [H0]; · iexact H0
    isplitl [H1]; · iexact H1
    isplitl [HA]; · iexists _; iexact HA
    isplitl [HB]; · iexists _; iexact HB
    iintro ⟨H0, H1, HA, HB⟩
    isplitl [HA HB Hoth Hg]
    · isplitr [Hg]
      · isplitl [HA]; · iexact HA
        isplitl [HB]; · iexact HB
        iexact Hoth
      · iexact Hg
    isplitl [Ho]; · iexact Ho
    isplitl [H0]; · iexact H0
    isplitl [H1]; · iexact H1
    isplitl [H2]; · iexact H2
    iexact H3

set_option maxHeartbeats 1000000 in
/-- The body at a point that is neither first nor last of its run: the tables go from what the point before left to that
    with the block's contribution added. -/
theorem sound_mid0 (c : Dev nD) (t : Fin cfg0.N) (h0 : ¬t.val % 245 = 0) (h1 : ¬t.val % 245 = 244) :
    bodyPre0 V c t ⊢ wp frame (wpE (defs₀ (F := F)) Variants.none c none) Set.univ (bodyAt0 t) (fun _ => bodyPost0 V c t) := by
  have hc0 : ¬cond0_0 (grid0.coords t) := fun h => h0 ((hcond0_0 t).mp h)
  have hc1 : ¬cond0_1 (grid0.coords t) := fun h => h1 ((hcond0_1 t).mp h)
  have hz : t.val ≠ 0 := fun e => h0 (by rw [e])
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, Dat.leavesExact_idle (dat0 V c) 2 t (idleAt0_2 t hc1) (noFlush0_2 t hc1),
    Dat.leavesExact_idle (dat0 V c) 3 t (idleAt0_3 t hc1) (noFlush0_3 t hc1)]
  rw [acc0_later V c t h0]
  dsimp only [step0]
  rw [PhiS0_castSucc V c t, PhiS0_pos V c _ _ hz]
  iintro ⟨⟨⟨HA, HB, Hoth⟩, Hg⟩, Ho, ⟨%d0, H0⟩, ⟨%d1, H1⟩, H2, H3⟩
  iapply (kernel0_mid c Set.univ (grid0.coords t) _ _ _ _ _ _ _ _ _ _ _ _ hc0 hc1 (var0 V c t) (lab0 V c t) _ _ _)
  isplitl [H0]; · iexact H0
  isplitl [H1]; · iexact H1
  isplitl [HA]; · iexact HA
  isplitl [HB]; · iexact HB
  iintro ⟨H0, H1, HA, HB⟩
  isplitl [HA HB Hoth Hg]
  · isplitr [Hg]
    · isplitl [HA]; · iexact HA
      isplitl [HB]; · iexact HB
      iexact Hoth
    · iexact Hg
  isplitl [Ho]; · iexact Ho
  isplitl [H0]; · iexact H0
  isplitl [H1]; · iexact H1
  isplitl [H2]; · iexact H2
  iexact H3

set_option maxHeartbeats 1000000 in
/-- The body at the last point of a run: as at a middle point, and the output blocks, live here, end at the copies of
    the tables. -/
theorem sound_last0 (c : Dev nD) (t : Fin cfg0.N) (h1 : t.val % 245 = 244) :
    bodyPre0 V c t ⊢ wp frame (wpE (defs₀ (F := F)) Variants.none c none) Set.univ (bodyAt0 t) (fun _ => bodyPost0 V c t) := by
  have h0 : ¬t.val % 245 = 0 := by omega
  have hc0 : ¬cond0_0 (grid0.coords t) := fun h => h0 ((hcond0_0 t).mp h)
  have hc1 : cond0_1 (grid0.coords t) := (hcond0_1 t).mpr h1
  have hz : t.val ≠ 0 := fun e => h0 (by rw [e])
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2_live V c t hc1, leaves0_3_live V c t hc1]
  rw [acc0_later V c t h0]
  dsimp only [step0]
  rw [PhiS0_castSucc V c t, PhiS0_pos V c _ _ hz]
  iintro ⟨⟨⟨HA, HB, Hoth⟩, Hg⟩, Ho, ⟨%d0, H0⟩, ⟨%d1, H1⟩, ⟨%d2, H2⟩, ⟨%d3, H3⟩⟩
  iapply (kernel0_last c Set.univ (grid0.coords t) _ _ _ _ _ _ _ _ _ _ _ _ hc0 hc1 (var0 V c t) (lab0 V c t) _ _ _)
  isplitl [H0]; · iexact H0
  isplitl [H1]; · iexact H1
  isplitl [H2]; · iexists _; iexact H2
  isplitl [H3]; · iexists _; iexact H3
  isplitl [HA]; · iexact HA
  isplitl [HB]; · iexact HB
  iintro ⟨H0, H1, H2, H3, HA, HB⟩
  isplitl [HA HB Hoth Hg]
  · isplitr [Hg]
    · isplitl [HA]; · iexact HA
      isplitl [HB]; · iexact HB
      iexact Hoth
    · iexact Hg
  isplitl [Ho]; · iexact Ho
  isplitl [H0]; · iexact H0
  isplitl [H1]; · iexact H1
  isplitl [H2]; · iexact H2
  iexact H3

/-- The body at any point, by the kind of point. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 245 = 0
  · exact sound_first0 V c t h0
  · by_cases h1 : t.val % 245 = 244
    · exact sound_last0 V c t h1
    · exact sound_mid0 V c t h0 h1

/-! ## The obligations -/

/-- The body at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped rest back, the tables' contents forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 490 := N_0; omega), PhiA0_eq]
  iintro ⟨⟨HA, HB, Hoth⟩, Hg⟩
  isplitr [Hg]
  · isplitl [HA]; · iexists _; iexact HA
    isplitl [HB]; · iexists _; iexact HB
    iexact Hoth
  · iexact Hg

end Cert.KernelIdeal.Hand

end
-- ==== Proof.KI.Region1.lean ====
/-
  The second pass on one core's grid of 2 × 245 points, at any entry contents V of the core's buffers.

  Point t holds block t of the padded rows and of the padded labels, and the whole table of means (fetched once,
  at the first point, and kept).  One small table is carried from point to point: per segment the running sum,
  over the rows whose label is the segment, of the squared distance of the row from its segment's mean.  At the
  first point of each run of 245 it restarts from zero; every point adds its block's contribution; the last point
  of each run copies it into the output block, which the pipeline writes back only there.  What the table holds
  after point n is `acc1 n`, by recursion on n; the invariant between points names exactly that.
-/
import proofs.«428285_j46179488367045_2_alg».proof.Proof.Gen.KernelIdeal.Launch
import proofs.«428285_j46179488367045_2_alg».proof.Proof.Gen.KernelIdeal.Skeleton
import proofs.«428285_j46179488367045_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows' block, the labels' block and the means at a point, at their literal types. -/
abbrev var1 (c : Dev nD) (t : Fin cfg1.N) : Vec F S8192x8 .f32 := iblk1 V c 0 t
abbrev lab1 (c : Dev nD) (t : Fin cfg1.N) : Vec F S8192 .i32 := iblk1 V c 1 t
abbrev mean1 (c : Dev nD) (t : Fin cfg1.N) : Vec F S64x8 .f32 := iblk1 V c 2 t

/-! ## The carried table -/

/-- What the table holds after point `n`: the point's contribution added to zero at the first point of a run of 245,
    to what the point before left otherwise. -/
def acc1 (c : Dev nD) : (n : ℕ) → n < cfg1.N → Vec F S64x1 .f32
  | 0, hn => k1_pay2 (lab1 V c ⟨0, hn⟩) (var1 V c ⟨0, hn⟩) (mean1 V c ⟨0, hn⟩) k1_pay1
  | n + 1, hn => k1_pay2 (lab1 V c ⟨n + 1, hn⟩) (var1 V c ⟨n + 1, hn⟩) (mean1 V c ⟨n + 1, hn⟩)
      (if (n + 1) % 245 = 0 then k1_pay1 else acc1 c n (Nat.lt_of_succ_lt hn))

theorem acc1_first (c : Dev nD) (t : Fin cfg1.N) (h : t.val % 245 = 0) :
    acc1 V c t.val t.isLt = k1_pay2 (lab1 V c t) (var1 V c t) (mean1 V c t) k1_pay1 := by
  obtain ⟨n, hn⟩ := t
  cases n with
  | zero => rfl
  | succ n => exact (by rw [acc1]; simp only [if_pos h])

theorem acc1_later (c : Dev nD) (t : Fin cfg1.N) (h : ¬ t.val % 245 = 0) :
    acc1 V c t.val t.isLt = k1_pay2 (lab1 V c t) (var1 V c t) (mean1 V c t)
      (acc1 V c (t.val - 1) (Nat.lt_of_le_of_lt (Nat.sub_le _ _) t.isLt)) := by
  obtain ⟨n, hn⟩ := t
  cases n with
  | zero => exact absurd (Nat.zero_mod _) h
  | succ n => exact (by rw [acc1]; simp only [if_neg h]; rfl)

/-! ## The invariant between points -/

/-- The scratch operand, a whole scoped buffer of the kernel's own. -/
abbrev scM1_0 : Memref sig .tc .vmem S64x1 .f32 := Memref.whole cc1_scratch0

/-- The core's other scoped buffers that are no staging buffer of this call (the first call's staging buffers and
    scratch), each whole at some contents: this call never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- Before the first point the table holds anything; before a later point, what the point before left. -/
def PhiS1 (c : Dev nD) : (n : ℕ) → n ≤ cfg1.N → sProp 𝕄
  | 0, _ => Pipeline.ΦA spec1 c
  | n + 1, hn => iprop(iprop(others1 c ∗ owns (c : Thread nD τ) scM1_0 fullShare (acc1 V c n hn)) ∗ (∃ r, prngReg c r))

/-! ## The proof data -/

/-- The arrays as the region finds them; after the body each input's buffer at its block, the output's buffer at the
    copy of the table of the point (consulted only where the body stores it: the last point of a run); the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) := by dsimp only [dat1]

/-! ## The body's branches, over the grid -/
/-- The condition of the body's first branch (the table restarts), from the grid coordinates. -/
abbrev cond1_0 (i : grid1.Coords) : Prop := (Scalar.cmpi .ne (Scalar.extui (Scalar.cmpi .eq (BitVec.ofNat 32 (i 1).val) 0#32)) 0#32) = 1#1
/-- It holds at the first point of each run of 245. -/
theorem hcond1_0 : ∀ t : Fin cfg1.N, cond1_0 (grid1.coords t) ↔ t.val % 245 = 0 :=
  (by decide +kernel : ∀ t : Fin grid1.N, cond1_0 (grid1.coords t) ↔ t.val % 245 = 0)
/-- The condition of the body's last branch (the table is copied to the output block). -/
abbrev cond1_1 (i : grid1.Coords) : Prop := k1_cond2 i = 1#1
/-- It holds at the last point of each run of 245. -/
theorem hcond1_1 : ∀ t : Fin cfg1.N, cond1_1 (grid1.coords t) ↔ t.val % 245 = 244 :=
  (by decide +kernel : ∀ t : Fin grid1.N, cond1_1 (grid1.coords t) ↔ t.val % 245 = 244)

/-- The inputs are never idle; the output block is idle exactly off the last point of a run, and is not written back there. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## Whole-buffer rectangles -/

/-- The zero offsets of a rectangle over a whole buffer, at ranks 1, 2 and 3. -/
theorem zerosR1_1 : (![0] : Fin 1 → ℕ) = fun _ => 0 := by funext a; fin_cases a <;> rfl
theorem zerosR1_2 : (![0, 0] : Fin 2 → ℕ) = fun _ => 0 := by funext a; fin_cases a <;> rfl
theorem zerosR1_3 : (![0, 0, 0] : Fin 3 → ℕ) = fun _ => 0 := by funext a; fin_cases a <;> rfl

/-- A store over the whole table covers it, whatever was stored before; -/
theorem coverS1 (w : Vec F S64x1 .f32) (L : List (View.Piece (Elt F) S64x1 .f32)) (y : S64x1.Idx) :
    ∃ pc ∈ ((⟨Rect.unit (s := S64x1) ![0, 0] S64x1.size inb_S64x1_S64x1_0_0, w⟩ : View.Piece (Elt F) S64x1 .f32) :: L), y ∈ pc.1.set :=
  ⟨_, List.mem_cons_self, View.mem_set_unit_zero (S := S64x1) zerosR1_2 inb_S64x1_S64x1_0_0 y⟩
/-- and so for the output block. -/
theorem coverO1 (w : Vec F S1x64x1 .f32) (L : List (View.Piece (Elt F) S1x64x1 .f32)) (y : S1x64x1.Idx) :
    ∃ pc ∈ ((⟨Rect.unit (s := S1x64x1) ![0, 0, 0] S1x64x1.size inb_S1x64x1_S1x64x1_0_0_0, w⟩ : View.Piece (Elt F) S1x64x1 .f32) :: L), y ∈ pc.1.set :=
  ⟨_, List.mem_cons_self, View.mem_set_unit_zero (S := S1x64x1) zerosR1_3 inb_S1x64x1_S1x64x1_0_0_0 y⟩

/-! ## The body on any whole memrefs, case by case -/

set_option maxHeartbeats 1000000 in
/-- A point inside a run: on whole memrefs, the inputs at `x0`, `x1`, `x2`, the output block at `xi3` (left as found) and the table at `xs`,
    the body leaves the table at the point's contribution added to `xs` and everything else as it was. -/
theorem run1_mid (c : Dev nD) (E : Set ℕ) (i : grid1.Coords) (arg2 : Memref sig .tc .vmem S8192x8 .f32) (harg2 : arg2.IsWhole) (arg3 : Memref sig .tc .vmem S8192 .i32) (harg3 : arg3.IsWhole) (arg4 : Memref sig .tc .vmem S64x8 .f32) (harg4 : arg4.IsWhole) (arg5 : Memref sig .tc .vmem S1x64x1 .f32) (harg5 : arg5.IsWhole) (arg6 : Memref sig .tc .vmem S64x1 .f32) (harg6 : arg6.IsWhole) (hc0 : ¬cond1_0 i) (hc1 : ¬cond1_1 i)
    (x0 : Vec F S8192x8 .f32) (x1 : Vec F S8192 .i32) (x2 : Vec F S64x8 .f32) (xi3 : Vec F S1x64x1 .f32) (xs : Vec F S64x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 x1 x0 x2 xs)) -∗ K ⟨⟩))
      ⊢ wp frame (wpE (defs₀ (F := F)) Variants.none c none) E (cc1__pass2_kernel i arg2 harg2 arg3 harg3 arg4 harg4 arg5 harg5 arg6 harg6) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (coverS1 _ _)]
  rw [View.canon_unit_zero (S := S64x1) zerosR1_2]
  simp only [View.readAt_eq_ld, harg2.read_unread, harg3.read_unread, harg4.read_unread, harg6.read_unread,
    View.ld_unit_zero (S := S8192) zerosR1_1, View.ld_unit_zero (S := S8192x8) zerosR1_2, View.ld_unit_zero (S := S64x8) zerosR1_2, View.ld_unit_zero (S := S64x1) zerosR1_2]

set_option maxHeartbeats 1000000 in
/-- The first point of a run: whatever the table held, the body zeroes it and adds the point's contribution; the load after the
    zeroing store reads the zeros back. -/
theorem run1_first (c : Dev nD) (E : Set ℕ) (i : grid1.Coords) (arg2 : Memref sig .tc .vmem S8192x8 .f32) (harg2 : arg2.IsWhole) (arg3 : Memref sig .tc .vmem S8192 .i32) (harg3 : arg3.IsWhole) (arg4 : Memref sig .tc .vmem S64x8 .f32) (harg4 : arg4.IsWhole) (arg5 : Memref sig .tc .vmem S1x64x1 .f32) (harg5 : arg5.IsWhole) (arg6 : Memref sig .tc .vmem S64x1 .f32) (harg6 : arg6.IsWhole) (hc0 : cond1_0 i) (hc1 : ¬cond1_1 i)
    (x0 : Vec F S8192x8 .f32) (x1 : Vec F S8192 .i32) (x2 : Vec F S64x8 .f32) (xi3 : Vec F S1x64x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 x1 x0 x2 k1_pay1)) -∗ K ⟨⟩))
      ⊢ wp frame (wpE (defs₀ (F := F)) Variants.none c none) E (cc1__pass2_kernel i arg2 harg2 arg3 harg3 arg4 harg4 arg5 harg5 arg6 harg6) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (coverS1 _ _)]
  rw [View.canon_cons_unit_zero (S := S64x1) zerosR1_2]
  simp only [View.readAt_eq_ld, harg2.read_unread, harg3.read_unread, harg4.read_unread, harg6.read_unread,
    View.ld_unit_zero (S := S8192) zerosR1_1, View.ld_unit_zero (S := S8192x8) zerosR1_2, View.ld_unit_zero (S := S64x8) zerosR1_2, View.ld_unit_zero (S := S64x1) zerosR1_2,
    View.readCov_unit_zero (S := S64x1) _ zerosR1_2]

set_option maxHeartbeats 1000000 in
/-- The last point of a run: as inside the run, and then the output block, whatever it held, is stored whole with the copy of
    the table just written. -/
theorem run1_last (c : Dev nD) (E : Set ℕ) (i : grid1.Coords) (arg2 : Memref sig .tc .vmem S8192x8 .f32) (harg2 : arg2.IsWhole) (arg3 : Memref sig .tc .vmem S8192 .i32) (harg3 : arg3.IsWhole) (arg4 : Memref sig .tc .vmem S64x8 .f32) (harg4 : arg4.IsWhole) (arg5 : Memref sig .tc .vmem S1x64x1 .f32) (harg5 : arg5.IsWhole) (arg6 : Memref sig .tc .vmem S64x1 .f32) (harg6 : arg6.IsWhole) (hc0 : ¬cond1_0 i) (hc1 : cond1_1 i)
    (x0 : Vec F S8192x8 .f32) (x1 : Vec F S8192 .i32) (x2 : Vec F S64x8 .f32) (xs : Vec F S64x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x1 x0 x2 xs)) ∗ owns (c : Thread nD τ) arg6 fullShare (k1_pay2 x1 x0 x2 xs)) -∗ K ⟨⟩))
      ⊢ wp frame (wpE (defs₀ (F := F)) Variants.none c none) E (cc1__pass2_kernel i arg2 harg2 arg3 harg3 arg4 harg4 arg5 harg5 arg6 harg6) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (coverO1 _ _)]
    rw [View.canon_unit_zero (S := S1x64x1) zerosR1_3]
    simp only [View.readAt_eq_ld, harg2.read_unread, harg3.read_unread, harg4.read_unread, harg6.read_unread,
    View.ld_unit_zero (S := S8192) zerosR1_1, View.ld_unit_zero (S := S8192x8) zerosR1_2, View.ld_unit_zero (S := S64x8) zerosR1_2, View.ld_unit_zero (S := S64x1) zerosR1_2,
    View.readCov_unit_zero (S := S64x1) _ zerosR1_2]
  iexists _; isplitr
  swap; · iexact HS
  ipureintro
  sl_unfold_words
  rw [View.read_writes_eq_canon _ _ _ (coverS1 _ _)]
  rw [View.canon_unit_zero (S := S64x1) zerosR1_2]
  simp only [View.readAt_eq_ld, harg2.read_unread, harg3.read_unread, harg4.read_unread, harg6.read_unread,
    View.ld_unit_zero (S := S8192) zerosR1_1, View.ld_unit_zero (S := S8192x8) zerosR1_2, View.ld_unit_zero (S := S64x8) zerosR1_2, View.ld_unit_zero (S := S64x1) zerosR1_2,
    View.readCov_unit_zero (S := S64x1) _ zerosR1_2]

/-! ## The staging memrefs at a point -/

abbrev ms1_0 (t : Fin cfg1.N) : Memref sig .tc .vmem S8192x8 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x8 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64x1 .f32 := win1_3.stage (cfg1.slots t 3)
abbrev hs1_3 (t : Fin cfg1.N) : (ms1_3 t).IsWhole := hstage1_3 ((cfg1.slots t 3).cast nbuf1_3)

/-! ## What the body finds in the inputs' buffers -/

/-- An input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The invariant, point by point -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 c ∗ owns (c : Thread nD τ) scM1_0 fullShare (acc1 V c n hn)) ∗ (∃ r, prngReg c r)) := rfl

theorem PhiS1_pos (c : Dev nD) (n : ℕ) (h : n ≤ cfg1.N) (hz : n ≠ 0) :
    PhiS1 V c n h = iprop(iprop(others1 c ∗ owns (c : Thread nD τ) scM1_0 fullShare (acc1 V c (n - 1) (by omega))) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The scoped rest with the table apart from the buffers this call never touches. -/
theorem PhiA1_eq (c : Dev nD) :
    (Pipeline.ΦA spec1 c : sProp 𝕄)
      = iprop(iprop(others1 c ∗ (∃ d, owns (c : Thread nD τ) scM1_0 fullShare d)) ∗ (∃ r, prngReg c r)) := by
  unfold Pipeline.ΦA; rw [scopedRest1_eq]; unfold others1; simp only [scM1_0, owns_whole]
  refine BI.equiv_iff.mp ⟨?_, ?_⟩
  · show (_ : sProp 𝕄) ⊢ _
    iintro ⟨⟨A1, A2, A3, A4, A5, A6, A7, A8, A9, A10, A11⟩, Hg⟩
    isplitr [Hg]
    · isplitr [A11]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        iexact A10
      · iexact A11
    · iexact Hg
  · show (_ : sProp 𝕄) ⊢ _
    iintro ⟨⟨⟨A1, A2, A3, A4, A5, A6, A7, A8, A9, A10⟩, A11⟩, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      iexact A11
    · iexact Hg

/-! ## The body at a point -/

/-- What the body is called with at a point, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point, by the three cases of the point's place in its run of 245. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 490 := lt_of_lt_of_eq t.isLt (show cfg1.N = 490 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 245 = 0
  · have h1 : ¬t.val % 245 = 244 := by omega
    rw [Dat.leavesExact_idle (dat1 V c) 3 t (idleAt1_3 t (fun h => h1 ((hcond1_1 t).mp h))) (noFlush1_3 t (fun h => h1 ((hcond1_1 t).mp h)))]
    rw [acc1_first V c t h0]
    by_cases hz : t.val = 0
    · rw [PhiS1_castSucc V c t, PhiS1_zero V c _ _ hz, PhiA1_eq]
      iintro ⟨⟨⟨Hoth, HS⟩, Hg⟩, Ho, ⟨%d0, H0⟩, ⟨%d1, H1⟩, ⟨%d2, H2⟩, ⟨%d3, H3⟩⟩
      iapply (run1_first c Set.univ (grid1.coords t) (ms1_0 t) (hs1_0 t) (ms1_1 t) (hs1_1 t) (ms1_2 t) (hs1_2 t) (ms1_3 t) (hs1_3 t) scM1_0 (Memref.isWhole_whole _)
        ((hcond1_0 t).mpr h0) (fun h => h1 ((hcond1_1 t).mp h)) (var1 V c t) (lab1 V c t) (mean1 V c t) ((dat1 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth HS]
        · isplitl [Hoth]; · iexact Hoth
          iexact HS
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Hoth, HS⟩, Hg⟩, Ho, ⟨%d0, H0⟩, ⟨%d1, H1⟩, ⟨%d2, H2⟩, ⟨%d3, H3⟩⟩
      iapply (run1_first c Set.univ (grid1.coords t) (ms1_0 t) (hs1_0 t) (ms1_1 t) (hs1_1 t) (ms1_2 t) (hs1_2 t) (ms1_3 t) (hs1_3 t) scM1_0 (Memref.isWhole_whole _)
        ((hcond1_0 t).mpr h0) (fun h => h1 ((hcond1_1 t).mp h)) (var1 V c t) (lab1 V c t) (mean1 V c t) ((dat1 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hoth HS Hg]
      · isplitl [Hoth HS]
        · isplitl [Hoth]; · iexact Hoth
          iexact HS
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [acc1_later V c t h0]
    rw [PhiS1_castSucc V c t, PhiS1_pos V c _ _ hz]
    by_cases h1 : t.val % 245 = 244
    · rw [show (dat1 V c).leavesExact 3 t = owns (c : Thread nD τ) (ms1_3 t) fullShare ((dat1 V c).after 3 t) from by
        unfold Dat.leavesExact; rw [liveAt1_3 t ((hcond1_1 t).mpr h1)], after1_3]
      rw [acc1_later V c t h0]
      iintro ⟨⟨⟨Hoth, HS⟩, Hg⟩, Ho, ⟨%d0, H0⟩, ⟨%d1, H1⟩, ⟨%d2, H2⟩, ⟨%d3, H3⟩⟩
      iapply (run1_last c Set.univ (grid1.coords t) (ms1_0 t) (hs1_0 t) (ms1_1 t) (hs1_1 t) (ms1_2 t) (hs1_2 t) (ms1_3 t) (hs1_3 t) scM1_0 (Memref.isWhole_whole _)
        (fun h => h0 ((hcond1_0 t).mp h)) ((hcond1_1 t).mpr h1) (var1 V c t) (lab1 V c t) (mean1 V c t)
        (acc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hoth HS Hg]
      · isplitl [Hoth HS]
        · isplitl [Hoth]; · iexact Hoth
          iexact HS
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      iintro ⟨⟨⟨Hoth, HS⟩, Hg⟩, Ho, ⟨%d0, H0⟩, ⟨%d1, H1⟩, ⟨%d2, H2⟩, ⟨%d3, H3⟩⟩
      iapply (run1_mid c Set.univ (grid1.coords t) (ms1_0 t) (hs1_0 t) (ms1_1 t) (hs1_1 t) (ms1_2 t) (hs1_2 t) (ms1_3 t) (hs1_3 t) scM1_0 (Memref.isWhole_whole _)
        (fun h => h0 ((hcond1_0 t).mp h)) (fun h => h1 ((hcond1_1 t).mp h)) (var1 V c t) (lab1 V c t) (mean1 V c t) ((dat1 V c).before 3 t d3)
        (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth HS]
        · isplitl [Hoth]; · iexact Hoth
          iexact HS
        iexact Hg
      isplitl [Ho]; · iexact Ho
      isplitl [H0]; · iexact H0
      isplitl [H1]; · iexact H1
      isplitl [H2]; · iexact H2
      iexists _; iexact H3

/-- After any point but the first the invariant gives the scoped rest back, the table's contents forgotten. -/
theorem Phi1_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨Hoth, HS⟩, Hg⟩
  isplitl [Hoth HS]
  · isplitl [Hoth]; · iexact Hoth
    iexists _; iexact HS
  iexact Hg

/-! ## The obligations -/

/-- The body at every point. -/
theorem body_obligation1 (c : Dev nD) : BodyObligation (dat1 (F := F) V c) (defs₀ (F := F)) Variants.none () Set.univ := by
  intro t
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the scoped rest back, the table's contents forgotten. -/
theorem hout1 (c : Dev nD) : (dat1 V c).Φ (Fin.last cfg1.N) ⊢ (Pipeline.ΦA spec1 c : sProp 𝕄) := by
  exact Phi1_out V c _ (by rw [Fin.val_last]; have : cfg1.N = 490 := N_1; omega)

end Cert.KernelIdeal.Hand

end
-- ==== Proof.KI.Run.lean ====
/-
  The run of the whole program: ten items in order — four stretches of host operations (the two paddings), the
  first pass, a stretch (the sums over the two cores, the raised counts, the means), the second pass, and three
  stretches (the per-segment quotient, the mask, the selection, the last sum).

  Between two items a core holds every unscoped buffer at contents named here by a fold from the launch memory:
  a stretch applies its operations; a pass leaves its input arrays as it found them and its output arrays at
  what its write-backs left, every other buffer untouched.  The two passes enter the launch as records over the
  proof data of their own modules; what rides beside the buffers through every item is the generator register
  at some state and the core owing nothing.  Every weakly fair execution ends, and every unscoped buffer then
  holds the last fold's contents.
-/
import proofs.«428285_j46179488367045_2_alg».proof.Proof.Gen.KernelIdeal.Launch
import proofs.«428285_j46179488367045_2_alg».proof.Proof.Gen.KernelIdeal.Skeleton
import proofs.«428285_j46179488367045_2_alg».proof.Proof.Gen.KernelIdeal.Points
import proofs.«428285_j46179488367045_2_alg».proof.Proof.Gen.KernelIdeal.Regions
import proofs.«428285_j46179488367045_2_alg».proof.Proof.KI.Region0
import proofs.«428285_j46179488367045_2_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After each of the four stretches before the first pass. -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
/-- The same read at the TensorCore's references: what the first pass's proof data take. -/
abbrev E0 : (c : Dev nD) → (b : Ref sig .tc) → Buf (Elt F) ((c : Thread nD τ).loc b) := fun c b => W4 m c b
/-- After the first pass: its arrays at what the pipeline leaves, every other buffer as entered. -/
def W5 (c : Dev nD) : Valuation τ sig (Elt F) :=
  Pipeline.withArrays spec0 c (W4 m c) fun w => (dat0 (E0 m) c).arrAt w cfg0.N
theorem W5_arr (c : Dev nD) (w : Fin cfg0.W) :
    W5 m c (Proc.devRef .tc (Pipeline.arrRef spec0 w)) = (dat0 (E0 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
abbrev X0 : (c : Dev nD) → (b : Ref sig .tc) → Buf (Elt F) ((c : Thread nD τ).loc b) := fun c b => W5 m c b
theorem hF0 (c : Dev nD) (w : Fin cfg0.W) : (dat0 (E0 m) c).arrAt w cfg0.N = X0 m c (Pipeline.arrRef spec0 w) :=
  (W5_arr m c w).symm
theorem hrest0 (c : Dev nD) : ∀ b, b ∉ Finset.univ.image (Pipeline.arrRef spec0) → X0 m c b = E0 m c b :=
  fun b hb => W5_of_ne m c b fun w e => hb (Finset.mem_image.mpr ⟨w, Finset.mem_univ _, e⟩)
/-- After the stretch between the passes. -/
abbrev W6 : Dev nD → Valuation τ sig (Elt F) := fun c => StableHlo.after hostOps1 (W5 m c)
abbrev E1 : (c : Dev nD) → (b : Ref sig .tc) → Buf (Elt F) ((c : Thread nD τ).loc b) := fun c b => W6 m c b
/-- After the second pass. -/
def W7 (c : Dev nD) : Valuation τ sig (Elt F) :=
  Pipeline.withArrays spec1 c (W6 m c) fun w => (dat1 (E1 m) c).arrAt w cfg1.N
theorem W7_arr (c : Dev nD) (w : Fin cfg1.W) :
    W7 m c (Proc.devRef .tc (Pipeline.arrRef spec1 w)) = (dat1 (E1 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev X1 : (c : Dev nD) → (b : Ref sig .tc) → Buf (Elt F) ((c : Thread nD τ).loc b) := fun c b => W7 m c b
theorem hF1 (c : Dev nD) (w : Fin cfg1.W) : (dat1 (E1 m) c).arrAt w cfg1.N = X1 m c (Pipeline.arrRef spec1 w) :=
  (W7_arr m c w).symm
theorem hrest1 (c : Dev nD) : ∀ b, b ∉ Finset.univ.image (Pipeline.arrRef spec1) → X1 m c b = E1 m c b :=
  fun b hb => W7_of_ne m c b fun w e => hb (Finset.mem_image.mpr ⟨w, Finset.mem_univ _, e⟩)
/-- After each of the three stretches that follow. -/
abbrev W8 : Dev nD → Valuation τ sig (Elt F) := fun c => StableHlo.after hostOps2 (W7 m c)
abbrev W9 : Dev nD → Valuation τ sig (Elt F) := fun c => StableHlo.after hostOps2_1 (W8 m c)
abbrev W10 : Dev nD → Valuation τ sig (Elt F) := fun c => StableHlo.after hostOps2_2 (W9 m c)

/-! ## The proof data family and what rides along -/

/-- Each pass's proof data at its entry contents, by a literal match on the pipeline's number. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two passes as segments -/

set_option backward.isDefEq.respectTransparency.types false in
/-- The first pass: entered from every unscoped buffer at `W4`, left at `W5`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (E0 m) c
    unfold Pipeline.ΦA at h
    rw [show (pdats m 0 c).Φ 0 = (dat0 (E0 m) c).Φ 0 from rfl]
    iintro ⟨Hp, -, Hr⟩
    iapply h
    isplitl [Hr]; · iexact Hr
    iexact Hp
  hout c := by
    have h := hout0 (E0 m) c
    unfold Pipeline.ΦA at h
    rw [Pipeline.ownSems0_none, show (pdats m 0 c).Φ (Fin.last _) = (dat0 (E0 m) c).Φ (Fin.last cfg0.N) from rfl]
    refine h.trans ?_
    show (iprop(Pipeline.scopedRest spec0 c ∗ ∃ r, prngReg c r) : sProp 𝕄) ⊢ iprop((∃ r, prngReg c r) ∗ emp ∗ Pipeline.scopedRest spec0 c)
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass: entered from every unscoped buffer at `W6`, left at `W7`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E1 m) c
    unfold Pipeline.ΦA at h
    rw [show (pdats m 1 c).Φ 0 = (dat1 (E1 m) c).Φ 0 from rfl]
    iintro ⟨Hp, -, Hr⟩
    iapply h
    isplitl [Hr]; · iexact Hr
    iexact Hp
  hout c := by
    have h := hout1 (E1 m) c
    unfold Pipeline.ΦA at h
    rw [Pipeline.ownSems0_none, show (pdats m 1 c).Φ (Fin.last _) = (dat1 (E1 m) c).Φ (Fin.last cfg1.N) from rfl]
    refine h.trans ?_
    show (iprop(Pipeline.scopedRest spec1 c ∗ ∃ r, prngReg c r) : sProp 𝕄) ⊢ iprop((∃ r, prngReg c r) ∗ emp ∗ Pipeline.scopedRest spec1 c)
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The items in order, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m)),
    .region (reg1 m),
    .host (hseg hostOps2 hostOps2_sub hostOps2_fresh (W7 m)),
    .host (hseg hostOps2_1 hostOps2_1_sub hostOps2_1_fresh (W8 m)),
    .host (hseg hostOps2_2 hostOps2_2_sub hostOps2_2_fresh (W9 m)) ]

set_option backward.isDefEq.respectTransparency.types false in
/-- THE RUN: from any memory with zero counters every weakly fair execution of the program ends, nothing faulting, and
    every unscoped buffer of every core then holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => StableHlo.held (c : Thread nD τ) (Pipeline.ucRefs τ sig) (W10 m c))
    (hch := ⟨fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W10 m c) ∗ R c) : sProp 𝕄)
        ⊢ iprop(StableHlo.held (c : Thread nD τ) (Pipeline.ucRefs τ sig) (W10 m c) ∗ ∃ W, owes (c : Thread nD τ) (0 : CellTallies nD τ sig Unit) W)
      iintro ⟨Hh, -, HO⟩
      isplitl [Hh]; · iexact Hh
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨Hh, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-! ## The arguments end as launched -/

theorem W10_main_arg0 (c : Dev nD) : W10 m c (Proc.devRef .tc main_arg0) = m ((c : Thread nD τ).loc main_arg0) :=
  calc W10 m c (Proc.devRef .tc main_arg0)
    _ = W9 m c (Proc.devRef .tc main_arg0) := StableHlo.after_of_writes_sub hostOps2_2 _ hostOps2_2_writes (r := main_arg0) (by decide)
    _ = W8 m c (Proc.devRef .tc main_arg0) := StableHlo.after_of_writes_sub hostOps2_1 _ hostOps2_1_writes (r := main_arg0) (by decide)
    _ = W7 m c (Proc.devRef .tc main_arg0) := StableHlo.after_of_writes_sub hostOps2 _ hostOps2_writes (r := main_arg0) (by decide)
    _ = W6 m c (Proc.devRef .tc main_arg0) := W7_of_ne m c main_arg0 (by decide)
    _ = W5 m c (Proc.devRef .tc main_arg0) := StableHlo.after_of_writes_sub hostOps1 _ hostOps1_writes (r := main_arg0) (by decide)
    _ = W4 m c (Proc.devRef .tc main_arg0) := W5_of_ne m c main_arg0 (by decide)
    _ = W3 m c (Proc.devRef .tc main_arg0) := StableHlo.after_of_writes_sub hostOps0_3 _ hostOps0_3_writes (r := main_arg0) (by decide)
    _ = W2 m c (Proc.devRef .tc main_arg0) := StableHlo.after_of_writes_sub hostOps0_2 _ hostOps0_2_writes (r := main_arg0) (by decide)
    _ = W1 m c (Proc.devRef .tc main_arg0) := StableHlo.after_of_writes_sub hostOps0_1 _ hostOps0_1_writes (r := main_arg0) (by decide)
    _ = W0 m c (Proc.devRef .tc main_arg0) := StableHlo.after_of_writes_sub hostOps0 _ hostOps0_writes (r := main_arg0) (by decide)
    _ = m ((c : Thread nD τ).loc main_arg0) := rfl

theorem W10_main_arg1 (c : Dev nD) : W10 m c (Proc.devRef .tc main_arg1) = m ((c : Thread nD τ).loc main_arg1) :=
  calc W10 m c (Proc.devRef .tc main_arg1)
    _ = W9 m c (Proc.devRef .tc main_arg1) := StableHlo.after_of_writes_sub hostOps2_2 _ hostOps2_2_writes (r := main_arg1) (by decide)
    _ = W8 m c (Proc.devRef .tc main_arg1) := StableHlo.after_of_writes_sub hostOps2_1 _ hostOps2_1_writes (r := main_arg1) (by decide)
    _ = W7 m c (Proc.devRef .tc main_arg1) := StableHlo.after_of_writes_sub hostOps2 _ hostOps2_writes (r := main_arg1) (by decide)
    _ = W6 m c (Proc.devRef .tc main_arg1) := W7_of_ne m c main_arg1 (by decide)
    _ = W5 m c (Proc.devRef .tc main_arg1) := StableHlo.after_of_writes_sub hostOps1 _ hostOps1_writes (r := main_arg1) (by decide)
    _ = W4 m c (Proc.devRef .tc main_arg1) := W5_of_ne m c main_arg1 (by decide)
    _ = W3 m c (Proc.devRef .tc main_arg1) := StableHlo.after_of_writes_sub hostOps0_3 _ hostOps0_3_writes (r := main_arg1) (by decide)
    _ = W2 m c (Proc.devRef .tc main_arg1) := StableHlo.after_of_writes_sub hostOps0_2 _ hostOps0_2_writes (r := main_arg1) (by decide)
    _ = W1 m c (Proc.devRef .tc main_arg1) := StableHlo.after_of_writes_sub hostOps0_1 _ hostOps0_1_writes (r := main_arg1) (by decide)
    _ = W0 m c (Proc.devRef .tc main_arg1) := StableHlo.after_of_writes_sub hostOps0 _ hostOps0_writes (r := main_arg1) (by decide)
    _ = m ((c : Thread nD τ).loc main_arg1) := rfl

/-- THE FRAME, at any float family: the program runs to the end and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W10_main_arg0 m c),
     (h c _ (mem_uc main_arg1 (by decide))).trans (W10_main_arg1 m c)⟩) (run_all m ρ)

end Cert.KernelIdeal.Hand

end
-- ==== Proof.Partials.lean ====
/-
  What one core's 245 steps add up to, over the padded arrays.

  The padded rows are 2 × 245 × 8192 = 4,014,080 rows of eight entries and as many labels.  Core c' visits, at
  its step k, the block of 8192 rows that starts at row (c' · 245 + k) · 8192.  A row contributes to segment s
  through a factor that is 1 when the row's label is the word of s and 0 otherwise.  Three partial tables per
  core: the sum of the entries, the count, and the sum of the squared distances from the row's own gathered
  mean — the gathered mean of a row being the same one-hot combination of the 64 rows of a table μ.
-/
import Idealize.ShloMosaic.PureOps.Ideal
import Idealize.ShloMosaic.PureOps
import Idealize.ShloMosaic.Lib.ValueIdx

noncomputable section

namespace Cert.Partials

open Idealize.ShloMosaic Idealize.ShloMosaic.ValueIdx

abbrev SP8 : Shape := ⟨2, ![4014080, 8]⟩
abbrev SP : Shape := ⟨1, ![4014080]⟩
abbrev S64x8 : Shape := ⟨2, ![64, 8]⟩

/-- The factor of a label word `w` for segment `s`: 1 when the word is the word of `s`, else 0. -/
def oh (w : BitVec 32) (s : ℕ) : EReal := if w = BitVec.ofNat 32 s then 1 else 0

/-- The padded row that core `c'` sees at position `r` of its step `k`. -/
def rowOf (c' : Fin 2) (k : Fin 245) (r : Fin 8192) : Fin 4014080 :=
  ⟨(c'.val * 245 + k.val) * 8192 + r.val, by have := c'.isLt; have := k.isLt; have := r.isLt; omega⟩

/-- Core `c'`'s partial sum of column `d` for segment `s`. -/
def psumAt (xp : FVec Ideal SP8 .f32) (lp : IVec SP 32) (c' : Fin 2) (s : Fin 64) (d : Fin 8) : EReal :=
  ∑ k : Fin 245, ∑ r : Fin 8192, oh (lp (ix1 (rowOf c' k r))) s.val * xp (ix2 (rowOf c' k r) d)

/-- Core `c'`'s partial count for segment `s`. -/
def pcntAt (lp : IVec SP 32) (c' : Fin 2) (s : Fin 64) : EReal :=
  ∑ k : Fin 245, ∑ r : Fin 8192, oh (lp (ix1 (rowOf c' k r))) s.val

/-- The mean a padded row gathers from the table `μ`: the one-hot combination of the table's 64 rows. -/
def gath (lp : IVec SP 32) (μ : FVec Ideal S64x8 .f32) (n : Fin 4014080) (d : Fin 8) : EReal :=
  ∑ s' : Fin 64, oh (lp (ix1 n)) s'.val * μ (ix2 s' d)

/-- A padded row's squared distance from its gathered mean. -/
def sqrow (xp : FVec Ideal SP8 .f32) (lp : IVec SP 32) (μ : FVec Ideal S64x8 .f32) (n : Fin 4014080) : EReal :=
  ∑ d : Fin 8, (xp (ix2 n d) - gath lp μ n d) * (xp (ix2 n d) - gath lp μ n d)

/-- Core `c'`'s partial sum of squared distances for segment `s`. -/
def psqAt (xp : FVec Ideal SP8 .f32) (lp : IVec SP 32) (μ : FVec Ideal S64x8 .f32) (c' : Fin 2) (s : Fin 64) : EReal :=
  ∑ k : Fin 245, ∑ r : Fin 8192, oh (lp (ix1 (rowOf c' k r))) s.val * sqrow xp lp μ (rowOf c' k r)

end Cert.Partials

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.KI.Value0.lean ====
/-
  What the first pass leaves in its two output arrays, over the extended reals.

  Each output array has one block per core, written back once, at the last of the core's 245 steps, with a copy
  of the carried table.  The table after step j of core c' is the sum over the steps 0 … j of the step's
  contribution (it restarts from zero at step 0 and every step adds), and a step's contribution to segment s is
  the matrix product of the transposed one-hot block with the rows' block: the sum over the block's 8192 rows
  of the row's factor for s times the row's entry — times one, for the counts.
-/
import proofs.«428285_j46179488367045_2_alg».proof.Proof.KI.Region0
import proofs.«428285_j46179488367045_2_alg».proof.Proof.Partials
import proofs.«428285_j46179488367045_2_alg».proof.Proof.LibTileSums
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## Words and constants -/

/-- The bf16 pattern 0x3F80 denotes 1. -/
theorem v0_one_bf16 : Ideal.ofBits .bf16 0x3F80#16 = 1 := by
  simp [Ideal.ofBits, Ideal.ieee, -EReal.coe_mul]; norm_num

/-- The equality test of two words, widened and converted, is 1 when they are equal and 0 otherwise. -/
theorem v0_eq_word (a b : BitVec 32) :
    (((BitVec.setWidth 32 (IntOp.cmpi .eq a b)).toInt : ℝ) : EReal) = if a = b then 1 else 0 := by
  unfold IntOp.cmpi
  by_cases h : a = b
  · have hb : (a == b) = true := by simpa using h
    rw [if_pos h]
    show (((BitVec.setWidth 32 (BitVec.ofBool (a == b))).toInt : ℝ) : EReal) = 1
    rw [hb]
    have : (BitVec.setWidth 32 (BitVec.ofBool true)).toInt = 1 := by decide
    rw [this]; norm_num
  · have hb : (a == b) = false := by simpa using h
    rw [if_neg h]
    show (((BitVec.setWidth 32 (BitVec.ofBool (a == b))).toInt : ℝ) : EReal) = 0
    rw [hb]
    have : (BitVec.setWidth 32 (BitVec.ofBool false)).toInt = 0 := by decide
    rw [this]; norm_num

/-! ## Layout operations on a column -/

/-- A vector cast to a column reads, at (i, u), the vector at i. -/
theorem v0_shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (i, j), the column at (i, 0). -/
theorem v0_broadcastTo_a1_ab_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The one-hot block -/

/-- The one-hot block's entry at row r and segment s: 1 when the row's label is the word of s, else 0. -/
theorem v0_onehot_apply (lab : Vec Ideal S8192 .i32) (r : Fin 8192) (s : Fin 64) :
    k0_pay3 (F := Ideal) lab (ix2 r s) = Cert.Partials.oh (lab (ix1 r)) s.val := by
  delta k0_pay3
  have e1 : broadcastTo S8192x64 (shapeCast S8192x1 (shapeCast S8192 lab shapeCasts_S8192_S8192) shapeCasts_S8192_S8192x1)
      broadcasts_S8192x1_S8192x64 (ix2 r s) = lab (ix1 r) := by
    refine (v0_broadcastTo_a1_ab_apply _ _ r s).trans ?_
    refine (v0_shapeCast_a_a1_apply _ _ r 0).trans ?_
    rw [shapeCast_self]
  have e2 : iota .tc S8192x64 32 [1] iota_S8192x64_d1_w32 (ix2 r s) = BitVec.ofNat 32 s.val :=
    iota_single_apply .tc S8192x64 32 1 iota_S8192x64_d1_w32 (ix2 r s)
  show ((((IntOp.cmpi .eq (broadcastTo S8192x64 (shapeCast S8192x1 (shapeCast S8192 lab shapeCasts_S8192_S8192) shapeCasts_S8192_S8192x1)
      broadcasts_S8192x1_S8192x64 (ix2 r s)) (iota .tc S8192x64 32 [1] iota_S8192x64_d1_w32 (ix2 r s))).setWidth 32).toInt : ℝ) : EReal) = _
  rw [e1, e2]
  exact v0_eq_word _ _

/-! ## The two products at an index -/

/-- The four axis facts of the rows' product: the contracted axis of each operand is the row, the free axis of the one-hot block
    is the segment, the free axis of the rows' block is the column. -/
theorem v0_lhs8_0 (i : S64x8.Idx) (q : dot_S8192x64_S8192x8_S64x8_0_0_1_1_n_n.contr.Idx) :
    (dot_S8192x64_S8192x8_S64x8_0_0_1_1_n_n.lhsIdx i q 0).val = (q ⟨0, by decide⟩).val :=
  dot_S8192x64_S8192x8_S64x8_0_0_1_1_n_n.lhsIdx_val_of_single rfl i q
theorem v0_lhs8_1 (i : S64x8.Idx) (q : dot_S8192x64_S8192x8_S64x8_0_0_1_1_n_n.contr.Idx) :
    (dot_S8192x64_S8192x8_S64x8_0_0_1_1_n_n.lhsIdx i q 1).val = (i 0).val := by
  unfold DotDims.lhsIdx
  rw [dif_neg (show ¬(1 : Fin S8192x64.rank) ∈ dot_S8192x64_S8192x8_S64x8_0_0_1_1_n_n.lhsBatch by decide), dif_pos (show (1 : Fin S8192x64.rank) ∈ dot_S8192x64_S8192x8_S64x8_0_0_1_1_n_n.lhsNonContracting by decide)]
  rfl
theorem v0_rhs8_0 (i : S64x8.Idx) (q : dot_S8192x64_S8192x8_S64x8_0_0_1_1_n_n.contr.Idx) :
    (dot_S8192x64_S8192x8_S64x8_0_0_1_1_n_n.rhsIdx i q 0).val = (q ⟨0, by decide⟩).val :=
  dot_S8192x64_S8192x8_S64x8_0_0_1_1_n_n.rhsIdx_val_of_single rfl i q
theorem v0_rhs8_1 (i : S64x8.Idx) (q : dot_S8192x64_S8192x8_S64x8_0_0_1_1_n_n.contr.Idx) :
    (dot_S8192x64_S8192x8_S64x8_0_0_1_1_n_n.rhsIdx i q 1).val = (i 1).val := by
  unfold DotDims.rhsIdx
  rw [dif_neg (show ¬(1 : Fin S8192x8.rank) ∈ dot_S8192x64_S8192x8_S64x8_0_0_1_1_n_n.rhsBatch by decide), dif_pos (show (1 : Fin S8192x8.rank) ∈ dot_S8192x64_S8192x8_S64x8_0_0_1_1_n_n.rhsNonContracting by decide)]
  rfl

/-- The product of the transposed first block with the second into a zero table, at (s, d): the sum over the rows. -/
theorem v0_matmul8_apply (A : FVec Ideal S8192x64 .bf16) (B : FVec Ideal S8192x8 .bf16) (s : Fin 64) (d : Fin 8) :
    matmul (F := Ideal) dot_S8192x64_S8192x8_S64x8_0_0_1_1_n_n none A B (constant (F := Ideal) S64x8 .f32 0x00000000#32) (ix2 s d)
      = ∑ r : Fin 8192, A (ix2 r s) * B (ix2 r d) := by
  show FloatOps.matmul dot_S8192x64_S8192x8_S64x8_0_0_1_1_n_n none A B (constant (F := Ideal) S64x8 .f32 0x00000000#32) (ix2 s d) = _
  rw [Ideal.matmul_constant_zero_apply, ← Equiv.sum_comp (contrEquiv1 dot_S8192x64_S8192x8_S64x8_0_0_1_1_n_n 8192 rfl rfl).symm]
  refine Finset.sum_congr rfl fun k _ => ?_
  have hk := contrEquiv1_symm_val dot_S8192x64_S8192x8_S64x8_0_0_1_1_n_n 8192 rfl rfl k
  have el : dot_S8192x64_S8192x8_S64x8_0_0_1_1_n_n.lhsIdx (ix2 s d) ((contrEquiv1 dot_S8192x64_S8192x8_S64x8_0_0_1_1_n_n 8192 rfl rfl).symm k) = ix2 k s := funext fun a => Fin.ext (by
    match a with
    | ⟨0, _⟩ => exact (v0_lhs8_0 _ _).trans hk
    | ⟨1, _⟩ => exact v0_lhs8_1 _ _)
  have er : dot_S8192x64_S8192x8_S64x8_0_0_1_1_n_n.rhsIdx (ix2 s d) ((contrEquiv1 dot_S8192x64_S8192x8_S64x8_0_0_1_1_n_n 8192 rfl rfl).symm k) = ix2 k d := funext fun a => Fin.ext (by
    match a with
    | ⟨0, _⟩ => exact (v0_rhs8_0 _ _).trans hk
    | ⟨1, _⟩ => exact v0_rhs8_1 _ _)
  rw [el, er]

/-- The same four axis facts for the product with a column of ones. -/
theorem v0_lhs1_0 (i : S64x1.Idx) (q : dot_S8192x64_S8192x1_S64x1_0_0_1_1_n_n.contr.Idx) :
    (dot_S8192x64_S8192x1_S64x1_0_0_1_1_n_n.lhsIdx i q 0).val = (q ⟨0, by decide⟩).val :=
  dot_S8192x64_S8192x1_S64x1_0_0_1_1_n_n.lhsIdx_val_of_single rfl i q
theorem v0_lhs1_1 (i : S64x1.Idx) (q : dot_S8192x64_S8192x1_S64x1_0_0_1_1_n_n.contr.Idx) :
    (dot_S8192x64_S8192x1_S64x1_0_0_1_1_n_n.lhsIdx i q 1).val = (i 0).val := by
  unfold DotDims.lhsIdx
  rw [dif_neg (show ¬(1 : Fin S8192x64.rank) ∈ dot_S8192x64_S8192x1_S64x1_0_0_1_1_n_n.lhsBatch by decide), dif_pos (show (1 : Fin S8192x64.rank) ∈ dot_S8192x64_S8192x1_S64x1_0_0_1_1_n_n.lhsNonContracting by decide)]
  rfl
theorem v0_rhs1_0 (i : S64x1.Idx) (q : dot_S8192x64_S8192x1_S64x1_0_0_1_1_n_n.contr.Idx) :
    (dot_S8192x64_S8192x1_S64x1_0_0_1_1_n_n.rhsIdx i q 0).val = (q ⟨0, by decide⟩).val :=
  dot_S8192x64_S8192x1_S64x1_0_0_1_1_n_n.rhsIdx_val_of_single rfl i q
theorem v0_rhs1_1 (i : S64x1.Idx) (q : dot_S8192x64_S8192x1_S64x1_0_0_1_1_n_n.contr.Idx) :
    (dot_S8192x64_S8192x1_S64x1_0_0_1_1_n_n.rhsIdx i q 1).val = (i 1).val := by
  unfold DotDims.rhsIdx
  rw [dif_neg (show ¬(1 : Fin S8192x1.rank) ∈ dot_S8192x64_S8192x1_S64x1_0_0_1_1_n_n.rhsBatch by decide), dif_pos (show (1 : Fin S8192x1.rank) ∈ dot_S8192x64_S8192x1_S64x1_0_0_1_1_n_n.rhsNonContracting by decide)]
  rfl

/-- The product of the transposed first block with a column into a zero column, at (s, 0): the sum over the rows. -/
theorem v0_matmul1_apply (A : FVec Ideal S8192x64 .bf16) (B : FVec Ideal S8192x1 .bf16) (s : Fin 64) (u : Fin 1) :
    matmul (F := Ideal) dot_S8192x64_S8192x1_S64x1_0_0_1_1_n_n none A B (constant (F := Ideal) S64x1 .f32 0x00000000#32) (ix2 s u)
      = ∑ r : Fin 8192, A (ix2 r s) * B (ix2 r u) := by
  show FloatOps.matmul dot_S8192x64_S8192x1_S64x1_0_0_1_1_n_n none A B (constant (F := Ideal) S64x1 .f32 0x00000000#32) (ix2 s u) = _
  rw [Ideal.matmul_constant_zero_apply, ← Equiv.sum_comp (contrEquiv1 dot_S8192x64_S8192x1_S64x1_0_0_1_1_n_n 8192 rfl rfl).symm]
  refine Finset.sum_congr rfl fun k _ => ?_
  have hk := contrEquiv1_symm_val dot_S8192x64_S8192x1_S64x1_0_0_1_1_n_n 8192 rfl rfl k
  have el : dot_S8192x64_S8192x1_S64x1_0_0_1_1_n_n.lhsIdx (ix2 s u) ((contrEquiv1 dot_S8192x64_S8192x1_S64x1_0_0_1_1_n_n 8192 rfl rfl).symm k) = ix2 k s := funext fun a => Fin.ext (by
    match a with
    | ⟨0, _⟩ => exact (v0_lhs1_0 _ _).trans hk
    | ⟨1, _⟩ => exact v0_lhs1_1 _ _)
  have er : dot_S8192x64_S8192x1_S64x1_0_0_1_1_n_n.rhsIdx (ix2 s u) ((contrEquiv1 dot_S8192x64_S8192x1_S64x1_0_0_1_1_n_n 8192 rfl rfl).symm k) = ix2 k u := funext fun a => Fin.ext (by
    match a with
    | ⟨0, _⟩ => exact (v0_rhs1_0 _ _).trans hk
    | ⟨1, _⟩ => exact v0_rhs1_1 _ _)
  rw [el, er]

/-! ## One step's contribution -/

/-- The sums' table after a step, at (s, d): what it held plus the block's rows weighted by their factor for s. -/
theorem v0_step_sums (lab : Vec Ideal S8192 .i32) (var : Vec Ideal S8192x8 .f32) (p : Vec Ideal S64x8 .f32) (s : Fin 64) (d : Fin 8) :
    k0_pay4 (F := Ideal) lab var p (ix2 s d)
      = p (ix2 s d) + ∑ r : Fin 8192, Cert.Partials.oh (lab (ix1 r)) s.val * var (ix2 r d) := by
  delta k0_pay4
  rw [shapeCast_self]
  show p (ix2 s d) + matmul (F := Ideal) dot_S8192x64_S8192x8_S64x8_0_0_1_1_n_n none (k0_pay3 lab)
        (truncf FTy.bf16 (shapeCast S8192x8 var shapeCasts_S8192x8_S8192x8) bitsLt_bf16_f32)
        (constant (F := Ideal) S64x8 FTy.f32 0x00000000#32) (ix2 s d) = _
  rw [v0_matmul8_apply]
  refine congrArg (p (ix2 s d) + ·) (Finset.sum_congr rfl fun r _ => ?_)
  rw [v0_onehot_apply]
  show _ * shapeCast S8192x8 var shapeCasts_S8192x8_S8192x8 (ix2 r d) = _
  rw [shapeCast_self]

/-- The counts' table after a step, at (s, 0): what it held plus the number of the block's rows labelled s. -/
theorem v0_step_cnt (lab : Vec Ideal S8192 .i32) (p : Vec Ideal S64x1 .f32) (s : Fin 64) :
    k0_pay5 (F := Ideal) lab p (ix2 s (0 : Fin 1))
      = p (ix2 s (0 : Fin 1)) + ∑ r : Fin 8192, Cert.Partials.oh (lab (ix1 r)) s.val := by
  delta k0_pay5
  rw [shapeCast_self]
  show p (ix2 s (0 : Fin 1)) + matmul (F := Ideal) dot_S8192x64_S8192x1_S64x1_0_0_1_1_n_n none (k0_pay3 lab)
        (broadcast S8192x1 (Ideal.ofBits .bf16 0x3F80#16))
        (constant (F := Ideal) S64x1 FTy.f32 0x00000000#32) (ix2 s (0 : Fin 1)) = _
  rw [v0_matmul1_apply]
  refine congrArg (p (ix2 s (0 : Fin 1)) + ·) (Finset.sum_congr rfl fun r _ => ?_)
  rw [v0_onehot_apply]
  show _ * Ideal.ofBits .bf16 0x3F80#16 = _
  rw [v0_one_bf16, mul_one]

/-! ## The blocks at an index -/

open Cert.Partials in
/-- The rows' block at step k of core c' holds, at (r, d), the padded array's row rowOf c' k r. -/
theorem v0_var_apply (c : Dev nD) (t : Fin cfg0.N) (c' : Fin 2) (k : Fin 245) (ht : t.val = c'.val * 245 + k.val)
    (r : Fin 8192) (d : Fin 8) :
    (var0 V c t) (ix2 r d) = (V c main_v0 : FVec Ideal SP8 .f32) (ix2 (rowOf c' k r) d) := by
  have hi : win0_0.index t 0 = t.val ∧ win0_0.index t 1 = 0 :=
    (by decide +kernel : ∀ t : Fin grid0.N, win0_0.index t (0 : Fin 2) = t.val ∧ win0_0.index t (1 : Fin 2) = 0) t
  delta var0 iblk0
  rw [View.read_apply]
  show V c main_v0 _ = V c main_v0 _
  congr 1
  funext a
  apply Fin.ext
  match a with
  | ⟨0, _⟩ => show win0_0.index t 0 * 8192 + 1 * r.val = (c'.val * 245 + k.val) * 8192 + r.val; rw [hi.1, ht]; omega
  | ⟨1, _⟩ => show win0_0.index t 1 * 8 + 1 * d.val = d.val; rw [hi.2]; omega

open Cert.Partials in
/-- The labels' block at step k of core c' holds, at r, the padded label rowOf c' k r. -/
theorem v0_lab_apply (c : Dev nD) (t : Fin cfg0.N) (c' : Fin 2) (k : Fin 245) (ht : t.val = c'.val * 245 + k.val)
    (r : Fin 8192) :
    (lab0 V c t) (ix1 r) = (V c main_v1 : IVec SP 32) (ix1 (rowOf c' k r)) := by
  have hi : win0_1.index t 0 = t.val :=
    (by decide +kernel : ∀ t : Fin grid0.N, win0_1.index t (0 : Fin 1) = t.val) t
  delta lab0 iblk0
  rw [View.read_apply]
  show V c main_v1 _ = V c main_v1 _
  congr 1
  funext a
  apply Fin.ext
  match a with
  | ⟨0, _⟩ => show win0_1.index t 0 * 8192 + 1 * r.val = (c'.val * 245 + k.val) * 8192 + r.val; rw [hi, ht]; omega

/-! ## The tables after a step of a core -/

/-- The tables after a point depend on the point only. -/
theorem v0_acc0_congr (c : Dev nD) {n m : ℕ} (e : n = m) (hn : n < cfg0.N) (hm : m < cfg0.N) :
    acc0 V c n hn = acc0 V c m hm := by
  subst e; rfl

/-- The zero table of sums is zero at every entry. -/
theorem v0_zero_sums (s : Fin 64) (d : Fin 8) : k0_pay1 (F := Ideal) (ix2 s d) = 0 := by
  delta k0_pay1
  rw [shapeCast_self]
  exact Ideal.ofBits_zero_f32

/-- The zero table of counts is zero at every entry. -/
theorem v0_zero_cnt (s : Fin 64) : k0_pay2 (F := Ideal) (ix2 s (0 : Fin 1)) = 0 := by
  delta k0_pay2
  rw [shapeCast_self]
  exact Ideal.ofBits_zero_f32

/-- Point c' · 245 + j of the grid, for j below 245. -/
theorem v0_pt_lt (c' : Fin 2) {j : ℕ} (hj : j < 245) : c'.val * 245 + j < cfg0.N := by
  have := c'.isLt
  rw [show cfg0.N = 490 from N_0]; omega

open Cert.Partials in
/-- Step k's contribution to the sum of column d for segment s on core c' (zero past the core's steps). -/
def v0_termS (c : Dev nD) (c' : Fin 2) (s : Fin 64) (d : Fin 8) (k : ℕ) : EReal :=
  if h : k < 245 then
    ∑ r : Fin 8192, oh ((V c main_v1 : IVec SP 32) (ix1 (rowOf c' ⟨k, h⟩ r))) s.val
      * (V c main_v0 : FVec Ideal SP8 .f32) (ix2 (rowOf c' ⟨k, h⟩ r) d)
  else 0

open Cert.Partials in
/-- Step k's contribution to the count for segment s on core c' (zero past the core's steps). -/
def v0_termC (c : Dev nD) (c' : Fin 2) (s : Fin 64) (k : ℕ) : EReal :=
  if h : k < 245 then ∑ r : Fin 8192, oh ((V c main_v1 : IVec SP 32) (ix1 (rowOf c' ⟨k, h⟩ r))) s.val else 0

/-- The entry (s, d) of the sums' table after step j of core c' (zero past the core's steps). -/
def v0_accS (c : Dev nD) (c' : Fin 2) (s : Fin 64) (d : Fin 8) (j : ℕ) : EReal :=
  if h : j < 245 then (acc0 V c (c'.val * 245 + j) (v0_pt_lt c' h)).1 (ix2 s d) else 0

/-- The entry (s, 0) of the counts' table after step j of core c' (zero past the core's steps). -/
def v0_accC (c : Dev nD) (c' : Fin 2) (s : Fin 64) (j : ℕ) : EReal :=
  if h : j < 245 then (acc0 V c (c'.val * 245 + j) (v0_pt_lt c' h)).2 (ix2 s (0 : Fin 1)) else 0

/-- What step k adds to the sums' table at (s, d), in terms of the padded arrays. -/
theorem v0_contribS (c : Dev nD) (c' : Fin 2) (s : Fin 64) (d : Fin 8) {k : ℕ} (hk : k < 245) :
    ∑ r : Fin 8192, Cert.Partials.oh (lab0 V c ⟨c'.val * 245 + k, v0_pt_lt c' hk⟩ (ix1 r)) s.val
        * var0 V c ⟨c'.val * 245 + k, v0_pt_lt c' hk⟩ (ix2 r d)
      = v0_termS V c c' s d k := by
  unfold v0_termS
  rw [dif_pos hk]
  refine Finset.sum_congr rfl fun r _ => ?_
  rw [v0_lab_apply V c ⟨c'.val * 245 + k, v0_pt_lt c' hk⟩ c' ⟨k, hk⟩ rfl r,
    v0_var_apply V c ⟨c'.val * 245 + k, v0_pt_lt c' hk⟩ c' ⟨k, hk⟩ rfl r d]

/-- What step k adds to the counts' table at (s, 0), in terms of the padded labels. -/
theorem v0_contribC (c : Dev nD) (c' : Fin 2) (s : Fin 64) {k : ℕ} (hk : k < 245) :
    ∑ r : Fin 8192, Cert.Partials.oh (lab0 V c ⟨c'.val * 245 + k, v0_pt_lt c' hk⟩ (ix1 r)) s.val
      = v0_termC V c c' s k := by
  unfold v0_termC
  rw [dif_pos hk]
  refine Finset.sum_congr rfl fun r _ => ?_
  rw [v0_lab_apply V c ⟨c'.val * 245 + k, v0_pt_lt c' hk⟩ c' ⟨k, hk⟩ rfl r]

/-- The first step of a core starts the sums' table from zero. -/
theorem v0_accS_zero (c : Dev nD) (c' : Fin 2) (s : Fin 64) (d : Fin 8) :
    v0_accS V c c' s d 0 = 0 + v0_termS V c c' s d 0 := by
  have h0 : (0 : ℕ) < 245 := by omega
  unfold v0_accS
  rw [dif_pos h0, acc0_first V c ⟨c'.val * 245 + 0, v0_pt_lt c' h0⟩ (by show (c'.val * 245 + 0) % 245 = 0; omega)]
  refine (v0_step_sums (lab0 V c ⟨c'.val * 245 + 0, v0_pt_lt c' h0⟩) (var0 V c ⟨c'.val * 245 + 0, v0_pt_lt c' h0⟩)
    (zero0 (F := Ideal)).1 s d).trans ?_
  rw [v0_contribS V c c' s d h0]
  exact congrArg (· + v0_termS V c c' s d 0) (v0_zero_sums s d)

/-- Every later step adds its contribution to what the step before left. -/
theorem v0_accS_succ (c : Dev nD) (c' : Fin 2) (s : Fin 64) (d : Fin 8) (j : ℕ) (hj : j + 1 < 245) :
    v0_accS V c c' s d (j + 1) = v0_accS V c c' s d j + v0_termS V c c' s d (j + 1) := by
  have hj' : j < 245 := by omega
  unfold v0_accS
  rw [dif_pos hj, dif_pos hj',
    acc0_later V c ⟨c'.val * 245 + (j + 1), v0_pt_lt c' hj⟩ (by show ¬ (c'.val * 245 + (j + 1)) % 245 = 0; omega)]
  refine (v0_step_sums (lab0 V c ⟨c'.val * 245 + (j + 1), v0_pt_lt c' hj⟩) (var0 V c ⟨c'.val * 245 + (j + 1), v0_pt_lt c' hj⟩)
    _ s d).trans ?_
  rw [v0_contribS V c c' s d hj]
  refine congrArg (· + v0_termS V c c' s d (j + 1)) ?_
  exact congrArg (fun p => p.1 (ix2 s d))
    (v0_acc0_congr V c (show c'.val * 245 + (j + 1) - 1 = c'.val * 245 + j by omega) _ (v0_pt_lt c' hj'))

/-- The first step of a core starts the counts' table from zero. -/
theorem v0_accC_zero (c : Dev nD) (c' : Fin 2) (s : Fin 64) :
    v0_accC V c c' s 0 = 0 + v0_termC V c c' s 0 := by
  have h0 : (0 : ℕ) < 245 := by omega
  unfold v0_accC
  rw [dif_pos h0, acc0_first V c ⟨c'.val * 245 + 0, v0_pt_lt c' h0⟩ (by show (c'.val * 245 + 0) % 245 = 0; omega)]
  refine (v0_step_cnt (lab0 V c ⟨c'.val * 245 + 0, v0_pt_lt c' h0⟩) (zero0 (F := Ideal)).2 s).trans ?_
  rw [v0_contribC V c c' s h0]
  exact congrArg (· + v0_termC V c c' s 0) (v0_zero_cnt s)

/-- Every later step adds its count to what the step before left. -/
theorem v0_accC_succ (c : Dev nD) (c' : Fin 2) (s : Fin 64) (j : ℕ) (hj : j + 1 < 245) :
    v0_accC V c c' s (j + 1) = v0_accC V c c' s j + v0_termC V c c' s (j + 1) := by
  have hj' : j < 245 := by omega
  unfold v0_accC
  rw [dif_pos hj, dif_pos hj',
    acc0_later V c ⟨c'.val * 245 + (j + 1), v0_pt_lt c' hj⟩ (by show ¬ (c'.val * 245 + (j + 1)) % 245 = 0; omega)]
  refine (v0_step_cnt (lab0 V c ⟨c'.val * 245 + (j + 1), v0_pt_lt c' hj⟩) _ s).trans ?_
  rw [v0_contribC V c c' s hj]
  refine congrArg (· + v0_termC V c c' s (j + 1)) ?_
  exact congrArg (fun p => p.2 (ix2 s (0 : Fin 1)))
    (v0_acc0_congr V c (show c'.val * 245 + (j + 1) - 1 = c'.val * 245 + j by omega) _ (v0_pt_lt c' hj'))

/-- After its last step a core's table of sums holds its partial sums of the padded arrays. -/
theorem v0_accS_last (c : Dev nD) (c' : Fin 2) (s : Fin 64) (d : Fin 8) :
    v0_accS V c c' s d 244 = Cert.Partials.psumAt (V c main_v0) (V c main_v1) c' s d := by
  rw [Cert.LibTileSums.fold_eq_sum (v0_termS V c c' s d) (v0_accS V c c' s d) 245 (v0_accS_zero V c c' s d)
    (v0_accS_succ V c c' s d) 244 (by omega)]
  unfold Cert.Partials.psumAt
  show ∑ k : Fin 245, v0_termS V c c' s d k.val = _
  refine Finset.sum_congr rfl fun k _ => ?_
  unfold v0_termS
  rw [dif_pos k.isLt]

/-- After its last step a core's table of counts holds its partial counts of the padded labels. -/
theorem v0_accC_last (c : Dev nD) (c' : Fin 2) (s : Fin 64) :
    v0_accC V c c' s 244 = Cert.Partials.pcntAt (V c main_v1) c' s := by
  rw [Cert.LibTileSums.fold_eq_sum (v0_termC V c c' s) (v0_accC V c c' s) 245 (v0_accC_zero V c c' s)
    (v0_accC_succ V c c' s) 244 (by omega)]
  unfold Cert.Partials.pcntAt
  show ∑ k : Fin 245, v0_termC V c c' s k.val = _
  refine Finset.sum_congr rfl fun k _ => ?_
  unfold v0_termC
  rw [dif_pos k.isLt]

/-! ## The output arrays -/

/-- At the last step of core c' the sums' table holds the core's partial sums. -/
theorem v0_tableS_last (c : Dev nD) (t : Fin cfg0.N) (c' : Fin 2) (ht : t.val = c'.val * 245 + 244) (s : Fin 64) (d : Fin 8) :
    (acc0 V c t.val t.isLt).1 (ix2 s d) = Cert.Partials.psumAt (V c main_v0) (V c main_v1) c' s d := by
  rw [← v0_accS_last V c c' s d]
  unfold v0_accS
  rw [dif_pos (by omega : 244 < 245)]
  exact congrArg (fun p => p.1 (ix2 s d)) (v0_acc0_congr V c ht _ _)

/-- At the last step of core c' the counts' table holds the core's partial counts. -/
theorem v0_tableC_last (c : Dev nD) (t : Fin cfg0.N) (c' : Fin 2) (ht : t.val = c'.val * 245 + 244) (s : Fin 64) :
    (acc0 V c t.val t.isLt).2 (ix2 s (0 : Fin 1)) = Cert.Partials.pcntAt (V c main_v1) c' s := by
  rw [← v0_accC_last V c c' s]
  unfold v0_accC
  rw [dif_pos (by omega : 244 < 245)]
  exact congrArg (fun p => p.2 (ix2 s (0 : Fin 1))) (v0_acc0_congr V c ht _ _)

/-- The sums' output array as one function of the padded arrays: block c' holds core c''s partial sums. -/
def v0_G2 (c : Dev nD) : FVec Ideal S2x64x8 .f32 :=
  fun i => Cert.Partials.psumAt (V c main_v0) (V c main_v1) (i 0 : Fin 2) (i 1 : Fin 64) (i 2 : Fin 8)

/-- The counts' output array as one function of the padded labels: block c' holds core c''s partial counts. -/
def v0_G3 (c : Dev nD) : FVec Ideal S2x64x1 .f32 :=
  fun i => Cert.Partials.pcntAt (V c main_v1) (i 0 : Fin 2) (i 1 : Fin 64)

/-- The output windows' block index at a point: the core's number, then zero. -/
theorem v0_idx2 : ∀ t : Fin cfg0.N, win0_2.index t (0 : Fin 3) = t.val / 245 ∧ win0_2.index t (1 : Fin 3) = 0 ∧ win0_2.index t (2 : Fin 3) = 0 :=
  (by decide +kernel : ∀ t : Fin grid0.N, win0_2.index t (0 : Fin 3) = t.val / 245 ∧ win0_2.index t (1 : Fin 3) = 0 ∧ win0_2.index t (2 : Fin 3) = 0)
theorem v0_idx3 : ∀ t : Fin cfg0.N, win0_3.index t (0 : Fin 3) = t.val / 245 ∧ win0_3.index t (1 : Fin 3) = 0 ∧ win0_3.index t (2 : Fin 3) = 0 :=
  (by decide +kernel : ∀ t : Fin grid0.N, win0_3.index t (0 : Fin 3) = t.val / 245 ∧ win0_3.index t (1 : Fin 3) = 0 ∧ win0_3.index t (2 : Fin 3) = 0)

/-- What the last step of a core writes back to the sums' array is the core's block of the partial sums. -/
theorem v0_flushed2 (c : Dev nD) (t : Fin cfg0.N) (hf : (cfg0.win 2).flush t = true) :
    (dat0 V c).flushed 2 t = ((cfg0.win 2).blk t).view.read (Elt Ideal) (v0_G2 V c) := by
  have hm : t.val % 245 = 244 := (flush0_2 t).mp hf
  have hi := v0_idx2 t
  have hN : cfg0.N = 490 := N_0
  have htl := t.isLt
  show (cfg0.win 2).cut (grid0.coords t) ((dat0 V c).after 2 t) = _
  rw [after0_2]
  funext y
  show k0_pay6 (acc0 V c t.val t.isLt).1 y = v0_G2 V c (((cfg0.win 2).blk t).view.emb y)
  have hy0 : (y 0).val < 1 := (y 0).isLt
  have hy1 : (y 1).val < 64 := (y 1).isLt
  have hy2 : (y 2).val < 8 := (y 2).isLt
  have hc' : t.val / 245 < 2 := by omega
  have ht : t.val = (⟨t.val / 245, hc'⟩ : Fin 2).val * 245 + 244 := by show t.val = t.val / 245 * 245 + 244; omega
  delta k0_pay6
  refine (shapeCast_apply (acc0 V c t.val t.isLt).1 shapeCasts_S64x8_S1x64x8 y (ix2 ⟨(y 1).val, hy1⟩ ⟨(y 2).val, hy2⟩) ?_).trans ?_
  · rw [Shape.rowMajor_val_two, Shape.rowMajor_val_three]
    show (y 1).val * 8 + (y 2).val = ((y 0).val * 64 + (y 1).val) * 8 + (y 2).val
    omega
  refine (v0_tableS_last V c t ⟨t.val / 245, hc'⟩ ht ⟨(y 1).val, hy1⟩ ⟨(y 2).val, hy2⟩).trans ?_
  unfold v0_G2
  have e0 : (⟨t.val / 245, hc'⟩ : Fin 2) = (((cfg0.win 2).blk t).view.emb y 0 : Fin 2) :=
    Fin.ext (by show t.val / 245 = win0_2.index t 0 * 1 + 1 * (y 0).val; rw [hi.1]; omega)
  have e1 : (⟨(y 1).val, hy1⟩ : Fin 64) = (((cfg0.win 2).blk t).view.emb y 1 : Fin 64) :=
    Fin.ext (by show (y 1).val = win0_2.index t 1 * 64 + 1 * (y 1).val; rw [hi.2.1]; omega)
  have e2 : (⟨(y 2).val, hy2⟩ : Fin 8) = (((cfg0.win 2).blk t).view.emb y 2 : Fin 8) :=
    Fin.ext (by show (y 2).val = win0_2.index t 2 * 8 + 1 * (y 2).val; rw [hi.2.2]; omega)
  rw [e0, e1, e2]

/-- What the last step of a core writes back to the counts' array is the core's block of the partial counts. -/
theorem v0_flushed3 (c : Dev nD) (t : Fin cfg0.N) (hf : (cfg0.win 3).flush t = true) :
    (dat0 V c).flushed 3 t = ((cfg0.win 3).blk t).view.read (Elt Ideal) (v0_G3 V c) := by
  have hm : t.val % 245 = 244 := (flush0_3 t).mp hf
  have hi := v0_idx3 t
  have hN : cfg0.N = 490 := N_0
  have htl := t.isLt
  show (cfg0.win 3).cut (grid0.coords t) ((dat0 V c).after 3 t) = _
  rw [after0_3]
  funext y
  show k0_pay7 (acc0 V c t.val t.isLt).2 y = v0_G3 V c (((cfg0.win 3).blk t).view.emb y)
  have hy0 : (y 0).val < 1 := (y 0).isLt
  have hy1 : (y 1).val < 64 := (y 1).isLt
  have hy2 : (y 2).val < 1 := (y 2).isLt
  have hc' : t.val / 245 < 2 := by omega
  have ht : t.val = (⟨t.val / 245, hc'⟩ : Fin 2).val * 245 + 244 := by show t.val = t.val / 245 * 245 + 244; omega
  delta k0_pay7
  refine (shapeCast_apply (acc0 V c t.val t.isLt).2 shapeCasts_S64x1_S1x64x1 y (ix2 ⟨(y 1).val, hy1⟩ (0 : Fin 1)) ?_).trans ?_
  · rw [Shape.rowMajor_val_two, Shape.rowMajor_val_three]
    show (y 1).val * 1 + 0 = ((y 0).val * 64 + (y 1).val) * 1 + (y 2).val
    omega
  refine (v0_tableC_last V c t ⟨t.val / 245, hc'⟩ ht ⟨(y 1).val, hy1⟩).trans ?_
  unfold v0_G3
  have e0 : (⟨t.val / 245, hc'⟩ : Fin 2) = (((cfg0.win 3).blk t).view.emb y 0 : Fin 2) :=
    Fin.ext (by show t.val / 245 = win0_3.index t 0 * 1 + 1 * (y 0).val; rw [hi.1]; omega)
  have e1 : (⟨(y 1).val, hy1⟩ : Fin 64) = (((cfg0.win 3).blk t).view.emb y 1 : Fin 64) :=
    Fin.ext (by show (y 1).val = win0_3.index t 1 * 64 + 1 * (y 1).val; rw [hi.2.1]; omega)
  rw [e0, e1]

/-- An index of the sums' array is in a point's block iff each coordinate is in the block's range on its axis. -/
theorem v0_mem_blk2 (t : Fin cfg0.N) (i : S2x64x8.Idx) :
    i ∈ ((cfg0.win 2).blk t).view.set ↔ ∀ a : Fin 3, win0_2.index t a * S1x64x8.size a ≤ (i a).val ∧ (i a).val < win0_2.index t a * S1x64x8.size a + S1x64x8.size a := by
  show i ∈ ((View.whole main_v2_0).slice (win0_2.rect t)).set ↔ _
  rw [View.set_slice_whole, Rect.mem_set_unit]
  exact Iff.rfl

/-- An index of the counts' array is in a point's block iff each coordinate is in the block's range on its axis. -/
theorem v0_mem_blk3 (t : Fin cfg0.N) (i : S2x64x1.Idx) :
    i ∈ ((cfg0.win 3).blk t).view.set ↔ ∀ a : Fin 3, win0_3.index t a * S1x64x1.size a ≤ (i a).val ∧ (i a).val < win0_3.index t a * S1x64x1.size a + S1x64x1.size a := by
  show i ∈ ((View.whole main_v2_1).slice (win0_3.rect t)).set ↔ _
  rw [View.set_slice_whole, Rect.mem_set_unit]
  exact Iff.rfl

/-- The sums' array after the region: block c' written at the last step of core c'. -/
theorem v0_final2 (c : Dev nD) : (dat0 V c).arrAt 2 cfg0.N = v0_G2 V c :=
  (dat0 V c).arrAt_eq_of_cover 2 (v0_G2 V c) (v0_flushed2 V c) fun i => by
    have hi0 : (i 0).val < 2 := (i 0).isLt
    have hi1 : (i 1).val < 64 := (i 1).isLt
    have hi2 : (i 2).val < 8 := (i 2).isLt
    have hlt : (i 0).val * 245 + 244 < cfg0.N := by rw [show cfg0.N = 490 from N_0]; omega
    obtain ⟨q0, q1, q2⟩ := v0_idx2 ⟨(i 0).val * 245 + 244, hlt⟩
    have q0' : win0_2.index ⟨(i 0).val * 245 + 244, hlt⟩ (0 : Fin 3) = (i 0).val := by rw [q0]; show ((i 0).val * 245 + 244) / 245 = _; omega
    refine ⟨⟨(i 0).val * 245 + 244, hlt⟩, (flush0_2 _).mpr (by show ((i 0).val * 245 + 244) % 245 = 244; omega), ?_⟩
    rw [v0_mem_blk2]
    intro a
    match a with
    | ⟨0, _⟩ => show win0_2.index _ (0 : Fin 3) * 1 ≤ (i 0).val ∧ (i 0).val < win0_2.index _ (0 : Fin 3) * 1 + 1; rw [q0']; omega
    | ⟨1, _⟩ => show win0_2.index _ (1 : Fin 3) * 64 ≤ (i 1).val ∧ (i 1).val < win0_2.index _ (1 : Fin 3) * 64 + 64; rw [q1]; omega
    | ⟨2, _⟩ => show win0_2.index _ (2 : Fin 3) * 8 ≤ (i 2).val ∧ (i 2).val < win0_2.index _ (2 : Fin 3) * 8 + 8; rw [q2]; omega

/-- The counts' array after the region: block c' written at the last step of core c'. -/
theorem v0_final3 (c : Dev nD) : (dat0 V c).arrAt 3 cfg0.N = v0_G3 V c :=
  (dat0 V c).arrAt_eq_of_cover 3 (v0_G3 V c) (v0_flushed3 V c) fun i => by
    have hi0 : (i 0).val < 2 := (i 0).isLt
    have hi1 : (i 1).val < 64 := (i 1).isLt
    have hi2 : (i 2).val < 1 := (i 2).isLt
    have hlt : (i 0).val * 245 + 244 < cfg0.N := by rw [show cfg0.N = 490 from N_0]; omega
    obtain ⟨q0, q1, q2⟩ := v0_idx3 ⟨(i 0).val * 245 + 244, hlt⟩
    have q0' : win0_3.index ⟨(i 0).val * 245 + 244, hlt⟩ (0 : Fin 3) = (i 0).val := by rw [q0]; show ((i 0).val * 245 + 244) / 245 = _; omega
    refine ⟨⟨(i 0).val * 245 + 244, hlt⟩, (flush0_3 _).mpr (by show ((i 0).val * 245 + 244) % 245 = 244; omega), ?_⟩
    rw [v0_mem_blk3]
    intro a
    match a with
    | ⟨0, _⟩ => show win0_3.index _ (0 : Fin 3) * 1 ≤ (i 0).val ∧ (i 0).val < win0_3.index _ (0 : Fin 3) * 1 + 1; rw [q0']; omega
    | ⟨1, _⟩ => show win0_3.index _ (1 : Fin 3) * 64 ≤ (i 1).val ∧ (i 1).val < win0_3.index _ (1 : Fin 3) * 64 + 64; rw [q1]; omega
    | ⟨2, _⟩ => show win0_3.index _ (2 : Fin 3) * 1 ≤ (i 2).val ∧ (i 2).val < win0_3.index _ (2 : Fin 3) * 1 + 1; rw [q2]; omega

/-- Core `c'`'s block of the sums' output array holds the core's partial sums of the padded arrays. -/
theorem out0_sums (c : Dev nD) (c' : Fin 2) (s : Fin 64) (d : Fin 8) :
    ((dat0 (F := Ideal) V c).arrAt 2 cfg0.N : FVec Ideal S2x64x8 .f32) (ix3 c' s d)
      = Cert.Partials.psumAt (V c main_v0) (V c main_v1) c' s d :=
  congrFun (v0_final2 V c) (ix3 c' s d)

/-- Core `c'`'s block of the counts' output array holds the core's partial counts. -/
theorem out0_cnt (c : Dev nD) (c' : Fin 2) (s : Fin 64) :
    ((dat0 (F := Ideal) V c).arrAt 3 cfg0.N : FVec Ideal S2x64x1 .f32) (ix3 c' s (0 : Fin 1))
      = Cert.Partials.pcntAt (V c main_v1) c' s :=
  congrFun (v0_final3 V c) (ix3 c' s (0 : Fin 1))

end Cert.KernelIdeal.Hand

end
-- ==== Proof.KI.Value1.lean ====
/-
  What the second pass leaves in its output array, over the extended reals.

  The output array has one block per core, written back once, at the last of the core's 245 steps, with a copy of
  the carried table.  The table after step j of core c' is the sum over the steps 0 … j of the step's
  contribution.  A step gathers each row's mean as the matrix product of the one-hot block with the table of
  means, squares the row's distance from it column by column and sums the eight columns, and contributes to
  segment s the matrix product of the transposed one-hot block with those 8192 numbers.
-/
import proofs.«428285_j46179488367045_2_alg».proof.Proof.KI.Region1
import proofs.«428285_j46179488367045_2_alg».proof.Proof.Partials
import proofs.«428285_j46179488367045_2_alg».proof.Proof.LibTileSums
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ### A step's arithmetic at an index -/

/-- The factor a comparison of two label words becomes: the bit of "equal", widened and converted. -/
theorem v1_onehot_word (a b : BitVec 32) :
    (FloatOps.sitofp (F := Ideal) .f32 ((IntOp.cmpi .eq a b).setWidth 32) : EReal) = if a = b then 1 else 0 := by
  by_cases h : a = b
  · subst h
    rw [if_pos rfl]
    have e : IntOp.cmpi .eq a a = 1#1 := by simp [IntOp.cmpi]
    rw [e]
    show (((((1#1 : BitVec 1).setWidth 32).toInt : ℤ) : ℝ) : EReal) = 1
    rw [show ((1#1 : BitVec 1).setWidth 32).toInt = 1 from by decide]
    simp
  · rw [if_neg h]
    have hb : (a == b) = false := beq_eq_false_iff_ne.mpr h
    have e : IntOp.cmpi .eq a b = 0#1 := by simp [IntOp.cmpi, hb]
    rw [e]
    show (((((0#1 : BitVec 1).setWidth 32).toInt : ℤ) : ℝ) : EReal) = 0
    rw [show ((0#1 : BitVec 1).setWidth 32).toInt = 0 from by decide]
    simp

/-- An `[a]` vector cast to a column `[a, 1]` reads, at `(i, u)`, the operand at `i`. -/
theorem v1_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem v1_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot block of a block of labels: entry `(r, s)` is the factor of row `r`'s label for segment `s`. -/
theorem v1_onehot_apply (lab : Vec Ideal S8192 .i32) (r : Fin 8192) (s : Fin 64) :
    (truncf .bf16 (sitofp .f32 (extui 32 (cmpi .eq (broadcastTo S8192x64 (shapeCast S8192x1 lab shapeCasts_S8192_S8192x1) broadcasts_S8192x1_S8192x64)
        (iota .tc S8192x64 32 [1] iota_S8192x64_d1_w32)) natLt_1_32)) bitsLt_bf16_f32 : FVec Ideal S8192x64 .bf16) (ix2 r s)
      = Cert.Partials.oh (lab (ix1 r)) s.val := by
  show FloatOps.sitofp (F := Ideal) .f32 ((IntOp.cmpi .eq
      (broadcastTo S8192x64 (shapeCast S8192x1 lab shapeCasts_S8192_S8192x1) broadcasts_S8192x1_S8192x64 (ix2 r s))
      (iota .tc S8192x64 32 [1] iota_S8192x64_d1_w32 (ix2 r s))).setWidth 32) = _
  rw [v1_broadcastTo_a1_ab_apply, v1_shapeCast_a_a1_apply, iota_single_apply, v1_onehot_word]
  rfl

/-! ### The two products' index maps, coordinate by coordinate -/

theorem v1_gath_lhs_0 (j : S8192x8.Idx) (k : dot_S8192x64_S64x8_S8192x8_1_0_0_1_n_n.contr.Idx) :
    (dot_S8192x64_S64x8_S8192x8_1_0_0_1_n_n.lhsIdx j k 0 : ℕ) = j 0 := by
  simp [DotDims.lhsIdx, dot_S8192x64_S64x8_S8192x8_1_0_0_1_n_n]; rfl
theorem v1_gath_lhs_1 (j : S8192x8.Idx) (k : dot_S8192x64_S64x8_S8192x8_1_0_0_1_n_n.contr.Idx) :
    (dot_S8192x64_S64x8_S8192x8_1_0_0_1_n_n.lhsIdx j k 1 : ℕ) = k ⟨0, by decide⟩ := by
  simp [DotDims.lhsIdx, dot_S8192x64_S64x8_S8192x8_1_0_0_1_n_n]; rfl
theorem v1_gath_rhs_0 (j : S8192x8.Idx) (k : dot_S8192x64_S64x8_S8192x8_1_0_0_1_n_n.contr.Idx) :
    (dot_S8192x64_S64x8_S8192x8_1_0_0_1_n_n.rhsIdx j k 0 : ℕ) = k ⟨0, by decide⟩ := by
  simp [DotDims.rhsIdx, dot_S8192x64_S64x8_S8192x8_1_0_0_1_n_n]; rfl
theorem v1_gath_rhs_1 (j : S8192x8.Idx) (k : dot_S8192x64_S64x8_S8192x8_1_0_0_1_n_n.contr.Idx) :
    (dot_S8192x64_S64x8_S8192x8_1_0_0_1_n_n.rhsIdx j k 1 : ℕ) = j 1 := by
  simp [DotDims.rhsIdx, dot_S8192x64_S64x8_S8192x8_1_0_0_1_n_n]; rfl

theorem v1_seg_lhs_0 (j : S64x1.Idx) (k : dot_S8192x64_S8192x1_S64x1_0_0_1_1_n_n.contr.Idx) :
    (dot_S8192x64_S8192x1_S64x1_0_0_1_1_n_n.lhsIdx j k 0 : ℕ) = k ⟨0, by decide⟩ := by
  simp [DotDims.lhsIdx, dot_S8192x64_S8192x1_S64x1_0_0_1_1_n_n]; rfl
theorem v1_seg_lhs_1 (j : S64x1.Idx) (k : dot_S8192x64_S8192x1_S64x1_0_0_1_1_n_n.contr.Idx) :
    (dot_S8192x64_S8192x1_S64x1_0_0_1_1_n_n.lhsIdx j k 1 : ℕ) = j 0 := by
  simp [DotDims.lhsIdx, dot_S8192x64_S8192x1_S64x1_0_0_1_1_n_n]; rfl
theorem v1_seg_rhs_0 (j : S64x1.Idx) (k : dot_S8192x64_S8192x1_S64x1_0_0_1_1_n_n.contr.Idx) :
    (dot_S8192x64_S8192x1_S64x1_0_0_1_1_n_n.rhsIdx j k 0 : ℕ) = k ⟨0, by decide⟩ := by
  simp [DotDims.rhsIdx, dot_S8192x64_S8192x1_S64x1_0_0_1_1_n_n]; rfl
theorem v1_seg_rhs_1 (j : S64x1.Idx) (k : dot_S8192x64_S8192x1_S64x1_0_0_1_1_n_n.contr.Idx) :
    (dot_S8192x64_S8192x1_S64x1_0_0_1_1_n_n.rhsIdx j k 1 : ℕ) = j 1 := by
  have h1 := idx2_lt1 j
  have h2 := idx2_lt1 (dot_S8192x64_S8192x1_S64x1_0_0_1_1_n_n.rhsIdx j k)
  omega

/-- The gathering product at `(r, d)`: row `r` of the left block against column `d` of the table. -/
theorem v1_gath_apply (A : FVec Ideal S8192x64 .bf16) (B : FVec Ideal S64x8 .bf16) (r : Fin 8192) (d : Fin 8) :
    matmul dot_S8192x64_S64x8_S8192x8_1_0_0_1_n_n none A B (constant (F := Ideal) S8192x8 .f32 0x00000000#32) (ix2 r d)
      = ∑ s' : Fin 64, A (ix2 r s') * B (ix2 s' d) := by
  refine (Ideal.matmul_constant_zero_apply dot_S8192x64_S64x8_S8192x8_1_0_0_1_n_n none A B (ix2 r d)).trans ?_
  rw [← Equiv.sum_comp (contrEquiv1 dot_S8192x64_S64x8_S8192x8_1_0_0_1_n_n 64 rfl rfl).symm]
  refine Finset.sum_congr rfl fun s' _ => congrArg₂ (· * ·) (congrArg A ?_) (congrArg B ?_)
  · exact Shape.idx_ext₂ (v1_gath_lhs_0 _ _) ((v1_gath_lhs_1 _ _).trans (contrEquiv1_symm_val _ 64 rfl rfl s'))
  · exact Shape.idx_ext₂ ((v1_gath_rhs_0 _ _).trans (contrEquiv1_symm_val _ 64 rfl rfl s')) (v1_gath_rhs_1 _ _)

/-- The segment product at `(s, u)`: column `s` of the left block against the column vector, over the block's rows. -/
theorem v1_seg_apply (A : FVec Ideal S8192x64 .bf16) (Q : FVec Ideal S8192x1 .bf16) (s : Fin 64) (u : Fin 1) :
    matmul dot_S8192x64_S8192x1_S64x1_0_0_1_1_n_n none A Q (constant (F := Ideal) S64x1 .f32 0x00000000#32) (ix2 s u)
      = ∑ r : Fin 8192, A (ix2 r s) * Q (ix2 r u) := by
  refine (Ideal.matmul_constant_zero_apply dot_S8192x64_S8192x1_S64x1_0_0_1_1_n_n none A Q (ix2 s u)).trans ?_
  rw [← Equiv.sum_comp (contrEquiv1 dot_S8192x64_S8192x1_S64x1_0_0_1_1_n_n 8192 rfl rfl).symm]
  refine Finset.sum_congr rfl fun r _ => congrArg₂ (· * ·) (congrArg A ?_) (congrArg Q ?_)
  · exact Shape.idx_ext₂ ((v1_seg_lhs_0 _ _).trans (contrEquiv1_symm_val _ 8192 rfl rfl r)) (v1_seg_lhs_1 _ _)
  · exact Shape.idx_ext₂ ((v1_seg_rhs_0 _ _).trans (contrEquiv1_symm_val _ 8192 rfl rfl r)) (v1_seg_rhs_1 _ _)

/-- The sum over the eight columns, read at row `r`. -/
theorem v1_lane_sum (x : FVec Ideal S8192x8 .f32) (r : Fin 8192) :
    multiReduction (F := Ideal) .add [1] S8192 x 0x00000000#32 reduces_S8192x8_S8192 (.inl rfl) rfl (ix1 r)
      = ∑ d : Fin 8, x (ix2 r d) := by
  refine (Ideal.multiReduction_add_single x 0x00000000#32 reduces_S8192x8_S8192 (.inl rfl) rfl (ix1 r)).trans ?_
  exact Finset.sum_congr rfl fun d _ => congrArg x (Shape.idx_ext₂ rfl rfl)

/-- The table a run of steps starts from is zero. -/
theorem v1_zero_apply (s : Fin 64) (u : Fin 1) : (k1_pay1 (F := Ideal)) (ix2 s u) = 0 := by
  unfold k1_pay1
  simp only [shapeCast_self]
  exact Ideal.ofBits_zero_f32

/-- The copy into the output block reads the table. -/
theorem v1_copy_apply (a : Vec Ideal S64x1 .f32) (z : Fin 1) (s : Fin 64) (u : Fin 1) :
    k1_pay3 a (ix3 z s u) = a (ix2 s u) := by
  unfold k1_pay3
  exact shapeCast_ab_1ab_apply a shapeCasts_S64x1_S1x64x1 z s u

/-- A step's arithmetic over a left block `A` whose entries are the labels' factors: the gathering product, the
    difference, its square summed over the columns, the segment product of the transposed block with those sums, added
    to what the table held. -/
theorem v1_step_core (A : FVec Ideal S8192x64 .bf16) (lab : Vec Ideal S8192 .i32) (var : Vec Ideal S8192x8 .f32)
    (μ : Vec Ideal S64x8 .f32) (p : Vec Ideal S64x1 .f32)
    (hA : ∀ (r : Fin 8192) (s : Fin 64), A (ix2 r s) = Cert.Partials.oh (lab (ix1 r)) s.val) (s : Fin 64) (u : Fin 1) :
    addf p (matmul dot_S8192x64_S8192x1_S64x1_0_0_1_1_n_n none A
        (truncf .bf16 (shapeCast S8192x1 (multiReduction (F := Ideal) .add [1] S8192
          (mulf (subf var (matmul dot_S8192x64_S64x8_S8192x8_1_0_0_1_n_n none A (truncf .bf16 μ bitsLt_bf16_f32) (constant (F := Ideal) S8192x8 .f32 0x00000000#32)))
                (subf var (matmul dot_S8192x64_S64x8_S8192x8_1_0_0_1_n_n none A (truncf .bf16 μ bitsLt_bf16_f32) (constant (F := Ideal) S8192x8 .f32 0x00000000#32))))
          0x00000000#32 reduces_S8192x8_S8192 (.inl rfl) rfl) shapeCasts_S8192_S8192x1) bitsLt_bf16_f32)
        (constant (F := Ideal) S64x1 .f32 0x00000000#32)) (ix2 s u)
      = p (ix2 s u) + ∑ r : Fin 8192, Cert.Partials.oh (lab (ix1 r)) s.val *
          ∑ d : Fin 8, (var (ix2 r d) - ∑ s' : Fin 64, Cert.Partials.oh (lab (ix1 r)) s'.val * μ (ix2 s' d))
            * (var (ix2 r d) - ∑ s' : Fin 64, Cert.Partials.oh (lab (ix1 r)) s'.val * μ (ix2 s' d)) := by
  refine congrArg (p (ix2 s u) + ·) ?_
  refine (v1_seg_apply _ _ s u).trans ?_
  refine Finset.sum_congr rfl fun r _ => congrArg₂ (· * ·) (hA r s) ?_
  rw [truncf_apply]
  refine (v1_shapeCast_a_a1_apply _ shapeCasts_S8192_S8192x1 r u).trans ?_
  refine (v1_lane_sum _ r).trans ?_
  refine Finset.sum_congr rfl fun d _ => ?_
  rw [mulf_apply, subf_apply, v1_gath_apply]
  have e : (∑ s' : Fin 64, A (ix2 r s') * (truncf .bf16 μ bitsLt_bf16_f32 : FVec Ideal S64x8 .bf16) (ix2 s' d))
      = ∑ s' : Fin 64, Cert.Partials.oh (lab (ix1 r)) s'.val * μ (ix2 s' d) :=
    Finset.sum_congr rfl fun s' _ => congrArg₂ (· * ·) (hA r s') rfl
  rw [e]

/-- One step at segment `s`: what the table held, plus the sum over the block's rows whose label is the segment's word
    of the squared distance of the row from the mean it gathers. -/
theorem v1_step_apply (lab : Vec Ideal S8192 .i32) (var : Vec Ideal S8192x8 .f32) (μ : Vec Ideal S64x8 .f32)
    (p : Vec Ideal S64x1 .f32) (s : Fin 64) (u : Fin 1) :
    k1_pay2 lab var μ p (ix2 s u) = p (ix2 s u) + ∑ r : Fin 8192, Cert.Partials.oh (lab (ix1 r)) s.val *
      ∑ d : Fin 8, (var (ix2 r d) - ∑ s' : Fin 64, Cert.Partials.oh (lab (ix1 r)) s'.val * μ (ix2 s' d))
        * (var (ix2 r d) - ∑ s' : Fin 64, Cert.Partials.oh (lab (ix1 r)) s'.val * μ (ix2 s' d)) := by
  unfold k1_pay2
  simp only [shapeCast_self]
  refine v1_step_core _ lab var μ p ?_ s u
  exact v1_onehot_apply lab

/-! ### Where the blocks sit -/

/-- The rows' and the labels' windows sit at block `t` at point `t`; the table's window at block zero; the output's
    at the block of the point's core. -/
theorem v1_idx : ∀ t : Fin cfg1.N,
    win1_0.index t (0 : Fin 2) = t.val ∧ win1_0.index t (1 : Fin 2) = 0 ∧ win1_1.index t (0 : Fin 1) = t.val
    ∧ win1_2.index t (0 : Fin 2) = 0 ∧ win1_2.index t (1 : Fin 2) = 0
    ∧ win1_3.index t (0 : Fin 3) = t.val / 245 ∧ win1_3.index t (1 : Fin 3) = 0 ∧ win1_3.index t (2 : Fin 3) = 0 :=
  (by decide +kernel : ∀ t : Fin grid1.N,
    win1_0.index t (0 : Fin 2) = t.val ∧ win1_0.index t (1 : Fin 2) = 0 ∧ win1_1.index t (0 : Fin 1) = t.val
    ∧ win1_2.index t (0 : Fin 2) = 0 ∧ win1_2.index t (1 : Fin 2) = 0
    ∧ win1_3.index t (0 : Fin 3) = t.val / 245 ∧ win1_3.index t (1 : Fin 3) = 0 ∧ win1_3.index t (2 : Fin 3) = 0)

/-- A point of core `c'` at its step `k`. -/
theorem v1_lt (c' : Fin 2) (k : Fin 245) : c'.val * 245 + k.val < cfg1.N := by
  have hN : cfg1.N = 490 := N_1
  have := c'.isLt; have := k.isLt; omega

/-- The rows' block at step `k` of core `c'`, entry `(r, d)`: the padded rows at `(rowOf c' k r, d)`. -/
theorem v1_var_apply (c : Dev nD) (c' : Fin 2) (k : Fin 245) (t : Fin cfg1.N) (ht : t.val = c'.val * 245 + k.val)
    (r : Fin 8192) (d : Fin 8) :
    var1 V c t (ix2 r d) = (V c main_v0 : S4014080x8.Idx → EReal) (ix2 (Cert.Partials.rowOf c' k r) d) := by
  unfold var1 iblk1
  rw [View.read_apply]
  show V c main_v0 _ = V c main_v0 _
  congr 1
  funext a
  apply Fin.ext
  match a with
  | ⟨0, _⟩ =>
    show win1_0.index t 0 * 8192 + 1 * r.val = (c'.val * 245 + k.val) * 8192 + r.val
    rw [(v1_idx t).1, ht]; omega
  | ⟨1, _⟩ =>
    show win1_0.index t 1 * 8 + 1 * d.val = d.val
    rw [(v1_idx t).2.1]; omega

/-- The labels' block likewise. -/
theorem v1_lab_apply (c : Dev nD) (c' : Fin 2) (k : Fin 245) (t : Fin cfg1.N) (ht : t.val = c'.val * 245 + k.val)
    (r : Fin 8192) :
    lab1 V c t (ix1 r) = (V c main_v1 : S4014080.Idx → BitVec 32) (ix1 (Cert.Partials.rowOf c' k r)) := by
  unfold lab1 iblk1
  rw [View.read_apply]
  show V c main_v1 _ = V c main_v1 _
  congr 1
  funext a
  apply Fin.ext
  match a with
  | ⟨0, _⟩ =>
    show win1_1.index t 0 * 8192 + 1 * r.val = (c'.val * 245 + k.val) * 8192 + r.val
    rw [(v1_idx t).2.2.1, ht]; omega

/-- The table's block is the table, at every point. -/
theorem v1_mean_apply (c : Dev nD) (t : Fin cfg1.N) (s : Fin 64) (d : Fin 8) :
    mean1 V c t (ix2 s d) = (V c main_v10 : S64x8.Idx → EReal) (ix2 s d) := by
  unfold mean1 iblk1
  rw [View.read_apply]
  show V c main_v10 _ = V c main_v10 _
  congr 1
  funext a
  apply Fin.ext
  match a with
  | ⟨0, _⟩ =>
    show win1_2.index t 0 * 64 + 1 * s.val = s.val
    rw [(v1_idx t).2.2.2.1]; omega
  | ⟨1, _⟩ =>
    show win1_2.index t 1 * 8 + 1 * d.val = d.val
    rw [(v1_idx t).2.2.2.2.1]; omega

/-! ### One core's run of 245 steps -/

/-- What step `k` of core `c'` adds at segment `s`. -/
def v1_term (xp : FVec Ideal Cert.Partials.SP8 .f32) (lp : IVec Cert.Partials.SP 32) (μ : FVec Ideal Cert.Partials.S64x8 .f32)
    (c' : Fin 2) (s : Fin 64) (k : Fin 245) : EReal :=
  ∑ r : Fin 8192, Cert.Partials.oh (lp (ix1 (Cert.Partials.rowOf c' k r))) s.val
    * Cert.Partials.sqrow xp lp μ (Cert.Partials.rowOf c' k r)

/-- The body at step `k` of core `c'` adds that step's term to what the table held. -/
theorem v1_point (c : Dev nD) (c' : Fin 2) (k : Fin 245) (t : Fin cfg1.N) (ht : t.val = c'.val * 245 + k.val)
    (p : Vec Ideal S64x1 .f32) (s : Fin 64) (u : Fin 1) :
    k1_pay2 (lab1 V c t) (var1 V c t) (mean1 V c t) p (ix2 s u)
      = p (ix2 s u) + v1_term (V c main_v0) (V c main_v1) (V c main_v10) c' s k := by
  refine (v1_step_apply (lab1 V c t) (var1 V c t) (mean1 V c t) p s u).trans ?_
  refine congrArg (p (ix2 s u) + ·) ?_
  unfold v1_term Cert.Partials.sqrow Cert.Partials.gath
  refine Finset.sum_congr rfl fun r _ => ?_
  rw [v1_lab_apply V c c' k t ht r]
  refine congrArg (_ * ·) (Finset.sum_congr rfl fun d _ => ?_)
  rw [v1_var_apply V c c' k t ht r d]
  have e : (∑ s' : Fin 64, Cert.Partials.oh ((V c main_v1 : S4014080.Idx → BitVec 32) (ix1 (Cert.Partials.rowOf c' k r))) s'.val * mean1 V c t (ix2 s' d))
      = ∑ s' : Fin 64, Cert.Partials.oh ((V c main_v1 : S4014080.Idx → BitVec 32) (ix1 (Cert.Partials.rowOf c' k r))) s'.val
          * (V c main_v10 : S64x8.Idx → EReal) (ix2 s' d) :=
    Finset.sum_congr rfl fun s' _ => congrArg (_ * ·) (v1_mean_apply V c t s' d)
  rw [e]

/-- The table does not depend on how its point's number is written. -/
theorem v1_acc_congr (c : Dev nD) : ∀ (n m : ℕ) (hn : n < cfg1.N) (hm : m < cfg1.N), n = m → acc1 V c n hn = acc1 V c m hm := by
  intro n m hn hm h; subst h; rfl

/-- After its first step core `c'`'s table holds that step's term. -/
theorem v1_first (c : Dev nD) (c' : Fin 2) (s : Fin 64) (u : Fin 1) :
    acc1 V c (c'.val * 245 + (0 : Fin 245).val) (v1_lt c' 0) (ix2 s u)
      = 0 + v1_term (V c main_v0) (V c main_v1) (V c main_v10) c' s 0 := by
  refine (congrFun (acc1_first V c ⟨c'.val * 245 + (0 : Fin 245).val, v1_lt c' 0⟩
    (by show (c'.val * 245 + 0) % 245 = 0; omega)) (ix2 s u)).trans ?_
  refine (v1_point V c c' 0 _ rfl _ s u).trans ?_
  rw [v1_zero_apply]

/-- Each later step adds its term to what the step before left. -/
theorem v1_later (c : Dev nD) (c' : Fin 2) (s : Fin 64) (u : Fin 1) (j : Fin 244) :
    acc1 V c (c'.val * 245 + j.succ.val) (v1_lt c' j.succ) (ix2 s u)
      = acc1 V c (c'.val * 245 + j.castSucc.val) (v1_lt c' j.castSucc) (ix2 s u)
        + v1_term (V c main_v0) (V c main_v1) (V c main_v10) c' s j.succ := by
  have e1 : j.succ.val = j.val + 1 := Fin.val_succ j
  have e2 : j.castSucc.val = j.val := rfl
  have hj := j.isLt
  refine (congrFun (acc1_later V c ⟨c'.val * 245 + j.succ.val, v1_lt c' j.succ⟩
    (by show ¬ (c'.val * 245 + j.succ.val) % 245 = 0; omega)) (ix2 s u)).trans ?_
  refine (v1_point V c c' j.succ _ rfl _ s u).trans ?_
  refine congrArg (· + v1_term (V c main_v0) (V c main_v1) (V c main_v10) c' s j.succ) ?_
  exact congrFun (v1_acc_congr V c _ _ _ _ (by show c'.val * 245 + j.succ.val - 1 = c'.val * 245 + j.castSucc.val; omega)) (ix2 s u)

/-- After its last step core `c'`'s table holds the core's partial sums of squared distances. -/
theorem v1_acc_last (c : Dev nD) (c' : Fin 2) (s : Fin 64) (u : Fin 1) :
    acc1 V c (c'.val * 245 + (Fin.last 244).val) (v1_lt c' (Fin.last 244)) (ix2 s u)
      = Cert.Partials.psqAt (V c main_v0) (V c main_v1) (V c main_v10) c' s :=
  Cert.LibTileSums.fold_fin_eq_sum (m := 244)
    (fun k : Fin 245 => v1_term (V c main_v0) (V c main_v1) (V c main_v10) c' s k)
    (fun j : Fin 245 => acc1 V c (c'.val * 245 + j.val) (v1_lt c' j) (ix2 s u))
    (v1_first V c c' s u) (v1_later V c c' s u)

/-! ### The output array -/

/-- What the output array ends holding: at `(c', s, ·)` core `c'`'s partial sum for segment `s`. -/
def v1_G (c : Dev nD) : S2x64x1.Idx → EReal := fun i =>
  Cert.Partials.psqAt (V c main_v0) (V c main_v1) (V c main_v10) ⟨(i 0).val, (i 0).isLt⟩ ⟨(i 1).val, (i 1).isLt⟩

theorem v1_G_apply (c : Dev nD) (i : S2x64x1.Idx) (c' : Fin 2) (s : Fin 64) (h0 : (i 0).val = c'.val) (h1 : (i 1).val = s.val) :
    v1_G V c i = Cert.Partials.psqAt (V c main_v0) (V c main_v1) (V c main_v10) c' s := by
  unfold v1_G
  rw [show (⟨(i 0).val, (i 0).isLt⟩ : Fin 2) = c' from Fin.ext h0, show (⟨(i 1).val, (i 1).isLt⟩ : Fin 64) = s from Fin.ext h1]

/-- What a writing point writes back is its block of that array: the copy of its core's table after the core's last step. -/
theorem v1_flushed (c : Dev nD) (t : Fin cfg1.N) (hf : (cfg1.win 3).flush t = true) :
    (dat1 V c).flushed 3 t = ((cfg1.win 3).blk t).view.read (Elt Ideal) (v1_G V c) := by
  have hN : cfg1.N = 490 := N_1
  have h244 : t.val % 245 = 244 := (flush1_3 t).mp hf
  have htl := t.isLt
  funext y
  rw [View.read_apply]
  have y0 : (y 0).val < 1 := (y 0).isLt
  have y1 : (y 1).val < 64 := (y 1).isLt
  have y2 : (y 2).val < 1 := (y 2).isLt
  have e : (cfg1.win 3).xinj (cfg1.grid.coords t) y
      = (ix3 (⟨(y 0).val, y0⟩ : Fin 1) (⟨(y 1).val, y1⟩ : Fin 64) (⟨(y 2).val, y2⟩ : Fin 1) : S1x64x1.Idx) := by
    funext a
    match a with
    | ⟨0, _⟩ => rfl
    | ⟨1, _⟩ => rfl
    | ⟨2, _⟩ => rfl
  show (dat1 V c).after 3 t ((cfg1.win 3).xinj (cfg1.grid.coords t) y) = v1_G V c (((cfg1.win 3).blk t).view.emb y)
  rw [e, after1_3]
  refine (v1_copy_apply _ _ _ _).trans ?_
  have hq : t.val / 245 < 2 := by omega
  refine Eq.trans ?_ (v1_G_apply V c _ ⟨t.val / 245, hq⟩ ⟨(y 1).val, y1⟩ ?_ ?_).symm
  · refine (congrFun (v1_acc_congr V c _ _ _ (v1_lt ⟨t.val / 245, hq⟩ (Fin.last 244))
      (by show t.val = t.val / 245 * 245 + 244; omega)) _).trans ?_
    exact v1_acc_last V c ⟨t.val / 245, hq⟩ ⟨(y 1).val, y1⟩ ⟨(y 2).val, y2⟩
  · show win1_3.index t 0 * 1 + 1 * (y 0).val = t.val / 245
    rw [(v1_idx t).2.2.2.2.2.1]; omega
  · show win1_3.index t 1 * 64 + 1 * (y 1).val = (y 1).val
    rw [(v1_idx t).2.2.2.2.2.2.1]; omega

/-- Core `c'`'s block of the output array holds the core's partial sums of squared distances. -/
theorem out1_sq (c : Dev nD) (c' : Fin 2) (s : Fin 64) :
    ((dat1 (F := Ideal) V c).arrAt 3 cfg1.N : FVec Ideal S2x64x1 .f32) (ix3 c' s (0 : Fin 1))
      = Cert.Partials.psqAt (V c main_v0) (V c main_v1) (V c main_v10) c' s := by
  have hN : cfg1.N = 490 := N_1
  have hc := c'.isLt
  have ht : c'.val * 245 + 244 < cfg1.N := by omega
  have hf : (cfg1.win 3).flush ⟨c'.val * 245 + 244, ht⟩ = true :=
    (flush1_3 ⟨c'.val * 245 + 244, ht⟩).mpr (by show (c'.val * 245 + 244) % 245 = 244; omega)
  refine ((dat1 V c).arrAt_apply_of_mem 3 (v1_G V c) (v1_flushed V c) cfg1.N ⟨c'.val * 245 + 244, ht⟩ _ ht hf ?_).trans ?_
  · show (ix3 c' s (0 : Fin 1) : S2x64x1.Idx) ∈ ((View.whole main_v11).slice (win1_3.rect ⟨c'.val * 245 + 244, ht⟩)).set
    rw [View.set_slice_whole, Rect.mem_set_unit]
    intro a
    match a with
    | ⟨0, _⟩ =>
      show win1_3.index ⟨c'.val * 245 + 244, ht⟩ 0 * 1 ≤ c'.val ∧ c'.val < win1_3.index ⟨c'.val * 245 + 244, ht⟩ 0 * 1 + 1
      rw [(v1_idx ⟨c'.val * 245 + 244, ht⟩).2.2.2.2.2.1]
      show (c'.val * 245 + 244) / 245 * 1 ≤ c'.val ∧ c'.val < (c'.val * 245 + 244) / 245 * 1 + 1
      omega
    | ⟨1, _⟩ =>
      show win1_3.index ⟨c'.val * 245 + 244, ht⟩ 1 * 64 ≤ s.val ∧ s.val < win1_3.index ⟨c'.val * 245 + 244, ht⟩ 1 * 64 + 64
      rw [(v1_idx ⟨c'.val * 245 + 244, ht⟩).2.2.2.2.2.2.1]
      have := s.isLt; omega
    | ⟨2, _⟩ =>
      show win1_3.index ⟨c'.val * 245 + 244, ht⟩ 2 * 1 ≤ 0 ∧ 0 < win1_3.index ⟨c'.val * 245 + 244, ht⟩ 2 * 1 + 1
      rw [(v1_idx ⟨c'.val * 245 + 244, ht⟩).2.2.2.2.2.2.2]
      omega
  · exact v1_G_apply V c _ c' s rfl rfl

end Cert.KernelIdeal.Hand

end
-- ==== Proof.Spec.lean ====
/-
  The value both programs compute, as one function of the two argument arrays, over the extended reals.

  For a segment number s, a row p of the 4,000,000 "hits" s when its label word, read as a signed
  integer, is s.  The count of s is the number of rows that hit it; the sum of s in column d is the sum of the
  entries (p, d) over the rows that hit s; the mean divides the sum by the count, the count raised to at least
  one; the squared deviation of s sums, over the rows that hit s, the squares of the row's eight entries less
  the mean of s; the loss divides each by eight times the raised count, keeps the segments that are hit at all
  and are not segment 0, and adds them up.  A row whose label is outside [0, 64) hits no segment and enters
  nothing.

  The two divisions, the maximum, the comparison, the selection and the final sum are the same operations in
  both programs; they are kept here as two closed terms (`meansOf`, `lossOf`) that nothing below opens.
-/
import Idealize.ShloMosaic.PureOps.Ideal
import Idealize.ShloMosaic.PureOps
import Idealize.ShloMosaic.Lib.ValueIdx

noncomputable section

namespace Cert.Spec

open Idealize.ShloMosaic Idealize.ShloMosaic.ValueIdx

abbrev SN8 : Shape := ⟨2, ![4000000, 8]⟩
abbrev SN : Shape := ⟨1, ![4000000]⟩
abbrev S0 : Shape := ⟨0, ![]⟩
abbrev S64 : Shape := ⟨1, ![64]⟩
abbrev S64x1 : Shape := ⟨2, ![64, 1]⟩
abbrev S64x8 : Shape := ⟨2, ![64, 8]⟩

/-- Row `p` hits segment `s`: its label word, read signed, is `s`. -/
def Hit (lab : IVec SN 32) (s : ℕ) (p : Fin 4000000) : Prop := (lab (ix1 p)).toInt = (s : Int)

instance (lab : IVec SN 32) (s : ℕ) (p : Fin 4000000) : Decidable (Hit lab s p) := by unfold Hit; infer_instance

/-- How many rows hit each segment. -/
def cnt (lab : IVec SN 32) : FVec Ideal S64 .f32 :=
  fun i => ∑ p : Fin 4000000, if Hit lab (i 0).val p then (1 : EReal) else 0

/-- Per segment and column, the sum of the entries of the rows that hit the segment. -/
def sums (x : FVec Ideal SN8 .f32) (lab : IVec SN 32) : FVec Ideal S64x8 .f32 :=
  fun i => ∑ p : Fin 4000000, if Hit lab (i 0).val p then x (ix2 p (i 1)) else 0

/-- Per segment, the sum over the rows that hit it of the squared distance of the row from `μ`'s row of the segment. -/
def sqs (x : FVec Ideal SN8 .f32) (lab : IVec SN 32) (μ : FVec Ideal S64x8 .f32) : FVec Ideal S64 .f32 :=
  fun i => ∑ p : Fin 4000000, if Hit lab (i 0).val p then
    ∑ d : Fin 8, (x (ix2 p d) - μ (ix2 (i 0) d)) * (x (ix2 p d) - μ (ix2 (i 0) d)) else 0

/-- The means from the counts and the sums: the sums divided by the counts raised to at least one. -/
def meansOf (counts : FVec Ideal S64 .f32) (sm : FVec Ideal S64x8 .f32) : FVec Ideal S64x8 .f32 :=
  Host.divf (F := Ideal) sm
    (broadcastInDim S64x8 ![0, 1] (by decide)
      (broadcastInDim S64x1 ![0] (by decide)
        (maximumf (F := Ideal) counts (broadcastInDim S64 ![] (by decide) (constant (F := Ideal) S0 .f32 0x3F800000#32)))))

/-- The loss from the counts and the squared deviations. -/
def lossOf (counts : FVec Ideal S64 .f32) (sq : FVec Ideal S64 .f32) : FVec Ideal S0 .f32 :=
  Host.reduceAdd (F := Ideal) (axes := [0])
    (select
      (andi (cmpf (F := Ideal) .ogt counts (broadcastInDim S64 ![] (by decide) (constant (F := Ideal) S0 .f32 0x00000000#32)))
        (cmpi .ne (iotaInDim S64 32 0) (broadcastInDim S64 ![] (by decide) (constantI S0 32 0#32))))
      (Host.divf (F := Ideal) sq
        (mulf (F := Ideal) (maximumf (F := Ideal) counts (broadcastInDim S64 ![] (by decide) (constant (F := Ideal) S0 .f32 0x3F800000#32)))
          (broadcastInDim S64 ![] (by decide) (constant (F := Ideal) S0 .f32 0x41000000#32))))
      (broadcastInDim S64 ![] (by decide) (constant (F := Ideal) S0 .f32 0x00000000#32)))
    (constant (F := Ideal) S0 .f32 0x00000000#32) (by decide) (by decide)

/-- THE VALUE: the loss of the two argument arrays. -/
def loss (x : FVec Ideal SN8 .f32) (lab : IVec SN 32) : FVec Ideal S0 .f32 :=
  lossOf (cnt lab) (sqs x lab (meansOf (cnt lab) (sums x lab)))

end Cert.Spec

end
-- ==== Proof.Math.lean ====
/-
  The two cores' partial tables of the padded arrays add up to the specification's tables of the arguments.

  The padded rows are the 4,000,000 rows followed by 14,080 rows of zeros, the padded labels the labels followed by
  14,080 words −1.  The rows a core sees over its 245 steps of 8192 are consecutive, and the two cores' rows are
  all 4,014,080 padded rows, each once: a sum over (core, step, position) is a sum over the padded rows.  A
  padding row has label −1, which is the word of no segment below 64, so its factor is 0 and it contributes
  nothing.  For a row of the arguments and a segment s below 64, the label is the word of s exactly when it reads s
  as a signed integer; and then the one-hot combination of the table of means is the table's row s.
-/
import proofs.«428285_j46179488367045_2_alg».proof.Proof.Spec
import proofs.«428285_j46179488367045_2_alg».proof.Proof.Partials
import proofs.«428285_j46179488367045_2_alg».proof.Proof.LibTileSums

noncomputable section

namespace Cert.Math

open Idealize.ShloMosaic Idealize.ShloMosaic.ValueIdx
open Cert.Partials

variable (x : FVec Ideal Cert.Spec.SN8 .f32) (lab : IVec Cert.Spec.SN 32)
  (xp : FVec Ideal SP8 .f32) (lp : IVec SP 32)
  (hx : ∀ (n : Fin 4014080) (d : Fin 8), xp (ix2 n d) = if h : n.val < 4000000 then x (ix2 ⟨n.val, h⟩ d) else 0)
  (hl : ∀ n : Fin 4014080, lp (ix1 n) = if h : n.val < 4000000 then lab (ix1 ⟨n.val, h⟩) else 4294967295#32)

open Cert.LibTileSums

/-- (core, step, position) runs through the padded rows, each once. -/
theorem sum_rows (f : Fin 4014080 → EReal) :
    ∑ c' : Fin 2, ∑ k : Fin 245, ∑ r : Fin 8192, f (rowOf c' k r) = ∑ n : Fin 4014080, f n := by
  have h1 : (490 : ℕ) * 8192 = 4014080 := by norm_num
  have h2 : (2 : ℕ) * 245 = 490 := by norm_num
  rw [← sum_tiles h1 f,
    ← sum_tiles h2 (fun i : Fin 490 => ∑ r : Fin 8192, f ⟨i.val * 8192 + r.val, tile_lt h1 i r⟩)]
  exact Finset.sum_congr rfl fun c' _ => Finset.sum_congr rfl fun k _ =>
    Finset.sum_congr rfl fun r _ => rfl

/-- A sum over `m + n` positions whose last `n` terms are zero is the sum of the first `m`. -/
theorem sum_head {m n N : ℕ} (h : m + n = N) (f : Fin N → EReal)
    (hz : ∀ i : Fin N, m ≤ i.val → f i = 0) :
    ∑ i : Fin N, f i = ∑ p : Fin m, f ⟨p.val, by have := p.isLt; omega⟩ := by
  subst h
  have htail : ∑ i : Fin n, f (Fin.natAdd m i) = 0 :=
    Finset.sum_eq_zero fun i _ => hz _ (by simp)
  rw [Fin.sum_univ_add, htail, add_zero]
  exact Finset.sum_congr rfl fun p _ => rfl

/-- A sum over (core, step, position) of terms that vanish on the padding rows is the sum over the rows of the
    arguments. -/
theorem sum_pad (f : Fin 4014080 → EReal) (hz : ∀ n : Fin 4014080, 4000000 ≤ n.val → f n = 0) :
    ∑ c' : Fin 2, ∑ k : Fin 245, ∑ r : Fin 8192, f (rowOf c' k r)
      = ∑ p : Fin 4000000, f ⟨p.val, by have := p.isLt; omega⟩ := by
  rw [sum_rows f]
  exact sum_head (m := 4000000) (n := 14080) (by norm_num) f hz

/-- A word is the word of a number below 64 exactly when it reads that number as a signed integer. -/
theorem word_iff (w : BitVec 32) {s : ℕ} (hs : s < 64) :
    w = BitVec.ofNat 32 s ↔ w.toInt = (s : Int) := by
  rw [eq_ofNat_iff w (by omega), BitVec.toInt_eq_toNat_cond]
  have := w.isLt
  split <;> omega

/-- The factor of a row of the arguments is the indicator of the row hitting the segment. -/
theorem oh_real (s : ℕ) (hs : s < 64) (p : Fin 4000000) :
    oh (lab (ix1 p)) s = if Cert.Spec.Hit lab s p then 1 else 0 := by
  have hiff : lab (ix1 p) = BitVec.ofNat 32 s ↔ Cert.Spec.Hit lab s p := word_iff _ hs
  unfold oh
  by_cases h : lab (ix1 p) = BitVec.ofNat 32 s
  · rw [if_pos h, if_pos (hiff.1 h)]
  · rw [if_neg h, if_neg (fun h' => h (hiff.2 h'))]

/-- The word −1 is the word of no number below 64. -/
theorem oh_pad (s : ℕ) (hs : s < 64) : oh (4294967295#32) s = 0 := by
  unfold oh
  rw [if_neg]
  intro h
  have h1 := (eq_ofNat_iff _ (by omega)).1 h
  have h2 : (4294967295#32).toNat = 4294967295 := rfl
  omega

include hl in
/-- A padding row's factor is 0. -/
theorem oh_lp_pad (n : Fin 4014080) (hn : 4000000 ≤ n.val) (s : ℕ) (hs : s < 64) :
    oh (lp (ix1 n)) s = 0 := by
  rw [hl n, dif_neg (by omega)]
  exact oh_pad s hs

include hl in
/-- The padded label of a row of the arguments is the row's label. -/
theorem lp_real (p : Fin 4000000) :
    lp (ix1 ⟨p.val, by have := p.isLt; omega⟩) = lab (ix1 p) := by
  rw [hl, dif_pos p.isLt]

include hx in
/-- The padded entry of a row of the arguments is the row's entry. -/
theorem xp_real (p : Fin 4000000) (d : Fin 8) :
    xp (ix2 ⟨p.val, by have := p.isLt; omega⟩ d) = x (ix2 p d) := by
  rw [hx, dif_pos p.isLt]

include hl in
/-- A row that hits segment `s` gathers the table's row `s`. -/
theorem gath_real (μ : FVec Ideal S64x8 .f32) (p : Fin 4000000) (s : Fin 64) (d : Fin 8)
    (h : Cert.Spec.Hit lab s.val p) :
    gath lp μ ⟨p.val, by have := p.isLt; omega⟩ d = μ (ix2 s d) := by
  have hw : lp (ix1 ⟨p.val, by have := p.isLt; omega⟩) = BitVec.ofNat 32 s.val := by
    rw [lp_real lab lp hl p]
    exact (word_iff _ s.isLt).2 h
  have ht := (eq_ofNat_iff _ (by have := s.isLt; omega)).1 hw
  unfold gath oh
  rw [onehot_sum (by norm_num) _ (fun s' : Fin 64 => μ (ix2 s' d)), dif_pos (by rw [ht]; exact s.isLt)]
  exact congrArg (fun t : Fin 64 => μ (ix2 t d)) (Fin.ext ht)

include hl in
/-- The two partial counts add up to the count. -/
theorem cnt_eq (s : Fin 64) : ∑ c' : Fin 2, pcntAt lp c' s = Cert.Spec.cnt lab (ix1 s) := by
  unfold pcntAt
  rw [sum_pad (fun n => oh (lp (ix1 n)) s.val) (fun n hn => oh_lp_pad lab lp hl n hn s.val s.isLt)]
  show _ = ∑ p : Fin 4000000, if Cert.Spec.Hit lab s.val p then (1 : EReal) else 0
  refine Finset.sum_congr rfl fun p _ => ?_
  show oh (lp (ix1 ⟨p.val, _⟩)) s.val = _
  rw [lp_real lab lp hl p]
  exact oh_real lab s.val s.isLt p

include hx hl in
/-- The two partial sums add up to the sum. -/
theorem sums_eq (s : Fin 64) (d : Fin 8) : ∑ c' : Fin 2, psumAt xp lp c' s d = Cert.Spec.sums x lab (ix2 s d) := by
  unfold psumAt
  rw [sum_pad (fun n => oh (lp (ix1 n)) s.val * xp (ix2 n d)) (fun n hn => by
    show oh (lp (ix1 n)) s.val * xp (ix2 n d) = 0
    rw [oh_lp_pad lab lp hl n hn s.val s.isLt, zero_mul])]
  show _ = ∑ p : Fin 4000000, if Cert.Spec.Hit lab s.val p then x (ix2 p d) else 0
  refine Finset.sum_congr rfl fun p _ => ?_
  show oh (lp (ix1 ⟨p.val, _⟩)) s.val * xp (ix2 ⟨p.val, _⟩ d) = _
  rw [lp_real lab lp hl p, xp_real x xp hx p d, oh_real lab s.val s.isLt p, ite_mul, one_mul, zero_mul]

include hx hl in
/-- The two partial sums of squared distances add up to the squared deviation. -/
theorem sqs_eq (μ : FVec Ideal S64x8 .f32) (s : Fin 64) :
    ∑ c' : Fin 2, psqAt xp lp μ c' s = Cert.Spec.sqs x lab μ (ix1 s) := by
  unfold psqAt
  rw [sum_pad (fun n => oh (lp (ix1 n)) s.val * sqrow xp lp μ n) (fun n hn => by
    show oh (lp (ix1 n)) s.val * sqrow xp lp μ n = 0
    rw [oh_lp_pad lab lp hl n hn s.val s.isLt, zero_mul])]
  show _ = ∑ p : Fin 4000000, if Cert.Spec.Hit lab s.val p then
    ∑ d : Fin 8, (x (ix2 p d) - μ (ix2 s d)) * (x (ix2 p d) - μ (ix2 s d)) else 0
  refine Finset.sum_congr rfl fun p _ => ?_
  show oh (lp (ix1 ⟨p.val, _⟩)) s.val * sqrow xp lp μ ⟨p.val, _⟩ = _
  rw [lp_real lab lp hl p, oh_real lab s.val s.isLt p, ite_mul, one_mul, zero_mul]
  by_cases h : Cert.Spec.Hit lab s.val p
  · rw [if_pos h, if_pos h]
    unfold sqrow
    refine Finset.sum_congr rfl fun d _ => ?_
    rw [xp_real x xp hx p d, gath_real lab lp hl μ p s d h]
  · rw [if_neg h, if_neg h]

end Cert.Math

end
-- ==== Proof.KI.Glue.lean ====
/-
  The kernel's program computes the specification's loss.

  Before the first pass the rows are padded with 14,080 rows of zeros and the labels with 14,080 words −1.  The
  first pass leaves each core's partial sums and counts of the padded arrays; the stretch after it adds the two
  cores', raises the counts to at least one and divides: the specification's means of the summed tables.  The
  second pass leaves each core's partial sums of squared distances from those means; the last stretches add the
  two cores' and apply the specification's closing term.  The two cores' partial tables of the padded arrays add
  up to the specification's tables of the arguments, so the result is the specification's loss.
-/
import proofs.«428285_j46179488367045_2_alg».proof.Proof.KI.Run
import proofs.«428285_j46179488367045_2_alg».proof.Proof.KI.Value0
import proofs.«428285_j46179488367045_2_alg».proof.Proof.KI.Value1
import proofs.«428285_j46179488367045_2_alg».proof.Proof.Math
import Idealize.ShloMosaic.Lib.KernelVsHost
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-! ## The padded arrays -/

/-- The rows and the labels as launched, and the padded arrays the first pass enters with, at their literal types. -/
abbrev g_x (c : Dev nD) : FVec Ideal Cert.Spec.SN8 .f32 := m ((c : Thread nD τ).loc main_arg0)
abbrev g_lab (c : Dev nD) : IVec Cert.Spec.SN 32 := m ((c : Thread nD τ).loc main_arg1)
abbrev g_xp (c : Dev nD) : FVec Ideal Cert.Partials.SP8 .f32 := E0 m c main_v0
abbrev g_lp (c : Dev nD) : IVec Cert.Partials.SP 32 := E0 m c main_v1

/-- Before the first pass the rows' buffer holds the rows padded with 14,080 rows of the converted integer zero. -/
theorem g_v0 (c : Dev nD) :
    (W4 m c (Proc.devRef .tc main_v0) : FVec Ideal S4014080x8 .f32)
      = pad S4014080x8 ![0, 0] ![14080, 0] ![0, 0] (g_x m c)
          (sitofp (F := Ideal) .f32 (constantI S_ 32 0#32)) pads_S4000000x8_S4014080x8_0140800_000 h_S_ := by
  have e3 : W4 m c (Proc.devRef .tc main_v0) = W3 m c (Proc.devRef .tc main_v0) :=
    StableHlo.after_of_writes_sub hostOps0_3 _ hostOps0_3_writes (r := main_v0) (by decide)
  have e2 : W3 m c (Proc.devRef .tc main_v0) = W2 m c (Proc.devRef .tc main_v0) :=
    StableHlo.after_of_writes_sub hostOps0_2 _ hostOps0_2_writes (r := main_v0) (by decide)
  rw [e3, e2]
  show StableHlo.after hostOps0_1 _ (Proc.devRef .tc main_v0) = _
  after_results
  rfl

/-- Before the first pass the labels' buffer holds the labels padded with 14,080 words −1. -/
theorem g_v1 (c : Dev nD) :
    (W4 m c (Proc.devRef .tc main_v1) : IVec S4014080 32)
      = pad S4014080 ![0] ![14080] ![0] (g_lab m c)
          (constantI S_ 32 4294967295#32) pads_S4000000_S4014080_0140800 h_S_ := by
  show StableHlo.after hostOps0_3 _ (Proc.devRef .tc main_v1) = _
  after_results
  rfl

/-- A padded row below 4,000,000 is the argument's row; a later one is zero. -/
theorem g_hx (c : Dev nD) (n : Fin 4014080) (d : Fin 8) :
    g_xp m c (ix2 n d) = if h : n.val < 4000000 then g_x m c (ix2 ⟨n.val, h⟩ d) else 0 := by
  show (W4 m c (Proc.devRef .tc main_v0) : FVec Ideal S4014080x8 .f32) (ix2 n d) = _
  rw [g_v0]
  by_cases h : n.val < 4000000
  · rw [dif_pos h]
    exact pad_apply_of_inside _ _ _ _ _ _ _ (ix2 n d) (ix2 (⟨n.val, h⟩ : Fin 4000000) d) (fun a => by
      match a with
      | ⟨0, _⟩ => show n.val = 0 + n.val * (0 + 1); omega
      | ⟨1, _⟩ => show d.val = 0 + d.val * (0 + 1); omega)
  · rw [dif_neg h]
    refine (pad_apply_of_not_inside _ _ _ _ _ _ _ (ix2 n d) (0 : Fin 2) (fun hin => ?_)).trans ?_
    · have h3 : (n.val - 0) / (0 + 1) < 4000000 := hin.2.2
      omega
    · exact sitofp_zero

/-- A padded label below 4,000,000 is the argument's label; a later one is the word −1. -/
theorem g_hl (c : Dev nD) (n : Fin 4014080) :
    g_lp m c (ix1 n) = if h : n.val < 4000000 then g_lab m c (ix1 ⟨n.val, h⟩) else 4294967295#32 := by
  show (W4 m c (Proc.devRef .tc main_v1) : IVec S4014080 32) (ix1 n) = _
  rw [g_v1]
  by_cases h : n.val < 4000000
  · rw [dif_pos h]
    exact pad_apply_of_inside _ _ _ _ _ _ _ (ix1 n) (ix1 (⟨n.val, h⟩ : Fin 4000000)) (fun a => by
      match a with
      | ⟨0, _⟩ => show n.val = 0 + n.val * (0 + 1); omega)
  · rw [dif_neg h]
    refine (pad_apply_of_not_inside _ _ _ _ _ _ _ (ix1 n) (0 : Fin 1) (fun hin => ?_)).trans ?_
    · have h3 : (n.val - 0) / (0 + 1) < 4000000 := hin.2.2
      omega
    · rfl

/-! ## The second pass enters with the same padded arrays -/

theorem g_E1_v0 (c : Dev nD) : E1 m c main_v0 = E0 m c main_v0 := by
  have e6 : W6 m c (Proc.devRef .tc main_v0) = W5 m c (Proc.devRef .tc main_v0) :=
    StableHlo.after_of_writes_sub hostOps1 _ hostOps1_writes (r := main_v0) (by decide)
  have e5 : W5 m c (Proc.devRef .tc main_v0) = (dat0 (E0 m) c).arrAt 0 cfg0.N := W5_arr m c 0
  have e4 : (dat0 (E0 m) c).arrAt 0 cfg0.N = E0 m c main_v0 :=
    (Pipeline.Dat.arrAt_in (dat0 (E0 m) c) 0 rfl _).trans (A_eq0 (E0 m) c 0)
  exact e6.trans (e5.trans e4)

theorem g_E1_v1 (c : Dev nD) : E1 m c main_v1 = E0 m c main_v1 := by
  have e6 : W6 m c (Proc.devRef .tc main_v1) = W5 m c (Proc.devRef .tc main_v1) :=
    StableHlo.after_of_writes_sub hostOps1 _ hostOps1_writes (r := main_v1) (by decide)
  have e5 : W5 m c (Proc.devRef .tc main_v1) = (dat0 (E0 m) c).arrAt 1 cfg0.N := W5_arr m c 1
  have e4 : (dat0 (E0 m) c).arrAt 1 cfg0.N = E0 m c main_v1 :=
    (Pipeline.Dat.arrAt_in (dat0 (E0 m) c) 1 rfl _).trans (A_eq0 (E0 m) c 1)
  exact e6.trans (e5.trans e4)

/-! ## What the stretches after the passes compute -/

/-- The two cores' sums added, as the stretch after the first pass computes them. -/
def g_sumsK (c : Dev nD) : FVec Ideal S64x8 .f32 :=
  Host.reduceAdd (F := Ideal) (W5 m c (Proc.devRef .tc main_v2_0) : FVec Ideal S2x64x8 .f32)
    (constant (F := Ideal) S_ .f32 0x00000000#32) reducesTo_S2x64x8_S64x8_d0 h_S_

/-- The two cores' counts added and laid out as one row of 64, as the stretch after the first pass computes them. -/
def g_cntK (c : Dev nD) : FVec Ideal S64 .f32 :=
  shapeCast S64 (Host.reduceAdd (F := Ideal) (W5 m c (Proc.devRef .tc main_v2_1) : FVec Ideal S2x64x1 .f32)
    (constant (F := Ideal) S_ .f32 0x00000000#32) reducesTo_S2x64x1_S64x1_d0 h_S_) shapeCasts_S64x1_S64

/-- The two cores' sums of squared distances added and laid out as one row of 64, as the stretch after the second
    pass computes them. -/
def g_sqK (c : Dev nD) : FVec Ideal S64 .f32 :=
  shapeCast S64 (Host.reduceAdd (F := Ideal) (W7 m c (Proc.devRef .tc main_v11) : FVec Ideal S2x64x1 .f32)
    (constant (F := Ideal) S_ .f32 0x00000000#32) reducesTo_S2x64x1_S64x1_d0 h_S_) shapeCasts_S64x1_S64

theorem g_v5 (c : Dev nD) : (W6 m c (Proc.devRef .tc main_v5) : FVec Ideal S64 .f32) = g_cntK m c := by
  show StableHlo.after hostOps1 _ (Proc.devRef .tc main_v5) = _
  after_results
  rfl

/-- After the stretch between the passes the means' buffer holds the specification's means of those sums and counts. -/
theorem g_v10 (c : Dev nD) :
    (W6 m c (Proc.devRef .tc main_v10) : FVec Ideal S64x8 .f32) = Cert.Spec.meansOf (g_cntK m c) (g_sumsK m c) := by
  show StableHlo.after hostOps1 _ (Proc.devRef .tc main_v10) = _
  after_results
  unfold Cert.Spec.meansOf g_cntK g_sumsK
  rfl

theorem g_v7 (c : Dev nD) :
    (W6 m c (Proc.devRef .tc main_v7) : FVec Ideal S64 .f32)
      = maximumf (F := Ideal) (g_cntK m c)
          (broadcastInDim S64 ![] bcast_S_S64 (constant (F := Ideal) S_ .f32 0x3F800000#32)) := by
  show StableHlo.after hostOps1 _ (Proc.devRef .tc main_v7) = _
  after_results
  rfl

theorem g_W7_v5 (c : Dev nD) : (W7 m c (Proc.devRef .tc main_v5) : FVec Ideal S64 .f32) = g_cntK m c :=
  (W7_of_ne m c main_v5 (by decide)).trans (g_v5 m c)

theorem g_W7_v7 (c : Dev nD) :
    (W7 m c (Proc.devRef .tc main_v7) : FVec Ideal S64 .f32)
      = maximumf (F := Ideal) (g_cntK m c)
          (broadcastInDim S64 ![] bcast_S_S64 (constant (F := Ideal) S_ .f32 0x3F800000#32)) :=
  (W7_of_ne m c main_v7 (by decide)).trans (g_v7 m c)

/-- At the last boundary the result buffer holds the specification's closing term of those counts and those sums of
    squared distances. -/
theorem g_v25 (c : Dev nD) :
    (W10 m c (Proc.devRef .tc main_v25) : FVec Ideal S_ .f32) = Cert.Spec.lossOf (g_cntK m c) (g_sqK m c) := by
  show StableHlo.after hostOps2_2 _ (Proc.devRef .tc main_v25) = _
  after_results
  rw [g_W7_v5, g_W7_v7]
  unfold Cert.Spec.lossOf g_sqK
  rfl

/-! ## Reading the casts and the sums over the two cores at an index -/

/-- A column of 64 laid out as a row reads, at `s`, the column at `(s, 0)`. -/
theorem g_cast (x : FVec Ideal S64x1 .f32) (s : Fin 64) :
    shapeCast S64 x shapeCasts_S64x1_S64 (ix1 s) = x (ix2 s (0 : Fin 1)) :=
  shapeCast_apply x shapeCasts_S64x1_S64 _ _ (by
    rw [Shape.rowMajor_val_two, Shape.rowMajor_val_one]
    show s.val * 1 + 0 = s.val
    omega)

/-- The sum over the cores' axis of a [2, 64, 8] table, from zero, reads at `(s, d)` the two cores' entries added. -/
theorem g_red8 (v : FVec Ideal S2x64x8 .f32) (s : Fin 64) (d : Fin 8) :
    Host.reduceAdd (F := Ideal) v (constant (F := Ideal) S_ .f32 0x00000000#32) reducesTo_S2x64x8_S64x8_d0 h_S_
        (ix2 s d) = ∑ c' : Fin 2, v (ix3 c' s d) := by
  have hR : Shape.Reduces S2x64x8 [0] S64x8 := by decide
  unfold Host.reduceAdd
  rw [Ideal.hostReduceAdd_def, Ideal.hostReduceAdd_single reducesTo_S2x64x8_S64x8_d0 hR]
  show Ideal.ofBits .f32 0x00000000#32 + _ = _
  rw [Ideal.ofBits_zero_f32, zero_add]
  refine Finset.sum_congr rfl fun k _ => congrArg v (funext fun a => ?_)
  match a with
  | ⟨0, _⟩ => rfl
  | ⟨1, _⟩ => rfl
  | ⟨2, _⟩ => rfl

/-- The same for a [2, 64, 1] table. -/
theorem g_red1 (v : FVec Ideal S2x64x1 .f32) (s : Fin 64) :
    Host.reduceAdd (F := Ideal) v (constant (F := Ideal) S_ .f32 0x00000000#32) reducesTo_S2x64x1_S64x1_d0 h_S_
        (ix2 s (0 : Fin 1)) = ∑ c' : Fin 2, v (ix3 c' s (0 : Fin 1)) := by
  have hR : Shape.Reduces S2x64x1 [0] S64x1 := by decide
  unfold Host.reduceAdd
  rw [Ideal.hostReduceAdd_def, Ideal.hostReduceAdd_single reducesTo_S2x64x1_S64x1_d0 hR]
  show Ideal.ofBits .f32 0x00000000#32 + _ = _
  rw [Ideal.ofBits_zero_f32, zero_add]
  refine Finset.sum_congr rfl fun k _ => congrArg v (funext fun a => ?_)
  match a with
  | ⟨0, _⟩ => rfl
  | ⟨1, _⟩ => rfl
  | ⟨2, _⟩ => rfl

/-! ## The summed tables are the specification's -/

/-- The two cores' counts added are the specification's counts of the labels as launched. -/
theorem g_cntK_eq (c : Dev nD) : g_cntK m c = Cert.Spec.cnt (g_lab m c) := by
  funext i
  obtain ⟨s, rfl⟩ : ∃ s : Fin 64, i = ix1 s := ⟨i 0, eq_ix1 i⟩
  unfold g_cntK
  rw [g_cast, g_red1]
  have hW : (W5 m c (Proc.devRef .tc main_v2_1) : FVec Ideal S2x64x1 .f32) = (dat0 (E0 m) c).arrAt 3 cfg0.N :=
    W5_arr m c 3
  rw [hW, ← Cert.Math.cnt_eq (g_lab m c) (g_lp m c) (g_hl m c) s]
  exact Finset.sum_congr rfl fun c' _ => out0_cnt (E0 m) c c' s

/-- The two cores' sums added are the specification's sums of the rows and labels as launched. -/
theorem g_sumsK_eq (c : Dev nD) : g_sumsK m c = Cert.Spec.sums (g_x m c) (g_lab m c) := by
  funext i
  obtain ⟨s, d, rfl⟩ : ∃ (s : Fin 64) (d : Fin 8), i = ix2 s d := ⟨i 0, i 1, eq_ix2 i⟩
  unfold g_sumsK
  rw [g_red8]
  have hW : (W5 m c (Proc.devRef .tc main_v2_0) : FVec Ideal S2x64x8 .f32) = (dat0 (E0 m) c).arrAt 2 cfg0.N :=
    W5_arr m c 2
  rw [hW, ← Cert.Math.sums_eq (g_x m c) (g_lab m c) (g_xp m c) (g_lp m c) (g_hx m c) (g_hl m c) s d]
  exact Finset.sum_congr rfl fun c' _ => out0_sums (E0 m) c c' s d

/-- The two cores' sums of squared distances added are the specification's, from the means the second pass
    enters with. -/
theorem g_sqK_eq (c : Dev nD) :
    g_sqK m c = Cert.Spec.sqs (g_x m c) (g_lab m c) (W6 m c (Proc.devRef .tc main_v10) : FVec Ideal S64x8 .f32) := by
  funext i
  obtain ⟨s, rfl⟩ : ∃ s : Fin 64, i = ix1 s := ⟨i 0, eq_ix1 i⟩
  unfold g_sqK
  rw [g_cast, g_red1]
  have hW : (W7 m c (Proc.devRef .tc main_v11) : FVec Ideal S2x64x1 .f32) = (dat1 (E1 m) c).arrAt 3 cfg1.N :=
    W7_arr m c 3
  rw [hW, ← Cert.Math.sqs_eq (g_x m c) (g_lab m c) (g_xp m c) (g_lp m c) (g_hx m c) (g_hl m c)
    (W6 m c (Proc.devRef .tc main_v10) : FVec Ideal S64x8 .f32) s]
  refine Finset.sum_congr rfl fun c' _ => (out1_sq (E1 m) c c' s).trans ?_
  rw [g_E1_v0, g_E1_v1]

/-- THE KERNEL'S VALUE: at the last boundary the result buffer holds the specification's loss of the two arguments
    as launched. -/
theorem kernel_value (c : Dev nD) :
    (W10 m c (Proc.devRef .tc main_v25) : FVec Ideal S_ .f32)
      = Cert.Spec.loss (m ((c : Thread nD τ).loc main_arg0)) (m ((c : Thread nD τ).loc main_arg1)) := by
  rw [g_v25, g_sqK_eq, g_v10, g_cntK_eq, g_sumsK_eq]
  rfl

end Cert.KernelIdeal.Hand

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibGatherClamp.lean ====
/-
  The one-index gathers read at one element, whatever the start index.

  A gather whose start indices are an [e × 1] column (the index vector on axis 1, one component, sent to operand
  axis 0, that axis collapsed) reads, for result row p, the operand row

      min (toNat (idx[p, 0] read as a signed integer)) (n − 1):

  a negative word reads row 0, a word past the last row reads row n − 1, and a word that is a row number reads that
  row. For a rank-1 operand the result element p is that element of the operand; for an [n × f] operand whose second
  axis is an offset axis of full width, result element (p, c) is the operand's element (that row, c).

  No hypothesis is made on the index words. Each statement takes the dimension numbers' fields as hypotheses, so it
  applies to any record with those fields.
-/
import Idealize.ShloMosaic.PureOps.Ideal
import Idealize.ShloMosaic.Lib.ValueIdx
import proofs.«428285_j46179488367045_2_alg».proof.Proof.LibIndexMaps

noncomputable section

namespace Cert.Gcn.GatherClamp

open Idealize.ShloMosaic Idealize.ShloMosaic.ValueIdx Cert.Gcn.IndexMaps

/-- Rank-1 operand of n > 0 elements, [e × 1] start indices, rank-1 result: result element p is the operand's
    element at the index word at (p, 0) read signed, as a natural number, clamped to the last position n − 1. -/
theorem gather1_clamp_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e) :
    Host.gather d x idx (ix1 p) = x (ix1 ⟨min (idx (ix2 p (0 : Fin 1))).toInt.toNat (n - 1), by omega⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start (ix1 p) idx 0 + d.batchCoord (ix1 p) 0 + d.offCoord (ix1 p) 0
    = min (idx (ix2 p (0 : Fin 1))).toInt.toNat (n - 1)
  rw [GatherDims.batchCoord_eq_zero _ _ _ hb, GatherDims.offCoord_eq_zero _ _ _ hkp]
  unfold GatherDims.start
  rw [dif_pos hm, gather_siIdx_rank1 d hivd (ix1 p) _ _ (0 : Fin 1) hi, hsl]
  rfl

/-- [n × f] operand of n > 0 rows, [e × 1] start indices, [e × f] result, the second axis an offset axis of full
    width: result element (p, c) is the operand's element (r, c), where the row r is the index word at (p, 0) read
    signed, as a natural number, clamped to the last row n − 1. -/
theorem gather2_clamp_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f) :
    Host.gather d x idx (ix2 p c) = x (ix2 ⟨min (idx (ix2 p (0 : Fin 1))).toInt.toNat (n - 1), by omega⟩ c) := by
  unfold Host.gather
  congr 1
  funext a
  apply Fin.ext
  have hb : ∀ a : Fin 2, a ∉ d.operandBatchingDims := by intro a; rw [hob]; exact List.not_mem_nil
  show d.start (ix2 p c) idx a + d.batchCoord (ix2 p c) a + d.offCoord (ix2 p c) a
    = (ix2 (⟨min (idx (ix2 p (0 : Fin 1))).toInt.toNat (n - 1), by omega⟩ : Fin n) c a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hsl]
    rfl
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + ((ix2 p c) _).val = c.val
    have hall : ∀ x ∈ d.offsetDims, x.val = 1 := by rw [hod]; simp
    rw [coord_of_val1 (ix2 p c) _ (hall _ (List.getElem_mem _))]
    show 0 + 0 + c.val = c.val
    omega

end Cert.Gcn.GatherClamp

end
-- ==== Proof.RefValue.lean ====
/-
  The reference's result is the loss of the specification.

  The reference scatters ones, the rows and the rows' squared distances from their gathered means into 64
  segments by the label column.  An accumulating scatter adds to segment s exactly the updates whose index
  word reads s as a signed integer, and drops the others; so the three scatters are the specification's count,
  sum and squared deviation as soon as, for a row that hits s, the gathered mean is seen to be the mean of s:
  the label of such a row lies in [0, 64), so the wrap of negative indices leaves it alone and the gather's
  clamp does nothing.  The divisions, the maximum, the comparison, the selection and the last sum are the
  specification's own closed terms.
-/
import proofs.«428285_j46179488367045_2_alg».proof.Defs
import proofs.«428285_j46179488367045_2_alg».proof.Proof.RefRead
import proofs.«428285_j46179488367045_2_alg».proof.Proof.Spec
import proofs.«428285_j46179488367045_2_alg».proof.Proof.LibIndexMaps
import proofs.«428285_j46179488367045_2_alg».proof.Proof.LibGatherClamp
import Idealize.ShloMosaic.Lib.IdealHost

noncomputable section

namespace Cert.RefValue

open Idealize.ShloMosaic Idealize.ShloMosaic.ValueIdx
open Cert.ReferenceIdeal Cert.ReferenceIdeal.Gen
open Cert.ReferenceIdeal.ReadP

/-! ## The tail of the reference is the specification's two closed terms -/

/-- The last stage is the specification's loss term of the reference's counts and squared deviations. -/
theorem v36_eq_lossOf (x0 : (⟨S4000000x8, .f32⟩ : BufTy).Contents (Elt Ideal)) (x1 : (⟨S4000000, .i32⟩ : BufTy).Contents (Elt Ideal)) :
    val_main_v36 (F := Ideal) x0 x1 = Cert.Spec.lossOf (val_main_v3 (F := Ideal) x1) (val_main_v24 (F := Ideal) x0 x1) := rfl

/-- The reference's means are the specification's mean term of the reference's counts and sums. -/
theorem v11_eq_meansOf (x0 : (⟨S4000000x8, .f32⟩ : BufTy).Contents (Elt Ideal)) (x1 : (⟨S4000000, .i32⟩ : BufTy).Contents (Elt Ideal)) :
    val_main_v11 (F := Ideal) x0 x1 = Cert.Spec.meansOf (val_main_v3 (F := Ideal) x1) (val_main_v6 (F := Ideal) x0 x1) := rfl

/-! ## The accumulating scatters and the gather on the program's shapes -/

/-- At the extended reals the host's accumulating scatter is the exact one. -/
theorem hostScatterAdd_eq {s si u : Shape} {w : Nat} (d : ScatterDims s si u) (x : FVec Ideal s .f32) (idx : IVec si w) (upd : FVec Ideal u .f32) :
    Host.scatterAdd (F := Ideal) d x idx upd = Ideal.hostScatterAdd d x idx upd := rfl

/-- The accumulating scatter into the 64 segments, read at segment r. -/
theorem scat1 (x : S64.Idx → EReal) (idx : IVec S4000000x1 32) (upd : S4000000.Idx → EReal) (r : Fin 64) :
    Ideal.hostScatterAdd scatter_S64_S4000000x1_S4000000_n_0_0_1 x idx upd (ix1 r)
      = x (ix1 r) + ∑ p : Fin 4000000, if (idx (ix2 p (0 : Fin 1))).toInt = ((r.val : ℕ) : Int) then upd (ix1 p) else 0 :=
  Cert.Gcn.IndexMaps.hostScatterAdd1_apply (n := 64) (e := 4000000) scatter_S64_S4000000x1_S4000000_n_0_0_1 rfl rfl rfl rfl x idx upd r

/-- The index column read at (p, 0) is the label of row p (one statement per copy of the column). -/
theorem idx_col (p : Fin 4000000) : idx_main_v2 (ix2 p (0 : Fin 1)) = ix1 p := by
  funext a; match a with | ⟨0, _⟩ => rfl

theorem idx_col5 (p : Fin 4000000) : idx_main_v5 (ix2 p (0 : Fin 1)) = ix1 p := by
  funext a; match a with | ⟨0, _⟩ => rfl

theorem idx_col17 (p : Fin 4000000) : idx_main_v17 (ix2 p (0 : Fin 1)) = ix1 p := by
  funext a; match a with | ⟨0, _⟩ => rfl

theorem idx_col23 (p : Fin 4000000) : idx_main_v23 (ix2 p (0 : Fin 1)) = ix1 p := by
  funext a; match a with | ⟨0, _⟩ => rfl

/-- The row sum's k-th operand index at row p is (p, k). -/
theorem idx_row21 (p : Fin 4000000) (k : Fin 8) : idx_main_v21 (ix1 p) k = ix2 p k := by
  funext a; match a with | ⟨0, _⟩ => rfl | ⟨1, _⟩ => rfl

/-- The accumulating scatter of rows into the 64 × 8 table, read at (r, c). -/
theorem scat2 (x : S64x8.Idx → EReal) (idx : IVec S4000000x1 32) (upd : S4000000x8.Idx → EReal) (r : Fin 64) (c : Fin 8) :
    Ideal.hostScatterAdd scatter_S64x8_S4000000x1_S4000000x8_1_0_0_1 x idx upd (ix2 r c)
      = x (ix2 r c) + ∑ p : Fin 4000000, if (idx (ix2 p (0 : Fin 1))).toInt = ((r.val : ℕ) : Int) then upd (ix2 p c) else 0 :=
  Cert.Gcn.IndexMaps.hostScatterAdd2_apply (n := 64) (f := 8) (e := 4000000) scatter_S64x8_S4000000x1_S4000000x8_1_0_0_1 rfl rfl rfl rfl x idx upd r c

/-- A label word that reads a natural number is not negative: the wrap of negative indices returns it. -/
theorem wrap_of_nat (w y : BitVec 32) (s : ℕ) (h : w.toInt = ((s : ℕ) : Int)) :
    Scalar.select (IntOp.cmpi .slt w 0#32) y w = w := by
  have hs : w.slt 0#32 = false := by
    rw [BitVec.slt, h]
    simp
  show Scalar.select (BitVec.ofBool (w.slt 0#32)) y w = w
  rw [hs]
  rfl

/-- The gather of rows of a 64 × 8 table, read at (p, c): the row is the index word clamped. -/
theorem gath (x : S64x8.Idx → EReal) (idx : IVec S4000000x1 32) (p : Fin 4000000) (c : Fin 8) :
    Host.gather gather_S64x8_S4000000x1_S4000000x8_1_0_n_n_0_1_18 x idx (ix2 p c)
      = x (ix2 ⟨min (idx (ix2 p (0 : Fin 1))).toInt.toNat (64 - 1), by omega⟩ c) :=
  Cert.Gcn.GatherClamp.gather2_clamp_apply (n := 64) (f := 8) (e := 4000000) (by decide)
    gather_S64x8_S4000000x1_S4000000x8_1_0_n_n_0_1_18 rfl rfl rfl rfl rfl x idx p c

/-- When the index word reads a row number r of the table, the clamp does nothing. -/
theorem gath_hit (x : S64x8.Idx → EReal) (idx : IVec S4000000x1 32) (p : Fin 4000000) (c : Fin 8) (r : Fin 64)
    (h : (idx (ix2 p (0 : Fin 1))).toInt = ((r.val : ℕ) : Int)) :
    Host.gather gather_S64x8_S4000000x1_S4000000x8_1_0_n_n_0_1_18 x idx (ix2 p c) = x (ix2 r c) := by
  rw [gath]
  refine congrArg (fun q : Fin 64 => x (ix2 q c)) (Fin.ext ?_)
  show min (idx (ix2 p (0 : Fin 1))).toInt.toNat (64 - 1) = r.val
  rw [h, Int.toNat_natCast]
  have := r.isLt
  omega

/-! ## The specification read at a segment -/

/-- The count of the specification, read at segment r. -/
theorem cnt_apply (lab : IVec Cert.Spec.SN 32) (r : Fin 64) :
    Cert.Spec.cnt lab (ix1 r) = ∑ p : Fin 4000000, if Cert.Spec.Hit lab r.val p then (1 : EReal) else 0 := rfl

/-- A choice on "the label word of row p reads s" is the choice on "row p hits s". -/
theorem ite_hit (lab : IVec Cert.Spec.SN 32) (s : ℕ) (p : Fin 4000000) (a b : EReal) :
    (if (lab (ix1 p)).toInt = ((s : ℕ) : Int) then a else b) = if Cert.Spec.Hit lab s p then a else b :=
  if_congr Iff.rfl rfl rfl

/-- The sums of the specification, read at (r, c). -/
theorem sums_apply (x : FVec Ideal Cert.Spec.SN8 .f32) (lab : IVec Cert.Spec.SN 32) (r : Fin 64) (c : Fin 8) :
    Cert.Spec.sums x lab (ix2 r c) = ∑ p : Fin 4000000, if Cert.Spec.Hit lab r.val p then x (ix2 p c) else 0 := rfl

/-- The squared deviations of the specification, read at segment r. -/
theorem sqs_apply (x : FVec Ideal Cert.Spec.SN8 .f32) (lab : IVec Cert.Spec.SN 32) (μ : FVec Ideal Cert.Spec.S64x8 .f32) (r : Fin 64) :
    Cert.Spec.sqs x lab μ (ix1 r) = ∑ p : Fin 4000000, if Cert.Spec.Hit lab r.val p then
      ∑ d : Fin 8, (x (ix2 p d) - μ (ix2 r d)) * (x (ix2 p d) - μ (ix2 r d)) else 0 := rfl

/-! ## The three scatters are the count, the sums and the squared deviations -/

/-- The scatter of ones is the count: zero plus one for each row that hits the segment. -/
theorem v3_eq_cnt (x1 : (⟨S4000000, .i32⟩ : BufTy).Contents (Elt Ideal)) :
    val_main_v3 (F := Ideal) x1 = Cert.Spec.cnt x1 := by
  funext i
  obtain ⟨r, rfl⟩ : ∃ r : Fin 64, i = ix1 r := ⟨i 0, eq_ix1 i⟩
  unfold val_main_v3
  rw [hostScatterAdd_eq, scat1, cnt_apply, val_main_v1_apply, val_main_cst_0_apply, Ideal.ofBits_def,
    Ideal.ofBits_zero_f32, zero_add]
  refine Finset.sum_congr rfl fun p _ => ?_
  rw [val_main_v2_apply, idx_col, val_main_v0_apply, val_main_cst_apply, Ideal.ofBits_def, Ideal.ofBits_one_f32]
  exact ite_hit x1 r.val p 1 0

/-- The scatter of the rows is the sums: zero plus the entry of each row that hits the segment. -/
theorem v6_eq_sums (x0 : (⟨S4000000x8, .f32⟩ : BufTy).Contents (Elt Ideal)) (x1 : (⟨S4000000, .i32⟩ : BufTy).Contents (Elt Ideal)) :
    val_main_v6 (F := Ideal) x0 x1 = Cert.Spec.sums x0 x1 := by
  funext i
  obtain ⟨r, c, rfl⟩ : ∃ (r : Fin 64) (c : Fin 8), i = ix2 r c := ⟨i 0, i 1, eq_ix2 i⟩
  unfold val_main_v6
  rw [hostScatterAdd_eq, scat2, sums_apply, val_main_v4_apply, val_main_cst_1_apply, Ideal.ofBits_def,
    Ideal.ofBits_zero_f32, zero_add]
  refine Finset.sum_congr rfl fun p _ => ?_
  rw [val_main_v5_apply, idx_col5]
  exact ite_hit x1 r.val p _ _

/-- For a row that hits segment r, the wrapped index column reads r. -/
theorem v17_hit (x1 : (⟨S4000000, .i32⟩ : BufTy).Contents (Elt Ideal)) (p : Fin 4000000) (r : Fin 64)
    (h : Cert.Spec.Hit x1 r.val p) :
    (val_main_v17 (F := Ideal) x1 (ix2 p (0 : Fin 1))).toInt = ((r.val : ℕ) : Int) := by
  rw [val_main_v17_apply, idx_col17, val_main_v16_apply, val_main_v13_apply, val_main_v12_apply, val_main_c_apply,
    wrap_of_nat _ _ r.val h]
  exact h

/-- For a row that hits segment r, the gathered mean is the mean of r. -/
theorem v18_hit (x0 : (⟨S4000000x8, .f32⟩ : BufTy).Contents (Elt Ideal)) (x1 : (⟨S4000000, .i32⟩ : BufTy).Contents (Elt Ideal))
    (p : Fin 4000000) (d : Fin 8) (r : Fin 64) (h : Cert.Spec.Hit x1 r.val p) :
    val_main_v18 (F := Ideal) x0 x1 (ix2 p d) = val_main_v11 (F := Ideal) x0 x1 (ix2 r d) := by
  unfold val_main_v18
  exact gath_hit _ _ p d r (v17_hit x1 p r h)

/-- For a row that hits segment r, the row's update is its squared distance from the mean of r. -/
theorem v21_hit (x0 : (⟨S4000000x8, .f32⟩ : BufTy).Contents (Elt Ideal)) (x1 : (⟨S4000000, .i32⟩ : BufTy).Contents (Elt Ideal))
    (p : Fin 4000000) (r : Fin 64) (h : Cert.Spec.Hit x1 r.val p) :
    val_main_v21 (F := Ideal) x0 x1 (ix1 p)
      = ∑ d : Fin 8, (x0 (ix2 p d) - val_main_v11 (F := Ideal) x0 x1 (ix2 r d))
          * (x0 (ix2 p d) - val_main_v11 (F := Ideal) x0 x1 (ix2 r d)) := by
  rw [val_main_v21_apply, val_main_cst_4_apply, Ideal.ofBits_def, Ideal.ofBits_zero_f32, zero_add]
  refine Finset.sum_congr rfl fun d _ => ?_
  rw [idx_row21, val_main_v20_apply, val_main_v19_apply, Ideal.mulf_def, Ideal.subf_def, v18_hit x0 x1 p d r h]

/-- The scatter of the rows' squared distances is the squared deviations about the reference's own means. -/
theorem v24_eq_sqs (x0 : (⟨S4000000x8, .f32⟩ : BufTy).Contents (Elt Ideal)) (x1 : (⟨S4000000, .i32⟩ : BufTy).Contents (Elt Ideal)) :
    val_main_v24 (F := Ideal) x0 x1 = Cert.Spec.sqs x0 x1 (val_main_v11 (F := Ideal) x0 x1) := by
  funext i
  obtain ⟨r, rfl⟩ : ∃ r : Fin 64, i = ix1 r := ⟨i 0, eq_ix1 i⟩
  unfold val_main_v24
  rw [hostScatterAdd_eq, scat1, sqs_apply, val_main_v22_apply, val_main_cst_5_apply, Ideal.ofBits_def,
    Ideal.ofBits_zero_f32, zero_add]
  refine Finset.sum_congr rfl fun p _ => ?_
  rw [val_main_v23_apply, idx_col23, ite_hit]
  by_cases h : Cert.Spec.Hit x1 r.val p
  · rw [if_pos h, if_pos h, v21_hit x0 x1 p r h]
  · rw [if_neg h, if_neg h]

/-! ## The value -/

/-- The reference's last stage, at the extended reals, is the specification's loss of the two arguments. -/
theorem ref_eq (x0 : (⟨S4000000x8, .f32⟩ : BufTy).Contents (Elt Ideal)) (x1 : (⟨S4000000, .i32⟩ : BufTy).Contents (Elt Ideal)) :
    Cert.ReferenceIdeal.ReadP.val_main_v36 (F := Ideal) x0 x1 = Cert.Spec.loss x0 x1 := by
  rw [v36_eq_lossOf, v24_eq_sqs, v11_eq_meansOf, v3_eq_cnt, v6_eq_sums]
  rfl

end Cert.RefValue

end
-- ==== Proof.lean ====
/-
  A per-instance variance loss, computed two ways, is one function of its two arguments over the extended reals.

  The kernel's program pads the 4,000,000 rows and labels to 2 × 245 blocks of 8192, runs two passes over the
  blocks on a grid of two cores by 245 steps — the first accumulating per-segment sums and counts as products
  with a one-hot matrix of the labels, the second, given the per-segment means, the per-segment sums of squared
  distances of the rows from their own segment's mean — and adds the two cores' tables on the host; the reference
  scatters the rows into 64 segments by label, gathers the means back and scatters the squared distances.  Both
  are the loss of the specification: a row enters segment s exactly when its label reads s, rows with labels outside
  [0, 64) (the padding among them) enter nothing on either side, and only the order and grouping of finite sums
  differ.  No finiteness of the inputs is used.

  The three frames: each program runs to the end, nothing faulting, and leaves its two argument arrays as launched
  — the kernel's program at both float families by the same run of its ten items, the reference's by its run of
  fifty host operations.  The idealized kernel is the kernel's own text read over the extended reals: nothing to
  preserve.
-/
import proofs.«428285_j46179488367045_2_alg».proof.Defs
import proofs.«428285_j46179488367045_2_alg».proof.Proof.Gen.Kernel
import proofs.«428285_j46179488367045_2_alg».proof.Proof.Gen.KernelIdeal
import proofs.«428285_j46179488367045_2_alg».proof.Proof.Gen.ReferenceIdeal
import proofs.«428285_j46179488367045_2_alg».proof.Proof.Gen.Pre_finite_inputs
import proofs.«428285_j46179488367045_2_alg».proof.Proof.K.Run
import proofs.«428285_j46179488367045_2_alg».proof.Proof.KI.Run
import proofs.«428285_j46179488367045_2_alg».proof.Proof.KI.Glue
import proofs.«428285_j46179488367045_2_alg».proof.Proof.RefValue
import Idealize.ShloMosaic.Adequacy
import Idealize.ShloMosaic.Init

noncomputable section

namespace Cert.Proof

open Idealize.ShloMosaic Idealize.ShloMosaic.TcCoe Idealize.SL.Sem

/-- The kernel's program at the word level runs and keeps its arguments. -/
theorem frame_k : Cert.frame_Kernel := fun m ρ _ => Cert.Kernel.Hand.frame (F := Bits) m ρ

/-- The same program read over the extended reals. -/
theorem frame_ki : Cert.frame_KernelIdeal := fun m ρ _ => Cert.KernelIdeal.Hand.frame (F := Ideal) m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the two arguments both programs end with the specification's loss of them. -/
theorem algebraic : Cert.algebraic_KernelIdeal_ReferenceIdeal := by
  intro m ρ m' ρ' _ hagree
  refine ⟨fun c => Cert.Spec.loss (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun _ h c => ⟨?_, ?_, ?_⟩) (Cert.KernelIdeal.Hand.run_all (F := Ideal) m ρ)
    · exact (h c _ (Cert.KernelIdeal.Hand.mem_uc Cert.KernelIdeal.main_v25 (by decide))).trans (Cert.KernelIdeal.Hand.kernel_value m c)
    · exact (h c _ (Cert.KernelIdeal.Hand.mem_uc Cert.KernelIdeal.main_arg0 (by decide))).trans (Cert.KernelIdeal.Hand.W10_main_arg0 m c)
    · exact (h c _ (Cert.KernelIdeal.Hand.mem_uc Cert.KernelIdeal.main_arg1 (by decide))).trans (Cert.KernelIdeal.Hand.W10_main_arg1 m c)
  · refine (θ_run Cert.ReferenceIdeal.defs _ _).mono (fun _ h c => ⟨(h c).1.trans ?_, (h c).2⟩)
      (Cert.ReferenceIdeal.ValueP.run (F := Ideal) m' ρ')
    rw [(hagree c).1, (hagree c).2]
    exact (Cert.ReferenceIdeal.ReadP.val_main_v36_eq (F := Ideal) _ _).trans (Cert.RefValue.ref_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
